-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S1023x785 : Shape := ⟨2, ![1023, 785]⟩
abbrev S10x1024 : Shape := ⟨2, ![10, 1024]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S1023x785 : S_.BroadcastsInDim S1023x785 (![] : Fin 0 → Fin S1023x785.rank)
  reducesTo_S1023x785_S_d0_1 : S1023x785.ReducesTo [0, 1] S_
  bcast_S_S10x1024 : S_.BroadcastsInDim S10x1024 (![] : Fin 0 → Fin S10x1024.rank)
  reducesTo_S10x1024_S_d0_1 : S10x1024.ReducesTo [0, 1] S_

variable [Facts]

def fn {F : FTy → Type} [FloatOps F] (main_arg0 : FVec F S32768x784 .f32) (main_arg1 : FVec F S1023x785 .f32) (main_arg2 : FVec F S10x1024 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S1023x785 .f32 := Host.absf main_arg1
  let main_cst_0 : FVec F S_ .f32 := constant S_ .f32 0x7F800000#32
  let main_v5 : FVec F S1023x785 .f32 := broadcastInDim S1023x785 ![] bcast_S_S1023x785 main_cst_0
  let main_v6 : IVec S1023x785 1 := cmpf .olt main_v4 main_v5
  let main_c_1 : IVec S_ 1 := constantI S_ 1 1#1
  let main_v7 : IVec S_ 1 := (fun x v => Host.reduce IntOp.andi x v reducesTo_S1023x785_S_d0_1 h_S_) main_v6 main_c_1
  let main_v8 : IVec S_ 1 := andi main_v3 main_v7
  let main_v9 : FVec F S10x1024 .f32 := Host.absf main_arg2
  let main_cst_2 : FVec F S_ .f32 := constant S_ .f32 0x7F800000#32
  let main_v10 : FVec F S10x1024 .f32 := broadcastInDim S10x1024 ![] bcast_S_S10x1024 main_cst_2
  let main_v11 : IVec S10x1024 1 := cmpf .olt main_v9 main_v10
  let main_c_3 : IVec S_ 1 := constantI S_ 1 1#1
  let main_v12 : IVec S_ 1 := (fun x v => Host.reduce IntOp.andi x v reducesTo_S10x1024_S_d0_1 h_S_) main_v11 main_c_3
  let main_v13 : IVec S_ 1 := andi main_v8 main_v12
  main_v13
-- ==== Kernel.lean ====
abbrev S32768x784 : Shape := ⟨2, ![32768, 784]⟩
abbrev S1023x785 : Shape := ⟨2, ![1023, 785]⟩
abbrev S10x1024 : Shape := ⟨2, ![10, 1024]⟩
abbrev S1x2046 : Shape := ⟨2, ![1, 2046]⟩
abbrev S1023x1 : Shape := ⟨2, ![1023, 1]⟩
abbrev S1023 : Shape := ⟨1, ![1023]⟩
abbrev S1x1023 : Shape := ⟨2, ![1, 1023]⟩
abbrev S1023x784 : Shape := ⟨2, ![1023, 784]⟩
abbrev S784x1023 : Shape := ⟨2, ![784, 1023]⟩
abbrev S1024x10 : Shape := ⟨2, ![1024, 10]⟩
abbrev S32768x10 : Shape := ⟨2, ![32768, 10]⟩
abbrev S1x1 : Shape := ⟨2, ![1, 1]⟩
abbrev S512x784 : Shape := ⟨2, ![512, 784]⟩
abbrev S512x10 : Shape := ⟨2, ![512, 10]⟩
abbrev S512x1023 : Shape := ⟨2, ![512, 1023]⟩
abbrev S512x1 : Shape := ⟨2, ![512, 1]⟩
abbrev S512x1x1 : Shape := ⟨3, ![512, 1, 1]⟩
abbrev S512x1x2 : Shape := ⟨3, ![512, 1, 2]⟩
abbrev S512x2 : Shape := ⟨2, ![512, 2]⟩
abbrev S2 : Shape := ⟨1, ![2]⟩
abbrev S1x2 : Shape := ⟨2, ![1, 2]⟩
abbrev S1 : Shape := ⟨1, ![1]⟩
abbrev S1x1x1 : Shape := ⟨3, ![1, 1, 1]⟩
abbrev S1x1x2 : Shape := ⟨3, ![1, 1, 2]⟩
abbrev S512x2x1 : Shape := ⟨3, ![512, 2, 1]⟩
abbrev S512x2x2 : Shape := ⟨3, ![512, 2, 2]⟩
abbrev S512x4 : Shape := ⟨2, ![512, 4]⟩
abbrev S4 : Shape := ⟨1, ![4]⟩
abbrev S1x4 : Shape := ⟨2, ![1, 4]⟩
abbrev S1x2x1 : Shape := ⟨3, ![1, 2, 1]⟩
abbrev S1x2x2 : Shape := ⟨3, ![1, 2, 2]⟩
abbrev S512x4x1 : Shape := ⟨3, ![512, 4, 1]⟩
abbrev S512x4x2 : Shape := ⟨3, ![512, 4, 2]⟩
abbrev S512x8 : Shape := ⟨2, ![512, 8]⟩
abbrev S8 : Shape := ⟨1, ![8]⟩
abbrev S1x8 : Shape := ⟨2, ![1, 8]⟩
abbrev S1x4x1 : Shape := ⟨3, ![1, 4, 1]⟩
abbrev S1x4x2 : Shape := ⟨3, ![1, 4, 2]⟩
abbrev S512x8x1 : Shape := ⟨3, ![512, 8, 1]⟩
abbrev S512x8x2 : Shape := ⟨3, ![512, 8, 2]⟩
abbrev S512x16 : Shape := ⟨2, ![512, 16]⟩
abbrev S16 : Shape := ⟨1, ![16]⟩
abbrev S1x16 : Shape := ⟨2, ![1, 16]⟩
abbrev S1x8x1 : Shape := ⟨3, ![1, 8, 1]⟩
abbrev S1x8x2 : Shape := ⟨3, ![1, 8, 2]⟩
abbrev S512x16x1 : Shape := ⟨3, ![512, 16, 1]⟩
abbrev S512x16x2 : Shape := ⟨3, ![512, 16, 2]⟩
abbrev S512x32 : Shape := ⟨2, ![512, 32]⟩
abbrev S32 : Shape := ⟨1, ![32]⟩
abbrev S1x32 : Shape := ⟨2, ![1, 32]⟩
abbrev S1x16x1 : Shape := ⟨3, ![1, 16, 1]⟩
abbrev S1x16x2 : Shape := ⟨3, ![1, 16, 2]⟩
abbrev S512x32x1 : Shape := ⟨3, ![512, 32, 1]⟩
abbrev S512x32x2 : Shape := ⟨3, ![512, 32, 2]⟩
abbrev S512x64 : Shape := ⟨2, ![512, 64]⟩
abbrev S64 : Shape := ⟨1, ![64]⟩
abbrev S1x64 : Shape := ⟨2, ![1, 64]⟩
abbrev S1x32x1 : Shape := ⟨3, ![1, 32, 1]⟩
abbrev S1x32x2 : Shape := ⟨3, ![1, 32, 2]⟩
abbrev S512x64x1 : Shape := ⟨3, ![512, 64, 1]⟩
abbrev S512x64x2 : Shape := ⟨3, ![512, 64, 2]⟩
abbrev S512x128 : Shape := ⟨2, ![512, 128]⟩
abbrev S128 : Shape := ⟨1, ![128]⟩
abbrev S1x128 : Shape := ⟨2, ![1, 128]⟩
abbrev S1x64x1 : Shape := ⟨3, ![1, 64, 1]⟩
abbrev S1x64x2 : Shape := ⟨3, ![1, 64, 2]⟩
abbrev S512x128x1 : Shape := ⟨3, ![512, 128, 1]⟩
abbrev S512x128x2 : Shape := ⟨3, ![512, 128, 2]⟩
abbrev S512x256 : Shape := ⟨2, ![512, 256]⟩
abbrev S256 : Shape := ⟨1, ![256]⟩
abbrev S1x256 : Shape := ⟨2, ![1, 256]⟩
abbrev S1x128x1 : Shape := ⟨3, ![1, 128, 1]⟩
abbrev S1x128x2 : Shape := ⟨3, ![1, 128, 2]⟩
abbrev S512x256x1 : Shape := ⟨3, ![512, 256, 1]⟩
abbrev S512x256x2 : Shape := ⟨3, ![512, 256, 2]⟩
abbrev S512x512 : Shape := ⟨2, ![512, 512]⟩
abbrev S512 : Shape := ⟨1, ![512]⟩
abbrev S1x512 : Shape := ⟨2, ![1, 512]⟩
abbrev S1x256x1 : Shape := ⟨3, ![1, 256, 1]⟩
abbrev S1x256x2 : Shape := ⟨3, ![1, 256, 2]⟩
abbrev S512x512x1 : Shape := ⟨3, ![512, 512, 1]⟩
abbrev S512x512x2 : Shape := ⟨3, ![512, 512, 2]⟩
abbrev S512x1024 : Shape := ⟨2, ![512, 1024]⟩
abbrev S1024 : Shape := ⟨1, ![1024]⟩
abbrev S1x1024 : Shape := ⟨2, ![1, 1024]⟩
abbrev S1x512x1 : Shape := ⟨3, ![1, 512, 1]⟩
abbrev S1x512x2 : Shape := ⟨3, ![1, 512, 2]⟩
abbrev S_ : Shape := ⟨0, ![]⟩

abbrev nBuf : Space → Nat
  | .hbm => 15
  | .vmem => 11
  | .smem => 0
  | _ => 0

abbrev bufTy : (tb : Table) → Fin (tcTables nBuf tb) → BufTy
  | .hbm, ⟨0, _⟩ => ⟨S32768x784, .f32⟩
  | .hbm, ⟨1, _⟩ => ⟨S1023x785, .f32⟩
  | .hbm, ⟨2, _⟩ => ⟨S10x1024, .f32⟩
  | .hbm, ⟨3, _⟩ => ⟨S1x2046, .f32⟩
  | .hbm, ⟨4, _⟩ => ⟨S1023x1, .f32⟩
  | .hbm, ⟨5, _⟩ => ⟨S1023, .f32⟩
  | .hbm, ⟨6, _⟩ => ⟨S1x1023, .f32⟩
  | .hbm, ⟨7, _⟩ => ⟨S1023x784, .f32⟩
  | .hbm, ⟨8, _⟩ => ⟨S784x1023, .f32⟩
  | .hbm, ⟨9, _⟩ => ⟨S784x1023, .bf16⟩
  | .hbm, ⟨10, _⟩ => ⟨S1024x10, .f32⟩
  | .hbm, ⟨11, _⟩ => ⟨S1024x10, .bf16⟩
  | .hbm, ⟨12, _⟩ => ⟨S32768x10, .f32⟩
  | .hbm, ⟨13, _⟩ => ⟨S1x1, .f32⟩
  | .hbm, ⟨14, _⟩ => ⟨S_, .f32⟩
  | .local _ .vmem, ⟨0, _⟩ => ⟨S512x784, .f32⟩
  | .local _ .vmem, ⟨1, _⟩ => ⟨S512x784, .f32⟩
  | .local _ .vmem, ⟨2, _⟩ => ⟨S784x1023, .bf16⟩
  | .local _ .vmem, ⟨3, _⟩ => ⟨S1x1023, .f32⟩
  | .local _ .vmem, ⟨4, _⟩ => ⟨S1024x10, .bf16⟩
  | .local _ .vmem, ⟨5, _⟩ => ⟨S1x2046, .f32⟩
  | .local _ .vmem, ⟨6, _⟩ => ⟨S512x10, .f32⟩
  | .local _ .vmem, ⟨7, _⟩ => ⟨S512x10, .f32⟩
  | .local _ .vmem, ⟨8, _⟩ => ⟨S1x1, .f32⟩
  | .local _ .vmem, ⟨9, _⟩ => ⟨S1x2046, .f32⟩
  | .local _ .vmem, ⟨10, _⟩ => ⟨S1x2046, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v289 : BitVec 1 := Scalar.cmpi .eq arg0 c63_i32
  let v290 : BitVec 32 := Scalar.extui v289
  let c0_i32_113 : BitVec 32 := 0#32
  let v291 : BitVec 1 := Scalar.cmpi .ne v290 c0_i32_113
  v291

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1023 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1023 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2046 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S1023x785_S1023x1_0_0 : S1023x785.Slices ![0, 0] S1023x1
  shapeCasts_S1023x1_S1023 : S1023x1.ShapeCasts S1023
  shapeCasts_S1023_S1x1023 : S1023.ShapeCasts S1x1023
  slices_S1023x785_S1023x784_0_1 : S1023x785.Slices ![0, 1] S1023x784
  transposes_S1023x784_S784x1023_1_0 : S1023x784.Transposes [1, 0] S784x1023
  bitsLt_bf16_f32 : FTy.bits .bf16 < FTy.bits .f32
  transposes_S10x1024_S1024x10_1_0 : S10x1024.Transposes [1, 0] S1024x10
  inb_S1x2046_S1x2046_0_0 : ∀ a, (![0, 0] : Fin 2 → Nat) a + S1x2046.size a ≤ S1x2046.size a
  h_S1x2046 : 0 < S1x2046.numel
  shapeCasts_S1x2046_S1x2046 : S1x2046.ShapeCasts S1x2046
  inb_S512x784_S512x784_0_0 : ∀ a, (![0, 0] : Fin 2 → Nat) a + S512x784.size a ≤ S512x784.size a
  h_S512x784 : 0 < S512x784.numel
  inb_S784x1023_S784x1023_0_0 : ∀ a, (![0, 0] : Fin 2 → Nat) a + S784x1023.size a ≤ S784x1023.size a
  h_S784x1023 : 0 < S784x1023.numel
  shapeCasts_S784x1023_S784x1023 : S784x1023.ShapeCasts S784x1023
  inb_S1x1023_S1x1023_0_0 : ∀ a, (![0, 0] : Fin 2 → Nat) a + S1x1023.size a ≤ S1x1023.size a
  h_S1x1023 : 0 < S1x1023.numel
  shapeCasts_S1x1023_S1x1023 : S1x1023.ShapeCasts S1x1023
  broadcasts_S1x1023_S512x1023 : S1x1023.Broadcasts S512x1023
  slices_S512x1023_o0_0_S512x1 : S512x1023.Slices ![0, 0] S512x1
  shapeCasts_S512x1_S512x1x1 : S512x1.ShapeCasts S512x1x1
  concatenates_S512x1x1_S512x1x1_S512x1x2_d2 : Shape.Concatenates [S512x1x1, S512x1x1] S512x1x2 2
  shapeCasts_S512x1x2_S512x2 : S512x1x2.ShapeCasts S512x2
  reduces_S512x2_S2 : S512x2.Reduces [0] S2
  shapeCasts_S2_S1x2 : S2.ShapeCasts S1x2
  reduces_S512x1_S1 : S512x1.Reduces [0] S1
  shapeCasts_S1_S1x1 : S1.ShapeCasts S1x1
  shapeCasts_S1x1_S1x1x1 : S1x1.ShapeCasts S1x1x1
  concatenates_S1x1x1_S1x1x1_S1x1x2_d2 : Shape.Concatenates [S1x1x1, S1x1x1] S1x1x2 2
  shapeCasts_S1x1x2_S1x2 : S1x1x2.ShapeCasts S1x2
  inb_S1x2046_S1x2_0_0 : ∀ a, (![0, 0] : Fin 2 → Nat) a + S1x2.size a ≤ S1x2046.size a
  h_S1x2 : 0 < S1x2.numel
  shapeCasts_S1x2_S1x2 : S1x2.ShapeCasts S1x2
  slices_S512x1023_o0_1_S512x2 : S512x1023.Slices ![0, 1] S512x2
  shapeCasts_S512x2_S512x2x1 : S512x2.ShapeCasts S512x2x1
  concatenates_S512x2x1_S512x2x1_S512x2x2_d2 : Shape.Concatenates [S512x2x1, S512x2x1] S512x2x2 2
  shapeCasts_S512x2x2_S512x4 : S512x2x2.ShapeCasts S512x4
  reduces_S512x4_S4 : S512x4.Reduces [0] S4
  shapeCasts_S4_S1x4 : S4.ShapeCasts S1x4
  shapeCasts_S1x2_S1x2x1 : S1x2.ShapeCasts S1x2x1
  concatenates_S1x2x1_S1x2x1_S1x2x2_d2 : Shape.Concatenates [S1x2x1, S1x2x1] S1x2x2 2
  shapeCasts_S1x2x2_S1x4 : S1x2x2.ShapeCasts S1x4
  inb_S1x2046_S1x4_0_2 : ∀ a, (![0, 2] : Fin 2 → Nat) a + S1x4.size a ≤ S1x2046.size a
  h_S1x4 : 0 < S1x4.numel
  shapeCasts_S1x4_S1x4 : S1x4.ShapeCasts S1x4
  slices_S512x1023_o0_3_S512x4 : S512x1023.Slices ![0, 3] S512x4
  shapeCasts_S512x4_S512x4x1 : S512x4.ShapeCasts S512x4x1
  concatenates_S512x4x1_S512x4x1_S512x4x2_d2 : Shape.Concatenates [S512x4x1, S512x4x1] S512x4x2 2
  shapeCasts_S512x4x2_S512x8 : S512x4x2.ShapeCasts S512x8
  reduces_S512x8_S8 : S512x8.Reduces [0] S8
  shapeCasts_S8_S1x8 : S8.ShapeCasts S1x8
  shapeCasts_S1x4_S1x4x1 : S1x4.ShapeCasts S1x4x1
  concatenates_S1x4x1_S1x4x1_S1x4x2_d2 : Shape.Concatenates [S1x4x1, S1x4x1] S1x4x2 2
  shapeCasts_S1x4x2_S1x8 : S1x4x2.ShapeCasts S1x8
  inb_S1x2046_S1x8_0_6 : ∀ a, (![0, 6] : Fin 2 → Nat) a + S1x8.size a ≤ S1x2046.size a
  h_S1x8 : 0 < S1x8.numel
  shapeCasts_S1x8_S1x8 : S1x8.ShapeCasts S1x8
  slices_S512x1023_o0_7_S512x8 : S512x1023.Slices ![0, 7] S512x8
  shapeCasts_S512x8_S512x8x1 : S512x8.ShapeCasts S512x8x1
  concatenates_S512x8x1_S512x8x1_S512x8x2_d2 : Shape.Concatenates [S512x8x1, S512x8x1] S512x8x2 2
  shapeCasts_S512x8x2_S512x16 : S512x8x2.ShapeCasts S512x16
  reduces_S512x16_S16 : S512x16.Reduces [0] S16
  shapeCasts_S16_S1x16 : S16.ShapeCasts S1x16
  shapeCasts_S1x8_S1x8x1 : S1x8.ShapeCasts S1x8x1
  concatenates_S1x8x1_S1x8x1_S1x8x2_d2 : Shape.Concatenates [S1x8x1, S1x8x1] S1x8x2 2
  shapeCasts_S1x8x2_S1x16 : S1x8x2.ShapeCasts S1x16
  inb_S1x2046_S1x16_0_14 : ∀ a, (![0, 14] : Fin 2 → Nat) a + S1x16.size a ≤ S1x2046.size a
  h_S1x16 : 0 < S1x16.numel
  shapeCasts_S1x16_S1x16 : S1x16.ShapeCasts S1x16
  slices_S512x1023_o0_15_S512x16 : S512x1023.Slices ![0, 15] S512x16
  shapeCasts_S512x16_S512x16x1 : S512x16.ShapeCasts S512x16x1
  concatenates_S512x16x1_S512x16x1_S512x16x2_d2 : Shape.Concatenates [S512x16x1, S512x16x1] S512x16x2 2
  shapeCasts_S512x16x2_S512x32 : S512x16x2.ShapeCasts S512x32
  reduces_S512x32_S32 : S512x32.Reduces [0] S32
  shapeCasts_S32_S1x32 : S32.ShapeCasts S1x32
  shapeCasts_S1x16_S1x16x1 : S1x16.ShapeCasts S1x16x1
  concatenates_S1x16x1_S1x16x1_S1x16x2_d2 : Shape.Concatenates [S1x16x1, S1x16x1] S1x16x2 2
  shapeCasts_S1x16x2_S1x32 : S1x16x2.ShapeCasts S1x32
  inb_S1x2046_S1x32_0_30 : ∀ a, (![0, 30] : Fin 2 → Nat) a + S1x32.size a ≤ S1x2046.size a
  h_S1x32 : 0 < S1x32.numel
  shapeCasts_S1x32_S1x32 : S1x32.ShapeCasts S1x32
  slices_S512x1023_o0_31_S512x32 : S512x1023.Slices ![0, 31] S512x32
  shapeCasts_S512x32_S512x32x1 : S512x32.ShapeCasts S512x32x1
  concatenates_S512x32x1_S512x32x1_S512x32x2_d2 : Shape.Concatenates [S512x32x1, S512x32x1] S512x32x2 2
  shapeCasts_S512x32x2_S512x64 : S512x32x2.ShapeCasts S512x64
  reduces_S512x64_S64 : S512x64.Reduces [0] S64
  shapeCasts_S64_S1x64 : S64.ShapeCasts S1x64
  shapeCasts_S1x32_S1x32x1 : S1x32.ShapeCasts S1x32x1
  concatenates_S1x32x1_S1x32x1_S1x32x2_d2 : Shape.Concatenates [S1x32x1, S1x32x1] S1x32x2 2
  shapeCasts_S1x32x2_S1x64 : S1x32x2.ShapeCasts S1x64
  inb_S1x2046_S1x64_0_62 : ∀ a, (![0, 62] : Fin 2 → Nat) a + S1x64.size a ≤ S1x2046.size a
  h_S1x64 : 0 < S1x64.numel
  shapeCasts_S1x64_S1x64 : S1x64.ShapeCasts S1x64
  slices_S512x1023_o0_63_S512x64 : S512x1023.Slices ![0, 63] S512x64
  shapeCasts_S512x64_S512x64x1 : S512x64.ShapeCasts S512x64x1
  concatenates_S512x64x1_S512x64x1_S512x64x2_d2 : Shape.Concatenates [S512x64x1, S512x64x1] S512x64x2 2
  shapeCasts_S512x64x2_S512x128 : S512x64x2.ShapeCasts S512x128
  reduces_S512x128_S128 : S512x128.Reduces [0] S128
  shapeCasts_S128_S1x128 : S128.ShapeCasts S1x128
  shapeCasts_S1x64_S1x64x1 : S1x64.ShapeCasts S1x64x1
  concatenates_S1x64x1_S1x64x1_S1x64x2_d2 : Shape.Concatenates [S1x64x1, S1x64x1] S1x64x2 2
  shapeCasts_S1x64x2_S1x128 : S1x64x2.ShapeCasts S1x128
  inb_S1x2046_S1x128_0_126 : ∀ a, (![0, 126] : Fin 2 → Nat) a + S1x128.size a ≤ S1x2046.size a
  h_S1x128 : 0 < S1x128.numel
  shapeCasts_S1x128_S1x128 : S1x128.ShapeCasts S1x128
  slices_S512x1023_o0_127_S512x128 : S512x1023.Slices ![0, 127] S512x128
  shapeCasts_S512x128_S512x128x1 : S512x128.ShapeCasts S512x128x1
  concatenates_S512x128x1_S512x128x1_S512x128x2_d2 : Shape.Concatenates [S512x128x1, S512x128x1] S512x128x2 2
  shapeCasts_S512x128x2_S512x256 : S512x128x2.ShapeCasts S512x256
  reduces_S512x256_S256 : S512x256.Reduces [0] S256
  shapeCasts_S256_S1x256 : S256.ShapeCasts S1x256
  shapeCasts_S1x128_S1x128x1 : S1x128.ShapeCasts S1x128x1
  concatenates_S1x128x1_S1x128x1_S1x128x2_d2 : Shape.Concatenates [S1x128x1, S1x128x1] S1x128x2 2
  shapeCasts_S1x128x2_S1x256 : S1x128x2.ShapeCasts S1x256
  inb_S1x2046_S1x256_0_254 : ∀ a, (![0, 254] : Fin 2 → Nat) a + S1x256.size a ≤ S1x2046.size a
  h_S1x256 : 0 < S1x256.numel
  shapeCasts_S1x256_S1x256 : S1x256.ShapeCasts S1x256
  slices_S512x1023_o0_255_S512x256 : S512x1023.Slices ![0, 255] S512x256
  shapeCasts_S512x256_S512x256x1 : S512x256.ShapeCasts S512x256x1
  concatenates_S512x256x1_S512x256x1_S512x256x2_d2 : Shape.Concatenates [S512x256x1, S512x256x1] S512x256x2 2
  shapeCasts_S512x256x2_S512x512 : S512x256x2.ShapeCasts S512x512
  reduces_S512x512_S512 : S512x512.Reduces [0] S512
  shapeCasts_S512_S1x512 : S512.ShapeCasts S1x512
  shapeCasts_S1x256_S1x256x1 : S1x256.ShapeCasts S1x256x1
  concatenates_S1x256x1_S1x256x1_S1x256x2_d2 : Shape.Concatenates [S1x256x1, S1x256x1] S1x256x2 2
  shapeCasts_S1x256x2_S1x512 : S1x256x2.ShapeCasts S1x512
  inb_S1x2046_S1x512_0_510 : ∀ a, (![0, 510] : Fin 2 → Nat) a + S1x512.size a ≤ S1x2046.size a
  h_S1x512 : 0 < S1x512.numel
  shapeCasts_S1x512_S1x512 : S1x512.ShapeCasts S1x512
  slices_S512x1023_o0_511_S512x512 : S512x1023.Slices ![0, 511] S512x512
  shapeCasts_S512x512_S512x512x1 : S512x512.ShapeCasts S512x512x1
  concatenates_S512x512x1_S512x512x1_S512x512x2_d2 : Shape.Concatenates [S512x512x1, S512x512x1] S512x512x2 2
  shapeCasts_S512x512x2_S512x1024 : S512x512x2.ShapeCasts S512x1024
  reduces_S512x1024_S1024 : S512x1024.Reduces [0] S1024
  shapeCasts_S1024_S1x1024 : S1024.ShapeCasts S1x1024
  shapeCasts_S1x512_S1x512x1 : S1x512.ShapeCasts S1x512x1
  concatenates_S1x512x1_S1x512x1_S1x512x2_d2 : Shape.Concatenates [S1x512x1, S1x512x1] S1x512x2 2
  shapeCasts_S1x512x2_S1x1024 : S1x512x2.ShapeCasts S1x1024
  inb_S1x2046_S1x1024_0_1022 : ∀ a, (![0, 1022] : Fin 2 → Nat) a + S1x1024.size a ≤ S1x2046.size a
  h_S1x1024 : 0 < S1x1024.numel
  shapeCasts_S1x1024_S1x1024 : S1x1024.ShapeCasts S1x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S512x10_S512x10_0_0 : ∀ a, (![0, 0] : Fin 2 → Nat) a + S512x10.size a ≤ S512x10.size a
  h_S512x10 : 0 < S512x10.numel
  reduces_S1x2046_S1 : S1x2046.Reduces [1] S1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x784_S784x1023_S512x1023_1_0_0_1_n_n_wf : DotDims.WF S512x784 S784x1023 S512x1023 [1] [0] [0] [1] [] []
  dot_S512x1024_S1024x10_S512x10_1_0_0_1_n_n_wf : DotDims.WF S512x1024 S1024x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S32768x784.size a
  hwx0_0 : ∀ i : grid0.Coords, EltTy.bits .f32 = 32 ∨ (Rect.block (s := S32768x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1023.size a ≤ S784x1023.size a
  hwx0_1 : ∀ i : grid0.Coords, EltTy.bits .bf16 = 32 ∨ (Rect.block (s := S784x1023) S784x1023.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1023.size a ≤ S1x1023.size a
  hwx0_2 : ∀ i : grid0.Coords, EltTy.bits .f32 = 32 ∨ (Rect.block (s := S1x1023) S1x1023.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S1024x10.size a
  hwx0_3 : ∀ i : grid0.Coords, EltTy.bits .bf16 = 32 ∨ (Rect.block (s := S1024x10) S1024x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2046.size a ≤ S1x2046.size a
  hwx0_4 : ∀ i : grid0.Coords, EltTy.bits .f32 = 32 ∨ (Rect.block (s := S1x2046) S1x2046.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S32768x10.size a
  hwx0_5 : ∀ i : grid0.Coords, EltTy.bits .f32 = 32 ∨ (Rect.block (s := S32768x10) S512x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x784_S784x1023_S512x1023_1_0_0_1_n_n : DotDims S512x784 S784x1023 S512x1023 where
  lhsContracting := [1]
  rhsContracting := [0]
  lhsNonContracting := [0]
  rhsNonContracting := [1]
  lhsBatch := []
  rhsBatch := []
  wf := dot_S512x784_S784x1023_S512x1023_1_0_0_1_n_n_wf
def dot_S512x1024_S1024x10_S512x10_1_0_0_1_n_n : DotDims S512x1024 S1024x10 S512x10 where
  lhsContracting := [1]
  rhsContracting := [0]
  lhsNonContracting := [0]
  rhsNonContracting := [1]
  lhsBatch := []
  rhsBatch := []
  wf := dot_S512x1024_S1024x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S784x1023.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1023.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S1x2046.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S512x10.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32768x784 : Shape := ⟨2, ![32768, 784]⟩
abbrev S1023x785 : Shape := ⟨2, ![1023, 785]⟩
abbrev S10x1024 : Shape := ⟨2, ![10, 1024]⟩
abbrev S_ : Shape := ⟨0, ![]⟩
abbrev S32768x1 : Shape := ⟨2, ![32768, 1]⟩
abbrev S32768x785 : Shape := ⟨2, ![32768, 785]⟩
abbrev S785x1023 : Shape := ⟨2, ![785, 1023]⟩
abbrev S32768x1023 : Shape := ⟨2, ![32768, 1023]⟩
abbrev S32768x1023x1 : Shape := ⟨3, ![32768, 1023, 1]⟩
abbrev S32768x1023x2 : Shape := ⟨3, ![32768, 1023, 2]⟩
abbrev S32768x1x2 : Shape := ⟨3, ![32768, 1, 2]⟩
abbrev S32768x2 : Shape := ⟨2, ![32768, 2]⟩
abbrev S2 : Shape := ⟨1, ![2]⟩
abbrev S32768x2x2 : Shape := ⟨3, ![32768, 2, 2]⟩
abbrev S32768x4 : Shape := ⟨2, ![32768, 4]⟩
abbrev S4 : Shape := ⟨1, ![4]⟩
abbrev S32768x4x2 : Shape := ⟨3, ![32768, 4, 2]⟩
abbrev S32768x8 : Shape := ⟨2, ![32768, 8]⟩
abbrev S8 : Shape := ⟨1, ![8]⟩
abbrev S32768x8x2 : Shape := ⟨3, ![32768, 8, 2]⟩
abbrev S32768x16 : Shape := ⟨2, ![32768, 16]⟩
abbrev S16 : Shape := ⟨1, ![16]⟩
abbrev S32768x16x2 : Shape := ⟨3, ![32768, 16, 2]⟩
abbrev S32768x32 : Shape := ⟨2, ![32768, 32]⟩
abbrev S32 : Shape := ⟨1, ![32]⟩
abbrev S32768x32x2 : Shape := ⟨3, ![32768, 32, 2]⟩
abbrev S32768x64 : Shape := ⟨2, ![32768, 64]⟩
abbrev S64 : Shape := ⟨1, ![64]⟩
abbrev S32768x64x2 : Shape := ⟨3, ![32768, 64, 2]⟩
abbrev S32768x128 : Shape := ⟨2, ![32768, 128]⟩
abbrev S128 : Shape := ⟨1, ![128]⟩
abbrev S32768x128x2 : Shape := ⟨3, ![32768, 128, 2]⟩
abbrev S32768x256 : Shape := ⟨2, ![32768, 256]⟩
abbrev S256 : Shape := ⟨1, ![256]⟩
abbrev S32768x256x2 : Shape := ⟨3, ![32768, 256, 2]⟩
abbrev S32768x512 : Shape := ⟨2, ![32768, 512]⟩
abbrev S512 : Shape := ⟨1, ![512]⟩
abbrev S32768x512x2 : Shape := ⟨3, ![32768, 512, 2]⟩
abbrev S32768x1024 : Shape := ⟨2, ![32768, 1024]⟩
abbrev S1024 : Shape := ⟨1, ![1024]⟩
abbrev S1024x10 : Shape := ⟨2, ![1024, 10]⟩
abbrev S32768x10 : Shape := ⟨2, ![32768, 10]⟩

abbrev nBuf : Space → Nat
  | .hbm => 247
  | .vmem => 0
  | .smem => 0
  | _ => 0

abbrev hbmTy0_0 (i : Nat) : BufTy := match i % 128 with
  | 0 => ⟨S32768x784, .f32⟩
  | 1 => ⟨S1023x785, .f32⟩
  | 2 => ⟨S10x1024, .f32⟩
  | 3 => ⟨S_, .f32⟩
  | 4 => ⟨S32768x1, .f32⟩
  | 5 => ⟨S32768x785, .f32⟩
  | 6 => ⟨S785x1023, .f32⟩
  | 7 => ⟨S32768x1023, .f32⟩
  | 8 => ⟨S32768x1023, .f32⟩
  | 9 => ⟨S32768x1023, .f32⟩
  | 10 => ⟨S_, .f32⟩
  | 11 => ⟨S32768x1023, .f32⟩
  | 12 => ⟨S32768x1023, .f32⟩
  | 13 => ⟨S_, .f32⟩
  | 14 => ⟨S32768x1023, .f32⟩
  | 15 => ⟨S32768x1023, .f32⟩
  | 16 => ⟨S_, .f32⟩
  | 17 => ⟨S32768x1023, .f32⟩
  | 18 => ⟨S32768x1023, .f32⟩
  | 19 => ⟨S32768x1023x1, .f32⟩
  | 20 => ⟨S32768x1023x1, .f32⟩
  | 21 => ⟨S32768x1023x2, .f32⟩
  | 22 => ⟨S_, .f32⟩
  | 23 => ⟨S32768x1, .f32⟩
  | 24 => ⟨S32768x1x2, .f32⟩
  | 25 => ⟨S32768x2, .f32⟩
  | 26 => ⟨S32768x1x2, .f32⟩
  | 27 => ⟨S32768x2, .f32⟩
  | 28 => ⟨S32768x2, .f32⟩
  | 29 => ⟨S_, .f32⟩
  | 30 => ⟨S2, .f32⟩
  | 31 => ⟨S_, .f32⟩
  | 32 => ⟨S2, .f32⟩
  | 33 => ⟨S2, .f32⟩
  | 34 => ⟨S2, .f32⟩
  | 35 => ⟨S_, .f32⟩
  | 36 => ⟨S2, .f32⟩
  | 37 => ⟨S2, .f32⟩
  | 38 => ⟨S2, .f32⟩
  | 39 => ⟨S2, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S32768x2, .f32⟩
  | 47 => ⟨S32768x2x2, .f32⟩
  | 48 => ⟨S32768x4, .f32⟩
  | 49 => ⟨S32768x2x2, .f32⟩
  | 50 => ⟨S32768x4, .f32⟩
  | 51 => ⟨S32768x4, .f32⟩
  | 52 => ⟨S_, .f32⟩
  | 53 => ⟨S4, .f32⟩
  | 54 => ⟨S_, .f32⟩
  | 55 => ⟨S4, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S4, .f32⟩
  | 63 => ⟨S_, .f32⟩
  | 64 => ⟨S_, .f32⟩
  | 65 => ⟨S_, .f32⟩
  | 66 => ⟨S_, .f32⟩
  | 67 => ⟨S_, .f32⟩
  | 68 => ⟨S32768x4, .f32⟩
  | 69 => ⟨S32768x4x2, .f32⟩
  | 70 => ⟨S32768x8, .f32⟩
  | 71 => ⟨S32768x4x2, .f32⟩
  | 72 => ⟨S32768x8, .f32⟩
  | 73 => ⟨S32768x8, .f32⟩
  | 74 => ⟨S_, .f32⟩
  | 75 => ⟨S8, .f32⟩
  | 76 => ⟨S_, .f32⟩
  | 77 => ⟨S8, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S_, .f32⟩
  | 86 => ⟨S_, .f32⟩
  | 87 => ⟨S_, .f32⟩
  | 88 => ⟨S_, .f32⟩
  | 89 => ⟨S_, .f32⟩
  | 90 => ⟨S32768x8, .f32⟩
  | 91 => ⟨S32768x8x2, .f32⟩
  | 92 => ⟨S32768x16, .f32⟩
  | 93 => ⟨S32768x8x2, .f32⟩
  | 94 => ⟨S32768x16, .f32⟩
  | 95 => ⟨S32768x16, .f32⟩
  | 96 => ⟨S_, .f32⟩
  | 97 => ⟨S16, .f32⟩
  | 98 => ⟨S_, .f32⟩
  | 99 => ⟨S16, .f32⟩
  | 100 => ⟨S16, .f32⟩
  | 101 => ⟨S16, .f32⟩
  | 102 => ⟨S_, .f32⟩
  | 103 => ⟨S16, .f32⟩
  | 104 => ⟨S16, .f32⟩
  | 105 => ⟨S16, .f32⟩
  | 106 => ⟨S16, .f32⟩
  | 107 => ⟨S_, .f32⟩
  | 108 => ⟨S_, .f32⟩
  | 109 => ⟨S_, .f32⟩
  | 110 => ⟨S_, .f32⟩
  | 111 => ⟨S_, .f32⟩
  | 112 => ⟨S32768x16, .f32⟩
  | 113 => ⟨S32768x16x2, .f32⟩
  | 114 => ⟨S32768x32, .f32⟩
  | 115 => ⟨S32768x16x2, .f32⟩
  | 116 => ⟨S32768x32, .f32⟩
  | 117 => ⟨S32768x32, .f32⟩
  | 118 => ⟨S_, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S32768x784, .f32⟩

abbrev hbmTy0_1 (i : Nat) : BufTy := match i % 128 with
  | 0 => ⟨S32, .f32⟩
  | 1 => ⟨S_, .f32⟩
  | 2 => ⟨S_, .f32⟩
  | 3 => ⟨S_, .f32⟩
  | 4 => ⟨S_, .f32⟩
  | 5 => ⟨S_, .f32⟩
  | 6 => ⟨S32768x32, .f32⟩
  | 7 => ⟨S32768x32x2, .f32⟩
  | 8 => ⟨S32768x64, .f32⟩
  | 9 => ⟨S32768x32x2, .f32⟩
  | 10 => ⟨S32768x64, .f32⟩
  | 11 => ⟨S32768x64, .f32⟩
  | 12 => ⟨S_, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S32768x64, .f32⟩
  | 29 => ⟨S32768x64x2, .f32⟩
  | 30 => ⟨S32768x128, .f32⟩
  | 31 => ⟨S32768x64x2, .f32⟩
  | 32 => ⟨S32768x128, .f32⟩
  | 33 => ⟨S32768x128, .f32⟩
  | 34 => ⟨S_, .f32⟩
  | 35 => ⟨S128, .f32⟩
  | 36 => ⟨S_, .f32⟩
  | 37 => ⟨S128, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S_, .f32⟩
  | 46 => ⟨S_, .f32⟩
  | 47 => ⟨S_, .f32⟩
  | 48 => ⟨S_, .f32⟩
  | 49 => ⟨S_, .f32⟩
  | 50 => ⟨S32768x128, .f32⟩
  | 51 => ⟨S32768x128x2, .f32⟩
  | 52 => ⟨S32768x256, .f32⟩
  | 53 => ⟨S32768x128x2, .f32⟩
  | 54 => ⟨S32768x256, .f32⟩
  | 55 => ⟨S32768x256, .f32⟩
  | 56 => ⟨S_, .f32⟩
  | 57 => ⟨S256, .f32⟩
  | 58 => ⟨S_, .f32⟩
  | 59 => ⟨S256, .f32⟩
  | 60 => ⟨S256, .f32⟩
  | 61 => ⟨S256, .f32⟩
  | 62 => ⟨S_, .f32⟩
  | 63 => ⟨S256, .f32⟩
  | 64 => ⟨S256, .f32⟩
  | 65 => ⟨S256, .f32⟩
  | 66 => ⟨S256, .f32⟩
  | 67 => ⟨S_, .f32⟩
  | 68 => ⟨S_, .f32⟩
  | 69 => ⟨S_, .f32⟩
  | 70 => ⟨S_, .f32⟩
  | 71 => ⟨S_, .f32⟩
  | 72 => ⟨S32768x256, .f32⟩
  | 73 => ⟨S32768x256x2, .f32⟩
  | 74 => ⟨S32768x512, .f32⟩
  | 75 => ⟨S32768x256x2, .f32⟩
  | 76 => ⟨S32768x512, .f32⟩
  | 77 => ⟨S32768x512, .f32⟩
  | 78 => ⟨S_, .f32⟩
  | 79 => ⟨S512, .f32⟩
  | 80 => ⟨S_, .f32⟩
  | 81 => ⟨S512, .f32⟩
  | 82 => ⟨S512, .f32⟩
  | 83 => ⟨S512, .f32⟩
  | 84 => ⟨S_, .f32⟩
  | 85 => ⟨S512, .f32⟩
  | 86 => ⟨S512, .f32⟩
  | 87 => ⟨S512, .f32⟩
  | 88 => ⟨S512, .f32⟩
  | 89 => ⟨S_, .f32⟩
  | 90 => ⟨S_, .f32⟩
  | 91 => ⟨S_, .f32⟩
  | 92 => ⟨S_, .f32⟩
  | 93 => ⟨S_, .f32⟩
  | 94 => ⟨S32768x512, .f32⟩
  | 95 => ⟨S32768x512x2, .f32⟩
  | 96 => ⟨S32768x1024, .f32⟩
  | 97 => ⟨S32768x512x2, .f32⟩
  | 98 => ⟨S32768x1024, .f32⟩
  | 99 => ⟨S32768x1024, .f32⟩
  | 100 => ⟨S_, .f32⟩
  | 101 => ⟨S1024, .f32⟩
  | 102 => ⟨S_, .f32⟩
  | 103 => ⟨S1024, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S1024, .f32⟩
  | 111 => ⟨S_, .f32⟩
  | 112 => ⟨S_, .f32⟩
  | 113 => ⟨S_, .f32⟩
  | 114 => ⟨S_, .f32⟩
  | 115 => ⟨S_, .f32⟩
  | 116 => ⟨S32768x1024, .f32⟩
  | 117 => ⟨S1024x10, .f32⟩
  | 118 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_cst_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_cst_16 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_17 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_cst_19 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_20 : Ref sig .tc := ⟨.hbm, 96, rfl⟩
abbrev main_v72 : Ref sig .tc := ⟨.hbm, 97, rfl⟩
abbrev main_cst_21 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_22 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_23 : Ref sig .tc := ⟨.hbm, 107, rfl⟩
abbrev main_v80 : Ref sig .tc := ⟨.hbm, 108, rfl⟩
abbrev main_cst_24 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_25 : Ref sig .tc := ⟨.hbm, 118, rfl⟩
abbrev main_v89 : Ref sig .tc := ⟨.hbm, 119, rfl⟩
abbrev main_cst_26 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_27 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_28 : Ref sig .tc := ⟨.hbm, 129, rfl⟩
abbrev main_v97 : Ref sig .tc := ⟨.hbm, 130, rfl⟩
abbrev main_cst_29 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_30 : Ref sig .tc := ⟨.hbm, 140, rfl⟩
abbrev main_v106 : Ref sig .tc := ⟨.hbm, 141, rfl⟩
abbrev main_cst_31 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_32 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_33 : Ref sig .tc := ⟨.hbm, 151, rfl⟩
abbrev main_v114 : Ref sig .tc := ⟨.hbm, 152, rfl⟩
abbrev main_cst_34 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_35 : Ref sig .tc := ⟨.hbm, 162, rfl⟩
abbrev main_v123 : Ref sig .tc := ⟨.hbm, 163, rfl⟩
abbrev main_cst_36 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_37 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_38 : Ref sig .tc := ⟨.hbm, 173, rfl⟩
abbrev main_v131 : Ref sig .tc := ⟨.hbm, 174, rfl⟩
abbrev main_cst_39 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_40 : Ref sig .tc := ⟨.hbm, 184, rfl⟩
abbrev main_v140 : Ref sig .tc := ⟨.hbm, 185, rfl⟩
abbrev main_cst_41 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_42 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_43 : Ref sig .tc := ⟨.hbm, 195, rfl⟩
abbrev main_v148 : Ref sig .tc := ⟨.hbm, 196, rfl⟩
abbrev main_cst_44 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_45 : Ref sig .tc := ⟨.hbm, 206, rfl⟩
abbrev main_v157 : Ref sig .tc := ⟨.hbm, 207, rfl⟩
abbrev main_cst_46 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_47 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_48 : Ref sig .tc := ⟨.hbm, 217, rfl⟩
abbrev main_v165 : Ref sig .tc := ⟨.hbm, 218, rfl⟩
abbrev main_cst_49 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_50 : Ref sig .tc := ⟨.hbm, 228, rfl⟩
abbrev main_v174 : Ref sig .tc := ⟨.hbm, 229, rfl⟩
abbrev main_cst_51 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_cst_52 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_53 : Ref sig .tc := ⟨.hbm, 239, rfl⟩
abbrev main_v182 : Ref sig .tc := ⟨.hbm, 240, rfl⟩
abbrev main_cst_54 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩

abbrev nD : Nat := 1
abbrev τ : Topo := Topo.v7x

variable {F : FTy → Type} [FloatOps F]

class Facts₀ : Prop where
  bcast_S_S32768x1 : S_.BroadcastsInDim S32768x1 (![] : Fin 0 → Fin S32768x1.rank)
  concatenates_S32768x1_S32768x784_S32768x785_d1 : Shape.Concatenates [S32768x1, S32768x784] S32768x785 1
  transposes_S1023x785_S785x1023_1_0 : S1023x785.Transposes [1, 0] S785x1023
  bcast_S_S32768x1023 : S_.BroadcastsInDim S32768x1023 (![] : Fin 0 → Fin S32768x1023.rank)
  bcast_S32768x1023_S32768x1023x1_0_1 : S32768x1023.BroadcastsInDim S32768x1023x1 (![0, 1] : Fin 2 → Fin S32768x1023x1.rank)
  concatenates_S32768x1023x1_S32768x1023x1_S32768x1023x2_d2 : Shape.Concatenates [S32768x1023x1, S32768x1023x1] S32768x1023x2 2
  slices_S32768x1023x2_S32768x1x2_0_0_0 : S32768x1023x2.Slices ![0, 0, 0] S32768x1x2
  shapeCasts_S32768x1x2_S32768x2 : S32768x1x2.ShapeCasts S32768x2
  bcast_S32768x1_S32768x1x2_0_1 : S32768x1.BroadcastsInDim S32768x1x2 (![0, 1] : Fin 2 → Fin S32768x1x2.rank)
  reducesTo_S32768x2_S2_d0 : S32768x2.ReducesTo [0] S2
  h_S_ : 0 < S_.numel
  bcast_S_S2 : S_.BroadcastsInDim S2 (![] : Fin 0 → Fin S2.rank)
  reducesTo_S2_S_d0 : S2.ReducesTo [0] S_
  slices_S32768x1023x2_S32768x2x2_0_1_0 : S32768x1023x2.Slices ![0, 1, 0] S32768x2x2
  shapeCasts_S32768x2x2_S32768x4 : S32768x2x2.ShapeCasts S32768x4
  bcast_S32768x2_S32768x2x2_0_1 : S32768x2.BroadcastsInDim S32768x2x2 (![0, 1] : Fin 2 → Fin S32768x2x2.rank)
  reducesTo_S32768x4_S4_d0 : S32768x4.ReducesTo [0] S4
  bcast_S_S4 : S_.BroadcastsInDim S4 (![] : Fin 0 → Fin S4.rank)
  reducesTo_S4_S_d0 : S4.ReducesTo [0] S_
  slices_S32768x1023x2_S32768x4x2_0_3_0 : S32768x1023x2.Slices ![0, 3, 0] S32768x4x2
  shapeCasts_S32768x4x2_S32768x8 : S32768x4x2.ShapeCasts S32768x8
  bcast_S32768x4_S32768x4x2_0_1 : S32768x4.BroadcastsInDim S32768x4x2 (![0, 1] : Fin 2 → Fin S32768x4x2.rank)
  reducesTo_S32768x8_S8_d0 : S32768x8.ReducesTo [0] S8
  bcast_S_S8 : S_.BroadcastsInDim S8 (![] : Fin 0 → Fin S8.rank)
  reducesTo_S8_S_d0 : S8.ReducesTo [0] S_
  slices_S32768x1023x2_S32768x8x2_0_7_0 : S32768x1023x2.Slices ![0, 7, 0] S32768x8x2
  shapeCasts_S32768x8x2_S32768x16 : S32768x8x2.ShapeCasts S32768x16
  bcast_S32768x8_S32768x8x2_0_1 : S32768x8.BroadcastsInDim S32768x8x2 (![0, 1] : Fin 2 → Fin S32768x8x2.rank)
  reducesTo_S32768x16_S16_d0 : S32768x16.ReducesTo [0] S16
  bcast_S_S16 : S_.BroadcastsInDim S16 (![] : Fin 0 → Fin S16.rank)
  reducesTo_S16_S_d0 : S16.ReducesTo [0] S_
  slices_S32768x1023x2_S32768x16x2_0_15_0 : S32768x1023x2.Slices ![0, 15, 0] S32768x16x2
  shapeCasts_S32768x16x2_S32768x32 : S32768x16x2.ShapeCasts S32768x32
  bcast_S32768x16_S32768x16x2_0_1 : S32768x16.BroadcastsInDim S32768x16x2 (![0, 1] : Fin 2 → Fin S32768x16x2.rank)
  reducesTo_S32768x32_S32_d0 : S32768x32.ReducesTo [0] S32
  bcast_S_S32 : S_.BroadcastsInDim S32 (![] : Fin 0 → Fin S32.rank)
  reducesTo_S32_S_d0 : S32.ReducesTo [0] S_
  slices_S32768x1023x2_S32768x32x2_0_31_0 : S32768x1023x2.Slices ![0, 31, 0] S32768x32x2
  shapeCasts_S32768x32x2_S32768x64 : S32768x32x2.ShapeCasts S32768x64
  bcast_S32768x32_S32768x32x2_0_1 : S32768x32.BroadcastsInDim S32768x32x2 (![0, 1] : Fin 2 → Fin S32768x32x2.rank)
  reducesTo_S32768x64_S64_d0 : S32768x64.ReducesTo [0] S64
  bcast_S_S64 : S_.BroadcastsInDim S64 (![] : Fin 0 → Fin S64.rank)
  reducesTo_S64_S_d0 : S64.ReducesTo [0] S_
  slices_S32768x1023x2_S32768x64x2_0_63_0 : S32768x1023x2.Slices ![0, 63, 0] S32768x64x2
  shapeCasts_S32768x64x2_S32768x128 : S32768x64x2.ShapeCasts S32768x128
  bcast_S32768x64_S32768x64x2_0_1 : S32768x64.BroadcastsInDim S32768x64x2 (![0, 1] : Fin 2 → Fin S32768x64x2.rank)
  reducesTo_S32768x128_S128_d0 : S32768x128.ReducesTo [0] S128
  bcast_S_S128 : S_.BroadcastsInDim S128 (![] : Fin 0 → Fin S128.rank)
  reducesTo_S128_S_d0 : S128.ReducesTo [0] S_
  slices_S32768x1023x2_S32768x128x2_0_127_0 : S32768x1023x2.Slices ![0, 127, 0] S32768x128x2
  shapeCasts_S32768x128x2_S32768x256 : S32768x128x2.ShapeCasts S32768x256
  bcast_S32768x128_S32768x128x2_0_1 : S32768x128.BroadcastsInDim S32768x128x2 (![0, 1] : Fin 2 → Fin S32768x128x2.rank)
  reducesTo_S32768x256_S256_d0 : S32768x256.ReducesTo [0] S256
  bcast_S_S256 : S_.BroadcastsInDim S256 (![] : Fin 0 → Fin S256.rank)
  reducesTo_S256_S_d0 : S256.ReducesTo [0] S_
  slices_S32768x1023x2_S32768x256x2_0_255_0 : S32768x1023x2.Slices ![0, 255, 0] S32768x256x2
  shapeCasts_S32768x256x2_S32768x512 : S32768x256x2.ShapeCasts S32768x512
  bcast_S32768x256_S32768x256x2_0_1 : S32768x256.BroadcastsInDim S32768x256x2 (![0, 1] : Fin 2 → Fin S32768x256x2.rank)
  reducesTo_S32768x512_S512_d0 : S32768x512.ReducesTo [0] S512
  bcast_S_S512 : S_.BroadcastsInDim S512 (![] : Fin 0 → Fin S512.rank)
  reducesTo_S512_S_d0 : S512.ReducesTo [0] S_
  slices_S32768x1023x2_S32768x512x2_0_511_0 : S32768x1023x2.Slices ![0, 511, 0] S32768x512x2
  shapeCasts_S32768x512x2_S32768x1024 : S32768x512x2.ShapeCasts S32768x1024
  bcast_S32768x512_S32768x512x2_0_1 : S32768x512.BroadcastsInDim S32768x512x2 (![0, 1] : Fin 2 → Fin S32768x512x2.rank)
  reducesTo_S32768x1024_S1024_d0 : S32768x1024.ReducesTo [0] S1024
  bcast_S_S1024 : S_.BroadcastsInDim S1024 (![] : Fin 0 → Fin S1024.rank)
  reducesTo_S1024_S_d0 : S1024.ReducesTo [0] S_
  transposes_S10x1024_S1024x10_1_0 : S10x1024.Transposes [1, 0] S1024x10
  dot_S32768x785_S785x1023_S32768x1023_1_0_0_1_n_n_wf : DotDims.WF S32768x785 S785x1023 S32768x1023 [1] [0] [0] [1] [] []
  dot_S32768x1024_S1024x10_S32768x10_1_0_0_1_n_n_wf : DotDims.WF S32768x1024 S1024x10 S32768x10 [1] [0] [0] [1] [] []

variable [Facts₀]

def dot_S32768x785_S785x1023_S32768x1023_1_0_0_1_n_n : DotDims S32768x785 S785x1023 S32768x1023 where
  lhsContracting := [1]
  rhsContracting := [0]
  lhsNonContracting := [0]
  rhsNonContracting := [1]
  lhsBatch := []
  rhsBatch := []
  wf := dot_S32768x785_S785x1023_S32768x1023_1_0_0_1_n_n_wf
def dot_S32768x1024_S1024x10_S32768x10_1_0_0_1_n_n : DotDims S32768x1024 S1024x10 S32768x10 where
  lhsContracting := [1]
  rhsContracting := [0]
  lhsNonContracting := [0]
  rhsNonContracting := [1]
  lhsBatch := []
  rhsBatch := []
  wf := dot_S32768x1024_S1024x10_S32768x10_1_0_0_1_n_n_wf

class Facts : Prop extends Facts₀ where

variable [Facts]
-- ==== Proof.Spec.lean ====
/-
  The soft decision tree as plain mathematics on the extended reals.

  A row `b` of the batch meets inner node `j` with logit `(∑ d, X b d · W j (d+1)) + W j 0` (column 0 of the
  inner weights is the bias) and routes left with probability `prob b j = 1 / (1 + e^(-logit))`.  Layer `l` of the
  tree has `2^l` nodes, inner node `2^l - 1 + i` being the `i`-th of them; `muRow P l k` is the probability that a
  row with left-probabilities `P` reaches node `k` of layer `l`: the root is reached surely, and child `k` of
  layer `l + 1` is reached through its parent `k / 2`, by the parent's left probability when `k` is even and by its
  complement when `k` is odd.  Summed over the batch, `numer l k` is the mass reaching child `k` of layer `l + 1`
  and `denom l k` the mass reaching its parent; `alpha = numer / denom`, and the regulariser's term at that child is
  `log alpha + log (1 - alpha)`.  The prediction of row `b` for output `o` is the leaf weights against the leaf
  probabilities `mu b 10`.  The 2046 children of all ten layers are numbered flat, layer after layer: layer `l`
  occupies `2^(l+1) - 2 … 2^(l+2) - 3`.
-/
import Idealize.ShloMosaic.PureOps.Ideal
import Idealize.ShloMosaic.Lib.ValueIdx

noncomputable section

namespace Cert.SDT

open Idealize.ShloMosaic Idealize.ShloMosaic.ValueIdx

/-- The probability that a row whose inner node `j` sends it left with probability `P j` reaches node `k` of
    layer `l`; `one` is the certain event's probability as the programs spell it. -/
def muRow (one : EReal) (P : ℕ → EReal) : ℕ → ℕ → EReal
  | 0, _ => one
  | l + 1, k => muRow one P l (k / 2) * (if k % 2 = 0 then P (2 ^ l - 1 + k / 2) else one - P (2 ^ l - 1 + k / 2))

theorem muRow_zero (one : EReal) (P : ℕ → EReal) (k : ℕ) : muRow one P 0 k = one := rfl

theorem muRow_succ (one : EReal) (P : ℕ → EReal) (l k : ℕ) :
    muRow one P (l + 1) k
      = muRow one P l (k / 2) * (if k % 2 = 0 then P (2 ^ l - 1 + k / 2) else one - P (2 ^ l - 1 + k / 2)) := rfl

variable (X : Fin 32768 → Fin 784 → EReal) (Wi : Fin 1023 → Fin 785 → EReal) (Wl : Fin 10 → Fin 1024 → EReal)

/-- The inner node's affine score of a row: the weights after the bias column against the row, plus the bias. -/
def logit (b : Fin 32768) (j : Fin 1023) : EReal := (∑ d : Fin 784, X b d * Wi j d.succ) + Wi j 0

/-- The probability that row `b` goes left at inner node `j`. -/
def prob (b : Fin 32768) (j : Fin 1023) : EReal := Ideal.logistic (logit X Wi b j)

/-- `prob` with the node numbered by a natural number (no inner node past the last is ever consulted). -/
def probN (b : Fin 32768) (j : ℕ) : EReal := if h : j < 1023 then prob X Wi b ⟨j, h⟩ else 0

/-- The probability that row `b` reaches node `k` of layer `l`. -/
def mu (one : EReal) (b : Fin 32768) (l k : ℕ) : EReal := muRow one (probN X Wi b) l k

/-- The batch's mass at child `k` of layer `l + 1`. -/
def numer (one : EReal) (l k : ℕ) : EReal := ∑ b : Fin 32768, mu X Wi one b (l + 1) k

/-- The batch's mass at the parent of child `k` of layer `l + 1`. -/
def denom (one : EReal) (l k : ℕ) : EReal := ∑ b : Fin 32768, mu X Wi one b l (k / 2)

/-- The share of the parent's mass that goes to child `k`. -/
def alpha (one : EReal) (l k : ℕ) : EReal := Ideal.div (numer X Wi one l k) (denom X Wi one l k)

/-- The regulariser's summand at child `k` of layer `l + 1`. -/
def term (one : EReal) (l k : ℕ) : EReal :=
  Ideal.log (alpha X Wi one l k) + Ideal.log (one - alpha X Wi one l k)

/-- The prediction: leaf weights against the leaf probabilities. -/
def leaf (one : EReal) (b : Fin 32768) (o : Fin 10) : EReal := ∑ k : Fin 1024, mu X Wi one b 10 k * Wl o k

/-- Where layer `l`'s children start in the flat numbering of all 2046 children: `2^(l+1) - 2`. -/
def off (l : ℕ) : ℕ := 2 ^ (l + 1) - 2

/-- The layer of flat child `j`. -/
def layerOf (j : ℕ) : ℕ :=
  if j < 2 then 0 else if j < 6 then 1 else if j < 14 then 2 else if j < 30 then 3 else if j < 62 then 4
  else if j < 126 then 5 else if j < 254 then 6 else if j < 510 then 7 else if j < 1022 then 8 else 9

/-- The batch's mass at flat child `j`, and at its parent. -/
def numerF (one : EReal) (j : ℕ) : EReal := numer X Wi one (layerOf j) (j - off (layerOf j))
def denomF (one : EReal) (j : ℕ) : EReal := denom X Wi one (layerOf j) (j - off (layerOf j))

/-- The regulariser's summand at flat child `j`. -/
def termF (one : EReal) (j : ℕ) : EReal :=
  Ideal.log (Ideal.div (numerF X Wi one j) (denomF X Wi one j))
    + Ideal.log (one - Ideal.div (numerF X Wi one j) (denomF X Wi one j))

theorem termF_eq (one : EReal) (j : ℕ) : termF X Wi one j = term X Wi one (layerOf j) (j - off (layerOf j)) := rfl

/-- The penalty as one weighted sum over all 2046 children, scaled once: `s · ∑ j, w j · term j`. -/
def penFlat (one s : EReal) (w : ℕ → EReal) : EReal := s * ∑ j : Fin 2046, w j * termF X Wi one j

/-- The terms of layer `l`, summed from `z`. -/
def layerSum (one z : EReal) (l : ℕ) : EReal := z + ∑ k : Fin (2 ^ (l + 1)), term X Wi one l k

/-- The penalty as a running difference, layer after layer: `(((z - c 0 · S 0) - c 1 · S 1) - …)`. -/
def penRun (one z : EReal) (c : ℕ → EReal) : ℕ → EReal
  | 0 => z
  | l + 1 => penRun one z c l - c l * layerSum X Wi one z l

/-- A rank-2 array as a function of its two coordinates. -/
def arr2 {a b : ℕ} (A : (⟨2, ![a, b]⟩ : Shape).Idx → EReal) : Fin a → Fin b → EReal := fun p q => A (ix2 p q)

end Cert.SDT

end
-- ==== Proof.Consts.lean ====
/-
  The float constants the two programs spell, as the extended reals their patterns denote.

  `0.0`, `1.0` and `-0.5` are exact.  The regulariser's weights are the single-precision roundings of
  `0.001 · 2^(-i)`: all eleven share the significand `8589935 = 2^23 + 201327` and differ in the exponent only,
  word `i` denoting `8589935 · 2^(-(33 + i))`.  Hence each is exactly half its predecessor, which is what lets a
  weight of one program at layer `l` (word `l + 1`) meet `-0.5` times the other's (word `l`).
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The eleven weight words, `0.001 · 2^(-i)` rounded to single precision, `i = 0 … 10`. -/
def wWord : ℕ → BitVec 32
  | 0 => 0x3A83126F#32
  | 1 => 0x3A03126F#32
  | 2 => 0x3983126F#32
  | 3 => 0x3903126F#32
  | 4 => 0x3883126F#32
  | 5 => 0x3803126F#32
  | 6 => 0x3783126F#32
  | 7 => 0x3703126F#32
  | 8 => 0x3683126F#32
  | 9 => 0x3603126F#32
  | _ => 0x3583126F#32

/-- The real a weight word denotes. -/
def wReal (i : ℕ) : ℝ := 8589935 / 2 ^ (33 + i)

theorem w0 : Ideal.ofBits .f32 0x3A83126F#32 = ((8589935 / 2 ^ 33 : ℝ) : EReal) := by
  simp [Ideal.ofBits, Ideal.ieee, -EReal.coe_mul]; norm_num
theorem w1 : Ideal.ofBits .f32 0x3A03126F#32 = ((8589935 / 2 ^ 34 : ℝ) : EReal) := by
  simp [Ideal.ofBits, Ideal.ieee, -EReal.coe_mul]; norm_num
theorem w2 : Ideal.ofBits .f32 0x3983126F#32 = ((8589935 / 2 ^ 35 : ℝ) : EReal) := by
  simp [Ideal.ofBits, Ideal.ieee, -EReal.coe_mul]; norm_num
theorem w3 : Ideal.ofBits .f32 0x3903126F#32 = ((8589935 / 2 ^ 36 : ℝ) : EReal) := by
  simp [Ideal.ofBits, Ideal.ieee, -EReal.coe_mul]; norm_num
theorem w4 : Ideal.ofBits .f32 0x3883126F#32 = ((8589935 / 2 ^ 37 : ℝ) : EReal) := by
  simp [Ideal.ofBits, Ideal.ieee, -EReal.coe_mul]; norm_num
theorem w5 : Ideal.ofBits .f32 0x3803126F#32 = ((8589935 / 2 ^ 38 : ℝ) : EReal) := by
  simp [Ideal.ofBits, Ideal.ieee, -EReal.coe_mul]; norm_num
theorem w6 : Ideal.ofBits .f32 0x3783126F#32 = ((8589935 / 2 ^ 39 : ℝ) : EReal) := by
  simp [Ideal.ofBits, Ideal.ieee, -EReal.coe_mul]; norm_num
theorem w7 : Ideal.ofBits .f32 0x3703126F#32 = ((8589935 / 2 ^ 40 : ℝ) : EReal) := by
  simp [Ideal.ofBits, Ideal.ieee, -EReal.coe_mul]; norm_num
theorem w8 : Ideal.ofBits .f32 0x3683126F#32 = ((8589935 / 2 ^ 41 : ℝ) : EReal) := by
  simp [Ideal.ofBits, Ideal.ieee, -EReal.coe_mul]; norm_num
theorem w9 : Ideal.ofBits .f32 0x3603126F#32 = ((8589935 / 2 ^ 42 : ℝ) : EReal) := by
  simp [Ideal.ofBits, Ideal.ieee, -EReal.coe_mul]; norm_num
theorem w10 : Ideal.ofBits .f32 0x3583126F#32 = ((8589935 / 2 ^ 43 : ℝ) : EReal) := by
  simp [Ideal.ofBits, Ideal.ieee, -EReal.coe_mul]; norm_num

/-- Every weight word denotes its real: word `i` is `8589935 / 2^(33 + i)`. -/
theorem ofBits_wWord (i : ℕ) (hi : i ≤ 10) : Ideal.ofBits .f32 (wWord i) = ((wReal i : ℝ) : EReal) := by
  unfold wReal
  match i, hi with
  | 0, _ => exact w0
  | 1, _ => exact w1
  | 2, _ => exact w2
  | 3, _ => exact w3
  | 4, _ => exact w4
  | 5, _ => exact w5
  | 6, _ => exact w6
  | 7, _ => exact w7
  | 8, _ => exact w8
  | 9, _ => exact w9
  | 10, _ => exact w10

/-- Each weight is half its predecessor. -/
theorem wReal_succ (i : ℕ) : wReal (i + 1) = (1 / 2) * wReal i := by
  unfold wReal
  rw [show 33 + (i + 1) = (33 + i) + 1 by omega, pow_succ]
  field_simp

end Cert.Consts

end
-- ==== Proof.Weights.lean ====
/-
  The regulariser's weights as the two programs hold them: one program keeps a table with one weight per child,
  child `j` of layer `l` carrying `0.001 · 2^(-l)` (rounded to single precision) and scales the whole sum by `-0.5`;
  the other multiplies layer `l`'s sum by `0.0005 · 2^(-l)` (rounded), which is the next word of the same sequence.
-/
import proofs.«178311_j48498770706534_1_alg».proof.Proof.Spec
import proofs.«178311_j48498770706534_1_alg».proof.Proof.Consts

noncomputable section

namespace Cert.SDT

open Idealize.ShloMosaic

/-- The word `1.0`, `0.0`, `-0.5` as the programs spell them. -/
abbrev oneW : EReal := Ideal.ofBits .f32 0x3F800000#32
abbrev zeroW : EReal := Ideal.ofBits .f32 0x00000000#32
abbrev negHalfW : EReal := Ideal.ofBits .f32 0xBF000000#32

/-- The per-child weight of flat child `j`. -/
def wK (j : ℕ) : EReal := Ideal.ofBits .f32 (Cert.Consts.wWord (layerOf j))

/-- The per-layer weight of layer `l`. -/
def cR (l : ℕ) : EReal := Ideal.ofBits .f32 (Cert.Consts.wWord (l + 1))

end Cert.SDT

end
-- ==== Proof.LibInterleave.lean ====
/-
  Interleaving two arrays along a new last axis, read at an index.

  Stacking two `[R, n]` arrays `a`, `b` on a new last axis gives the `[R, n, 2]` array with `(r, i, 0) ↦ a (r, i)` and
  `(r, i, 1) ↦ b (r, i)`; flattening its last two axes gives the `[R, 2n]` array `(r, k) ↦ (k even ? a : b) (r, k / 2)`:
  the children of node `i` sit side by side at `2i` and `2i + 1`.  These are the readings, at any extents, of the layout
  operations that make it: the flattening cast, the two-piece concatenation on the last axis, the cast that adds a
  unit last axis, and the broadcasts that add a last axis of extent 1 or 2.
-/
import Idealize.ShloMosaic.Lib.Pipeline.Value
import Idealize.ShloMosaic.Lib.ValueIdx
import Idealize.ShloMosaic.Lib.ValueLayout

noncomputable section

namespace Cert.Interleave

open Idealize.ShloMosaic Idealize.ShloMosaic.ValueIdx

variable {α : Type}

/-- Flattening the last two axes of an `[R, n, 2]` array: entry `(r, k)` of the result is entry `(r, k / 2, k % 2)`. -/
theorem flat_apply {R n n2 : ℕ} (x : (⟨3, ![R, n, 2]⟩ : Shape).Idx → α)
    (h : (⟨3, ![R, n, 2]⟩ : Shape).ShapeCasts ⟨2, ![R, n2]⟩) (hn : n2 = 2 * n) (r : Fin R) (k : Fin n2)
    (hk : k.val / 2 < n) :
    shapeCast ⟨2, ![R, n2]⟩ x h (ix2 r k) = x (ix3 r ⟨k.val / 2, hk⟩ ⟨k.val % 2, Nat.mod_lt _ (by omega)⟩) :=
  shapeCast_apply x h _ _ (by
    rw [Shape.rowMajor_val_three, Shape.rowMajor_val_two]
    show (r.val * n + k.val / 2) * 2 + k.val % 2 = r.val * n2 + k.val
    subst hn
    have := Nat.div_add_mod k.val 2
    rw [Nat.add_mul, Nat.mul_assoc, Nat.mul_comm n 2]
    omega)

/-- Adding a unit last axis: entry `(r, i, 0)` is entry `(r, i)`. -/
theorem addLast_apply {R n : ℕ} (a : (⟨2, ![R, n]⟩ : Shape).Idx → α)
    (h : (⟨2, ![R, n]⟩ : Shape).ShapeCasts ⟨3, ![R, n, 1]⟩) (r : Fin R) (i : Fin n) (u : Fin 1) :
    shapeCast ⟨3, ![R, n, 1]⟩ a h (ix3 r i u) = a (ix2 r i) :=
  shapeCast_apply a h _ _ (by
    rw [Shape.rowMajor_val_three, Shape.rowMajor_val_two]
    show r.val * n + i.val = (r.val * n + i.val) * 1 + u.val
    have := u.isLt
    omega)

/-- Two `[R, n, 1]` arrays joined on the last axis: entry `(r, i, c)` is the first's `(r, i, 0)` for `c = 0` and the
    second's for `c = 1`. -/
theorem pairLast_apply {R n : ℕ} (u v : (⟨3, ![R, n, 1]⟩ : Shape).Idx → α)
    (h : Shape.Concatenates [(⟨3, ![R, n, 1]⟩ : Shape), ⟨3, ![R, n, 1]⟩] ⟨3, ![R, n, 2]⟩ 2) (r : Fin R) (i : Fin n) (c : Fin 2) :
    concatenate ⟨3, ![R, n, 2]⟩ 2 [⟨⟨3, ![R, n, 1]⟩, u⟩, ⟨⟨3, ![R, n, 1]⟩, v⟩] h (ix3 r i c)
      = if c.val = 0 then u (ix3 r i 0) else v (ix3 r i 0) := by
  by_cases hc : c.val = 0
  · rw [if_pos hc]
    refine concatenate_pair_apply_left (2 : Fin 3) u v h (ix3 r i c) rfl (ix3 r i 0) ?_
    intro b
    match b with
    | ⟨0, _⟩ => rfl
    | ⟨1, _⟩ => rfl
    | ⟨2, _⟩ => exact hc.symm
  · rw [if_neg hc]
    have hc1 : c.val = 1 := by have := c.isLt; omega
    refine concatenate_pair_apply_right (2 : Fin 3) u v h (ix3 r i c) rfl rfl (ix3 r i 0) ?_ ?_
    · intro b hb
      match b, hb with
      | ⟨0, _⟩, _ => rfl
      | ⟨1, _⟩, _ => rfl
      | ⟨2, _⟩, hb => exact absurd rfl hb
    · show (0 : ℕ) + 1 = c.val
      omega

/-- The interleaving itself: stack `a` and `b` on a new last axis and flatten. -/
theorem interleave_apply {R n n2 : ℕ} (a b : (⟨2, ![R, n]⟩ : Shape).Idx → α)
    (h1 h1' : (⟨2, ![R, n]⟩ : Shape).ShapeCasts ⟨3, ![R, n, 1]⟩)
    (hc : Shape.Concatenates [(⟨3, ![R, n, 1]⟩ : Shape), ⟨3, ![R, n, 1]⟩] ⟨3, ![R, n, 2]⟩ 2)
    (h2 : (⟨3, ![R, n, 2]⟩ : Shape).ShapeCasts ⟨2, ![R, n2]⟩) (hn : n2 = 2 * n) (r : Fin R) (k : Fin n2)
    (hk : k.val / 2 < n) :
    shapeCast ⟨2, ![R, n2]⟩
        (concatenate ⟨3, ![R, n, 2]⟩ 2
          [⟨⟨3, ![R, n, 1]⟩, shapeCast ⟨3, ![R, n, 1]⟩ a h1⟩, ⟨⟨3, ![R, n, 1]⟩, shapeCast ⟨3, ![R, n, 1]⟩ b h1'⟩] hc)
        h2 (ix2 r k)
      = if k.val % 2 = 0 then a (ix2 r ⟨k.val / 2, hk⟩) else b (ix2 r ⟨k.val / 2, hk⟩) := by
  rw [flat_apply _ h2 hn r k hk, pairLast_apply, addLast_apply, addLast_apply]

/-- A broadcast of an `[R, n]` array to `[R, n, 1]` along a new last axis: entry `(r, i, 0)` is entry `(r, i)`. -/
theorem bcastLast1_apply {R n : ℕ} (a : (⟨2, ![R, n]⟩ : Shape).Idx → α)
    (h : (⟨2, ![R, n]⟩ : Shape).BroadcastsInDim ⟨3, ![R, n, 1]⟩ ![0, 1]) (hR : R ≠ 1) (r : Fin R) (i : Fin n) (u : Fin 1) :
    broadcastInDim ⟨3, ![R, n, 1]⟩ ![0, 1] h a (ix3 r i u) = a (ix2 r i) := by
  refine broadcastInDim_apply ![0, 1] h a _ _ ?_
  intro b
  match b with
  | ⟨0, _⟩ => show r.val = if R = 1 then 0 else r.val; rw [if_neg hR]
  | ⟨1, _⟩ =>
    show i.val = if n = 1 then 0 else i.val
    by_cases hn : n = 1
    · rw [if_pos hn]; have := i.isLt; omega
    · rw [if_neg hn]

/-- A broadcast of an `[R, n]` array to `[R, n, 2]` along a new last axis: entry `(r, i, c)` is entry `(r, i)`. -/
theorem bcastLast2_apply {R n : ℕ} (a : (⟨2, ![R, n]⟩ : Shape).Idx → α)
    (h : (⟨2, ![R, n]⟩ : Shape).BroadcastsInDim ⟨3, ![R, n, 2]⟩ ![0, 1]) (hR : R ≠ 1) (r : Fin R) (i : Fin n) (c : Fin 2) :
    broadcastInDim ⟨3, ![R, n, 2]⟩ ![0, 1] h a (ix3 r i c) = a (ix2 r i) := by
  refine broadcastInDim_apply ![0, 1] h a _ _ ?_
  intro b
  match b with
  | ⟨0, _⟩ => show r.val = if R = 1 then 0 else r.val; rw [if_neg hR]
  | ⟨1, _⟩ =>
    show i.val = if n = 1 then 0 else i.val
    by_cases hn : n = 1
    · rw [if_pos hn]; have := i.isLt; omega
    · rw [if_neg hn]

end Cert.Interleave

end
-- ==== Proof.LibPlainDot.lean ====
/-
  A plain matrix contraction, read as one sum.

  For ANY record of dimension numbers that contracts the left operand's axis 1 with the right operand's axis 0,
  keeps the left operand's axis 0 and the right operand's axis 1 in that order and has no batch axis — the
  dimension numbers of `A @ B` for A of shape [M, K] and B of shape [K, N], at any extents — the contraction
  over the record's own index type is the textbook sum

      (A @ B) (r, q) = ∑ k : Fin K, A (r, k) * B (k, q).

  So over the extended reals a host `dot_general` and a kernel matrix unit fed a zero accumulator, whatever
  records they carry, are both the function `mm`; and `mm` of a block of rows of A is that block of rows of
  `mm A B` (`mm_rows`): a row-tiled product computes the whole product.
-/
import Idealize.ShloMosaic.PureOps.Ideal.Laws
import Idealize.ShloMosaic.Lib.ValueIdx

noncomputable section

namespace Cert.PlainDot

open Idealize.ShloMosaic Idealize.ShloMosaic.ValueIdx

/-- The matrix product of an [M, K] and a [K, N] array, entry by entry a sum over the contracted axis. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (n1 := K) (i 0) k) * B (ix2 (n0 := K) (n1 := N) k (i 1))

theorem mm_apply {M K N : Nat} (A : (⟨2, ![M, K]⟩ : Shape).Idx → EReal) (B : (⟨2, ![K, N]⟩ : Shape).Idx → EReal)
    (r : Fin M) (q : Fin N) :
    mm A B (ix2 r q) = ∑ k : Fin K, A (ix2 r k) * B (ix2 k q) := rfl

variable {M K N : Nat}

/-- The record's contraction, re-indexed by the one contracted coordinate, is the textbook sum. -/
theorem sum_eq_mm (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal)
    (i : (⟨2, ![M, N]⟩ : Shape).Idx) :
    ∑ q : D.contr.Idx, l (D.lhsIdx i q) * r (D.rhsIdx i q) = mm l r i := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  unfold mm
  refine Finset.sum_congr rfl fun k _ => ?_
  have hk := contrEquiv1_symm_val D K hr hs k
  have hlc : D.lhsContracting = [1] := by subst hD; rfl
  have hrc : D.rhsContracting = [0] := by subst hD; rfl
  have l0 : ∀ q : D.contr.Idx, (D.lhsIdx i q 0).val = (i 0).val := by
    subst hD
    intro q
    unfold DotDims.lhsIdx
    rw [dif_neg (by simp), dif_pos (by simp)]
    rfl
  have r1 : ∀ q : D.contr.Idx, (D.rhsIdx i q 1).val = (i 1).val := by
    subst hD
    intro q
    unfold DotDims.rhsIdx
    rw [dif_neg (by simp), dif_pos (by simp)]
    rfl
  have el : D.lhsIdx i ((contrEquiv1 D K hr hs).symm k) = ix2 (n0 := M) (n1 := K) (i 0) k := funext fun a => Fin.ext (by
    match a with
    | ⟨0, _⟩ => exact l0 _
    | ⟨1, _⟩ => exact (D.lhsIdx_val_of_single hlc i _).trans hk)
  have er : D.rhsIdx i ((contrEquiv1 D K hr hs).symm k) = ix2 (n0 := K) (n1 := N) k (i 1) := funext fun a => Fin.ext (by
    match a with
    | ⟨0, _⟩ => exact (D.rhsIdx_val_of_single hrc i _).trans hk
    | ⟨1, _⟩ => exact r1 _)
  rw [el, er]

/-- A host `dot_general` with such a record is `mm`, whatever its precision and schedule. -/
theorem dotGeneral_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal ⟨2, ![M, K]⟩ φ₁) (r : FVec Ideal ⟨2, ![K, N]⟩ φ₂) :
    FloatOps.dotGeneral D prec sched l r = mm l r := by
  funext i
  rw [Ideal.dotGeneral_apply]
  exact sum_eq_mm D h1 h2 h3 h4 h5 h6 l r i

/-- A kernel matrix unit with such a record, fed the zero accumulator, is `mm`. -/
theorem matmul_zero_eq_mm {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision)
    (l : FVec Ideal ⟨2, ![M, K]⟩ φ₁) (r : FVec Ideal ⟨2, ![K, N]⟩ φ₂) :
    FloatOps.matmul D prec l r (constant (F := Ideal) ⟨2, ![M, N]⟩ .f32 0x00000000#32) = mm l r := by
  funext i
  rw [Ideal.matmul_constant_zero_apply]
  exact sum_eq_mm D h1 h2 h3 h4 h5 h6 l r i

/-- Rows `o, o + 1, …, o + P - 1` of a product are the product of those rows of the left factor. -/
theorem mm_rows {P : Nat} (A : (⟨2, ![M, K]⟩ : Shape).Idx → EReal) (B : (⟨2, ![K, N]⟩ : Shape).Idx → EReal)
    (Ablk : (⟨2, ![P, K]⟩ : Shape).Idx → EReal) (o : Nat)
    (hA : ∀ (p : Fin P) (k : Fin K) (hp : o + p.val < M), Ablk (ix2 p k) = A (ix2 ⟨o + p.val, hp⟩ k))
    (p : Fin P) (q : Fin N) (hp : o + p.val < M) :
    mm Ablk B (ix2 p q) = mm A B (ix2 ⟨o + p.val, hp⟩ q) := by
  rw [mm_apply, mm_apply]
  exact Finset.sum_congr rfl fun k _ => by rw [hA p k hp]

end Cert.PlainDot

end
-- ==== Proof.KerMu.lean ====
/-
  The tile's rows descending the tree, as the kernel computes them.

  `Pv` is the tile's table of left-probabilities (rows by inner nodes), `Mv l` the table of the probabilities of reaching
  the nodes of layer `l` (rows by the `2^l` nodes).  Each layer is made from the one before by multiplying a node's
  probability with its left-probability and with the complement, and interleaving the two products so that a node's
  children sit side by side; read at an index this is the specification's recursion `muRow`.  The tile's block of
  predictions is the product of the leaf layer with the leaf weights.
-/
import proofs.«178311_j48498770706534_1_alg».proof.Proof.Gen.KernelIdeal.Skeleton
import proofs.«178311_j48498770706534_1_alg».proof.Proof.Weights
import proofs.«178311_j48498770706534_1_alg».proof.Proof.LibInterleave
import proofs.«178311_j48498770706534_1_alg».proof.Proof.LibPlainDot
import Idealize.ShloMosaic.Lib.Pipeline.Value
import Idealize.ShloMosaic.PureOps.Ideal.Laws

set_option maxRecDepth 16384

noncomputable section

namespace Cert.KernelIdeal.Tile

open Idealize.ShloMosaic Idealize.ShloMosaic.TcCoe Idealize.SL.Sem
open Idealize.ShloMosaic.ValueIdx
open Cert.KernelIdeal Cert.KernelIdeal.Gen Cert.SDT

variable (x0 : Vec Ideal S512x784 .f32) (x1 : Vec Ideal S784x1023 .bf16) (x2 : Vec Ideal S1x1023 .f32)
  (x3 : Vec Ideal S1024x10 .bf16)

/-- The probability that row `r` of the tile goes left at inner node `j`. -/
def Pt (r : Fin 512) (j : ℕ) : EReal :=
  if h : j < 1023 then
    Ideal.logistic ((∑ d : Fin 784, x0 (ix2 r d) * x1 (ix2 d (⟨j, h⟩ : Fin 1023))) + x2 (ix2 (0 : Fin 1) (⟨j, h⟩ : Fin 1023)))
  else 0

/-- The tile's block of predictions. -/
def yTile (y : S512x10.Idx) : EReal := ∑ k : Fin 1024, muRow oneW (Pt x0 x1 x2 (y 0)) 10 k * x3 (ix2 k (y 1))

/-- One layer step read at an index: the children of node `k / 2` are its probability times the left-probability
    (even child) and times the complement (odd child). -/
theorem child_apply {R n n2 W : ℕ} (p : FVec Ideal ⟨2, ![R, W]⟩ .f32) (mu : FVec Ideal ⟨2, ![R, n]⟩ .f32) (one : EReal) (o : ℕ)
    (hs : (⟨2, ![R, W]⟩ : Shape).Slices ![0, o] ⟨2, ![R, n]⟩)
    (h1 h1' : (⟨2, ![R, n]⟩ : Shape).ShapeCasts ⟨3, ![R, n, 1]⟩)
    (hc : Shape.Concatenates [(⟨3, ![R, n, 1]⟩ : Shape), ⟨3, ![R, n, 1]⟩] ⟨3, ![R, n, 2]⟩ 2)
    (h2 : (⟨3, ![R, n, 2]⟩ : Shape).ShapeCasts ⟨2, ![R, n2]⟩) (hn : n2 = 2 * n) (r : Fin R) (k : Fin n2)
    (hk : k.val / 2 < n) (ho : o + k.val / 2 < W) :
    shapeCast ⟨2, ![R, n2]⟩
        (concatenate ⟨3, ![R, n, 2]⟩ 2
          [⟨⟨3, ![R, n, 1]⟩, shapeCast ⟨3, ![R, n, 1]⟩
              (mulf (F := Ideal) (φ := .f32) mu (extractStridedSlice ⟨2, ![R, n]⟩ ![0, o] p hs)) h1⟩,
           ⟨⟨3, ![R, n, 1]⟩, shapeCast ⟨3, ![R, n, 1]⟩
              (mulf (F := Ideal) (φ := .f32) mu
                (subf (broadcast ⟨2, ![R, n]⟩ one) (extractStridedSlice ⟨2, ![R, n]⟩ ![0, o] p hs))) h1'⟩] hc)
        h2 (ix2 r k)
      = mu (ix2 r ⟨k.val / 2, hk⟩)
          * (if k.val % 2 = 0 then p (ix2 r ⟨o + k.val / 2, ho⟩) else one - p (ix2 r ⟨o + k.val / 2, ho⟩)) := by
  rw [Cert.Interleave.interleave_apply _ _ h1 h1' hc h2 hn r k hk]
  have hq : extractStridedSlice ⟨2, ![R, n]⟩ ![0, o] p hs (ix2 r ⟨k.val / 2, hk⟩) = p (ix2 r ⟨o + k.val / 2, ho⟩) :=
    slice2_axis1_apply o p hs r ⟨k.val / 2, hk⟩ ⟨o + k.val / 2, ho⟩ rfl
  split
  · rw [mulf_apply, hq]
  · rw [mulf_apply, subf_apply, broadcast_apply, hq]

/-- The table of left-probabilities as the kernel computes it. -/
def Pv : FVec Ideal S512x1023 .f32 := k0_pay6 (F := Ideal) x0 x1 x2

theorem Pv_apply (r : Fin 512) (j : Fin 1023) : Pv x0 x1 x2 (ix2 r j) = Pt x0 x1 x2 r j.val := by
  have e1 : FloatOps.matmul (φ₁ := .bf16) (φ₂ := .bf16) dot_S512x784_S784x1023_S512x1023_1_0_0_1_n_n none
      (truncf (F := Ideal) .bf16 x0 bitsLt_bf16_f32) (shapeCast S784x1023 x1 shapeCasts_S784x1023_S784x1023)
      (constant (F := Ideal) S512x1023 .f32 0x00000000#32)
        = Cert.PlainDot.mm (M := 512) (K := 784) (N := 1023) x0 x1 := by
    rw [shapeCast_self]
    exact Cert.PlainDot.matmul_zero_eq_mm _ rfl rfl rfl rfl rfl rfl none _ _
  unfold Pt
  rw [dif_pos j.isLt]
  refine congrArg Ideal.logistic (congrArg₂ (· + ·) ?_ ?_)
  · exact congrFun e1 (ix2 r j)
  · show broadcastTo S512x1023 (shapeCast S1x1023 x2 shapeCasts_S1x1023_S1x1023) broadcasts_S1x1023_S512x1023 (ix2 r j) = _
    rw [shapeCast_self]
    exact broadcastTo_1b_ab_apply x2 _ r j

/-- Layer 1 of the tile. -/
def Mv1 : FVec Ideal S512x2 .f32 := k0_pay8 (F := Ideal) x0 x1 x2

theorem Mv1_apply (r : Fin 512) (k : Fin 2) : Mv1 x0 x1 x2 (ix2 r k) = muRow oneW (Pt x0 x1 x2 r) 1 k.val := by
  have hk : k.val / 2 < 1 := by omega
  have ho : 0 + k.val / 2 < 1023 := by omega
  refine (child_apply (R := 512) (n := 1) (n2 := 2) (W := 1023) (Pv x0 x1 x2) (k0_pay7 (F := Ideal)) oneW 0
    slices_S512x1023_o0_0_S512x1 shapeCasts_S512x1_S512x1x1 shapeCasts_S512x1_S512x1x1
    concatenates_S512x1x1_S512x1x1_S512x1x2_d2 shapeCasts_S512x1x2_S512x2 rfl r k hk ho).trans ?_
  rw [Pv_apply, muRow_succ]
  rfl

/-- Layer 2 of the tile. -/
def Mv2 : FVec Ideal S512x4 .f32 := k0_pay12 (Pv x0 x1 x2) (Mv1 x0 x1 x2)

theorem Mv2_apply (r : Fin 512) (k : Fin 4) : Mv2 x0 x1 x2 (ix2 r k) = muRow oneW (Pt x0 x1 x2 r) 2 k.val := by
  have hk : k.val / 2 < 2 := by omega
  have ho : 1 + k.val / 2 < 1023 := by omega
  refine (child_apply (R := 512) (n := 2) (n2 := 4) (W := 1023) (Pv x0 x1 x2) (Mv1 x0 x1 x2) oneW 1
    slices_S512x1023_o0_1_S512x2 shapeCasts_S512x2_S512x2x1 shapeCasts_S512x2_S512x2x1
    concatenates_S512x2x1_S512x2x1_S512x2x2_d2 shapeCasts_S512x2x2_S512x4 rfl r k hk ho).trans ?_
  rw [Mv1_apply, Pv_apply, muRow_succ]
  rfl

/-- Layer 3 of the tile. -/
def Mv3 : FVec Ideal S512x8 .f32 := k0_pay15 (Pv x0 x1 x2) (Mv1 x0 x1 x2)

theorem Mv3_apply (r : Fin 512) (k : Fin 8) : Mv3 x0 x1 x2 (ix2 r k) = muRow oneW (Pt x0 x1 x2 r) 3 k.val := by
  have hk : k.val / 2 < 4 := by omega
  have ho : 3 + k.val / 2 < 1023 := by omega
  refine (child_apply (R := 512) (n := 4) (n2 := 8) (W := 1023) (Pv x0 x1 x2) (Mv2 x0 x1 x2) oneW 3
    slices_S512x1023_o0_3_S512x4 shapeCasts_S512x4_S512x4x1 shapeCasts_S512x4_S512x4x1
    concatenates_S512x4x1_S512x4x1_S512x4x2_d2 shapeCasts_S512x4x2_S512x8 rfl r k hk ho).trans ?_
  rw [Mv2_apply, Pv_apply, muRow_succ]
  rfl

/-- Layer 4 of the tile. -/
def Mv4 : FVec Ideal S512x16 .f32 := k0_pay19 (Pv x0 x1 x2) (Mv3 x0 x1 x2)

theorem Mv4_apply (r : Fin 512) (k : Fin 16) : Mv4 x0 x1 x2 (ix2 r k) = muRow oneW (Pt x0 x1 x2 r) 4 k.val := by
  have hk : k.val / 2 < 8 := by omega
  have ho : 7 + k.val / 2 < 1023 := by omega
  refine (child_apply (R := 512) (n := 8) (n2 := 16) (W := 1023) (Pv x0 x1 x2) (Mv3 x0 x1 x2) oneW 7
    slices_S512x1023_o0_7_S512x8 shapeCasts_S512x8_S512x8x1 shapeCasts_S512x8_S512x8x1
    concatenates_S512x8x1_S512x8x1_S512x8x2_d2 shapeCasts_S512x8x2_S512x16 rfl r k hk ho).trans ?_
  rw [Mv3_apply, Pv_apply, muRow_succ]
  rfl

/-- Layer 5 of the tile. -/
def Mv5 : FVec Ideal S512x32 .f32 := k0_pay23 (Pv x0 x1 x2) (Mv4 x0 x1 x2)

theorem Mv5_apply (r : Fin 512) (k : Fin 32) : Mv5 x0 x1 x2 (ix2 r k) = muRow oneW (Pt x0 x1 x2 r) 5 k.val := by
  have hk : k.val / 2 < 16 := by omega
  have ho : 15 + k.val / 2 < 1023 := by omega
  refine (child_apply (R := 512) (n := 16) (n2 := 32) (W := 1023) (Pv x0 x1 x2) (Mv4 x0 x1 x2) oneW 15
    slices_S512x1023_o0_15_S512x16 shapeCasts_S512x16_S512x16x1 shapeCasts_S512x16_S512x16x1
    concatenates_S512x16x1_S512x16x1_S512x16x2_d2 shapeCasts_S512x16x2_S512x32 rfl r k hk ho).trans ?_
  rw [Mv4_apply, Pv_apply, muRow_succ]
  rfl

/-- Layer 6 of the tile. -/
def Mv6 : FVec Ideal S512x64 .f32 := k0_pay26 (Pv x0 x1 x2) (Mv4 x0 x1 x2)

theorem Mv6_apply (r : Fin 512) (k : Fin 64) : Mv6 x0 x1 x2 (ix2 r k) = muRow oneW (Pt x0 x1 x2 r) 6 k.val := by
  have hk : k.val / 2 < 32 := by omega
  have ho : 31 + k.val / 2 < 1023 := by omega
  refine (child_apply (R := 512) (n := 32) (n2 := 64) (W := 1023) (Pv x0 x1 x2) (Mv5 x0 x1 x2) oneW 31
    slices_S512x1023_o0_31_S512x32 shapeCasts_S512x32_S512x32x1 shapeCasts_S512x32_S512x32x1
    concatenates_S512x32x1_S512x32x1_S512x32x2_d2 shapeCasts_S512x32x2_S512x64 rfl r k hk ho).trans ?_
  rw [Mv5_apply, Pv_apply, muRow_succ]
  rfl

/-- Layer 7 of the tile. -/
def Mv7 : FVec Ideal S512x128 .f32 := k0_pay30 (Pv x0 x1 x2) (Mv6 x0 x1 x2)

theorem Mv7_apply (r : Fin 512) (k : Fin 128) : Mv7 x0 x1 x2 (ix2 r k) = muRow oneW (Pt x0 x1 x2 r) 7 k.val := by
  have hk : k.val / 2 < 64 := by omega
  have ho : 63 + k.val / 2 < 1023 := by omega
  refine (child_apply (R := 512) (n := 64) (n2 := 128) (W := 1023) (Pv x0 x1 x2) (Mv6 x0 x1 x2) oneW 63
    slices_S512x1023_o0_63_S512x64 shapeCasts_S512x64_S512x64x1 shapeCasts_S512x64_S512x64x1
    concatenates_S512x64x1_S512x64x1_S512x64x2_d2 shapeCasts_S512x64x2_S512x128 rfl r k hk ho).trans ?_
  rw [Mv6_apply, Pv_apply, muRow_succ]
  rfl

/-- Layer 8 of the tile. -/
def Mv8 : FVec Ideal S512x256 .f32 := k0_pay34 (Pv x0 x1 x2) (Mv7 x0 x1 x2)

theorem Mv8_apply (r : Fin 512) (k : Fin 256) : Mv8 x0 x1 x2 (ix2 r k) = muRow oneW (Pt x0 x1 x2 r) 8 k.val := by
  have hk : k.val / 2 < 128 := by omega
  have ho : 127 + k.val / 2 < 1023 := by omega
  refine (child_apply (R := 512) (n := 128) (n2 := 256) (W := 1023) (Pv x0 x1 x2) (Mv7 x0 x1 x2) oneW 127
    slices_S512x1023_o0_127_S512x128 shapeCasts_S512x128_S512x128x1 shapeCasts_S512x128_S512x128x1
    concatenates_S512x128x1_S512x128x1_S512x128x2_d2 shapeCasts_S512x128x2_S512x256 rfl r k hk ho).trans ?_
  rw [Mv7_apply, Pv_apply, muRow_succ]
  rfl

/-- Layer 9 of the tile. -/
def Mv9 : FVec Ideal S512x512 .f32 := k0_pay37 (Pv x0 x1 x2) (Mv7 x0 x1 x2)

theorem Mv9_apply (r : Fin 512) (k : Fin 512) : Mv9 x0 x1 x2 (ix2 r k) = muRow oneW (Pt x0 x1 x2 r) 9 k.val := by
  have hk : k.val / 2 < 256 := by omega
  have ho : 255 + k.val / 2 < 1023 := by omega
  refine (child_apply (R := 512) (n := 256) (n2 := 512) (W := 1023) (Pv x0 x1 x2) (Mv8 x0 x1 x2) oneW 255
    slices_S512x1023_o0_255_S512x256 shapeCasts_S512x256_S512x256x1 shapeCasts_S512x256_S512x256x1
    concatenates_S512x256x1_S512x256x1_S512x256x2_d2 shapeCasts_S512x256x2_S512x512 rfl r k hk ho).trans ?_
  rw [Mv8_apply, Pv_apply, muRow_succ]
  rfl

/-- Layer 10 of the tile. -/
def Mv10 : FVec Ideal S512x1024 .f32 := k0_pay41 (Pv x0 x1 x2) (Mv9 x0 x1 x2)

theorem Mv10_apply (r : Fin 512) (k : Fin 1024) : Mv10 x0 x1 x2 (ix2 r k) = muRow oneW (Pt x0 x1 x2 r) 10 k.val := by
  have hk : k.val / 2 < 512 := by omega
  have ho : 511 + k.val / 2 < 1023 := by omega
  refine (child_apply (R := 512) (n := 512) (n2 := 1024) (W := 1023) (Pv x0 x1 x2) (Mv9 x0 x1 x2) oneW 511
    slices_S512x1023_o0_511_S512x512 shapeCasts_S512x512_S512x512x1 shapeCasts_S512x512_S512x512x1
    concatenates_S512x512x1_S512x512x1_S512x512x2_d2 shapeCasts_S512x512x2_S512x1024 rfl r k hk ho).trans ?_
  rw [Mv9_apply, Pv_apply, muRow_succ]
  rfl

/-- The block of predictions the point stores. -/
theorem Y_apply (y : S512x10.Idx) : k0_pay2 (F := Ideal) (Mv10 x0 x1 x2) x3 y = yTile x0 x1 x2 x3 y := by
  have e1 : FloatOps.matmul (φ₁ := .bf16) (φ₂ := .bf16) dot_S512x1024_S1024x10_S512x10_1_0_0_1_n_n none
      (truncf (F := Ideal) .bf16 (Mv10 x0 x1 x2) bitsLt_bf16_f32) (shapeCast S1024x10 x3 shapeCasts_S1024x10_S1024x10)
      (constant (F := Ideal) S512x10 .f32 0x00000000#32)
        = Cert.PlainDot.mm (M := 512) (K := 1024) (N := 10) (Mv10 x0 x1 x2) x3 := by
    rw [shapeCast_self]
    exact Cert.PlainDot.matmul_zero_eq_mm _ rfl rfl rfl rfl rfl rfl none _ _
  refine (congrFun e1 y).trans ?_
  unfold yTile
  show ∑ k : Fin 1024, Mv10 x0 x1 x2 (ix2 (y 0) k) * x3 (ix2 k (y 1)) = _
  exact Finset.sum_congr rfl fun k _ => congrArg (· * x3 (ix2 k (y 1))) (Mv10_apply x0 x1 x2 (y 0) k)

end Cert.KernelIdeal.Tile

end
-- ==== Proof.KerSums.lean ====
/-
  What a grid point adds to the two accumulators, slice by slice, and the penalty it reads off them.

  For layer `l` the point loads the accumulators' slice of that layer's `2^(l+1)` children (`v`) and stores back
  `v + (the tile's column sums of layer l + 1)` into the first and `v + (the tile's column sums of layer l, each repeated
  for a node's two children)` into the second.  Read at child `k`: `v k + ∑ r, muRow (Pt r) (l + 1) k` and
  `v k + ∑ r, muRow (Pt r) l (k / 2)`.
-/
import proofs.«178311_j48498770706534_1_alg».proof.Proof.KerMu
import Idealize.ShloMosaic.Lib.ValueLayout

set_option maxRecDepth 16384

noncomputable section

namespace Cert.KernelIdeal.Tile

open Idealize.ShloMosaic Idealize.ShloMosaic.TcCoe Idealize.SL.Sem
open Idealize.ShloMosaic.ValueIdx
open Cert.KernelIdeal Cert.KernelIdeal.Gen Cert.SDT

/-! ## The layout steps at any extents -/

/-- The sum over the rows of an `[R, n]` table, read at column `k`. -/
theorem colsum_apply {R n : ℕ} (src : FVec Ideal ⟨2, ![R, n]⟩ .f32)
    (h : Shape.Reduces ⟨2, ![R, n]⟩ [0] ⟨1, ![n]⟩) (hφ) (hacc) (k : Fin n) :
    multiReduction .add [0] ⟨1, ![n]⟩ src 0x00000000#32 h hφ hacc (ix1 k) = ∑ r : Fin R, src (ix2 r k) :=
  (Ideal.multiReduction_add_single src _ h hφ hacc (ix1 k)).trans
    (Finset.sum_congr rfl fun r _ => congrArg src (funext fun a =>
      match a with
      | ⟨0, _⟩ => Fin.ext rfl
      | ⟨1, _⟩ => Fin.ext rfl))

/-- The same sums laid out as a `[1, n]` row. -/
theorem rowsum_apply {R n : ℕ} (src : FVec Ideal ⟨2, ![R, n]⟩ .f32)
    (h : Shape.Reduces ⟨2, ![R, n]⟩ [0] ⟨1, ![n]⟩) (hφ) (hacc)
    (hc : (⟨1, ![n]⟩ : Shape).ShapeCasts ⟨2, ![1, n]⟩) (k : Fin n) :
    shapeCast ⟨2, ![1, n]⟩ (multiReduction .add [0] ⟨1, ![n]⟩ src 0x00000000#32 h hφ hacc) hc (ix2 (0 : Fin 1) k)
      = ∑ r : Fin R, src (ix2 r k) :=
  (shapeCast_a_1a_apply _ hc 0 k).trans (colsum_apply src h hφ hacc k)

/-- A loaded row plus a table's column sums, as stored back: entry `k` is `v k + ∑ r, src (r, k)`. -/
theorem nst_apply {R n : ℕ} (src : FVec Ideal ⟨2, ![R, n]⟩ .f32) (v : FVec Ideal ⟨2, ![1, n]⟩ .f32)
    (h : Shape.Reduces ⟨2, ![R, n]⟩ [0] ⟨1, ![n]⟩) (hφ) (hacc)
    (hc : (⟨1, ![n]⟩ : Shape).ShapeCasts ⟨2, ![1, n]⟩)
    (hs : (⟨2, ![1, n]⟩ : Shape).ShapeCasts ⟨2, ![1, n]⟩) (k : Fin n) :
    shapeCast ⟨2, ![1, n]⟩
        (addf v (shapeCast ⟨2, ![1, n]⟩ (multiReduction .add [0] ⟨1, ![n]⟩ src 0x00000000#32 h hφ hacc) hc)) hs
        (ix2 (0 : Fin 1) k)
      = v (ix2 (0 : Fin 1) k) + ∑ r : Fin R, src (ix2 r k) :=
  (congrFun (shapeCast_self _ hs) _).trans (congrArg (v (ix2 (0 : Fin 1) k) + ·) (rowsum_apply src h hφ hacc hc k))

/-- A `[1, n]` row interleaved with itself: entry `k` of the `[1, 2n]` result is entry `k / 2` of the row, so every
    entry stands twice, once for each child of its node. -/
theorem dup_apply {n n2 : ℕ} (a : (⟨2, ![1, n]⟩ : Shape).Idx → EReal)
    (h1 h1' : (⟨2, ![1, n]⟩ : Shape).ShapeCasts ⟨3, ![1, n, 1]⟩)
    (hc : Shape.Concatenates [(⟨3, ![1, n, 1]⟩ : Shape), ⟨3, ![1, n, 1]⟩] ⟨3, ![1, n, 2]⟩ 2)
    (h2 : (⟨3, ![1, n, 2]⟩ : Shape).ShapeCasts ⟨2, ![1, n2]⟩) (hn : n2 = 2 * n) (k : Fin n2) (hk : k.val / 2 < n) :
    shapeCast ⟨2, ![1, n2]⟩
        (concatenate ⟨3, ![1, n, 2]⟩ 2
          [⟨⟨3, ![1, n, 1]⟩, shapeCast ⟨3, ![1, n, 1]⟩ a h1⟩, ⟨⟨3, ![1, n, 1]⟩, shapeCast ⟨3, ![1, n, 1]⟩ a h1'⟩] hc)
        h2 (ix2 (0 : Fin 1) k)
      = a (ix2 (0 : Fin 1) ⟨k.val / 2, hk⟩) :=
  (Cert.Interleave.interleave_apply a a h1 h1' hc h2 hn 0 k hk).trans (ite_self _)

/-- A loaded `[1, 2n]` row plus the repeated column sums of an `[R, n]` table: entry `k` is
    `v k + ∑ r, src (r, k / 2)`. -/
theorem dst_apply {R n n2 : ℕ} (src : FVec Ideal ⟨2, ![R, n]⟩ .f32) (v : FVec Ideal ⟨2, ![1, n2]⟩ .f32)
    (h : Shape.Reduces ⟨2, ![R, n]⟩ [0] ⟨1, ![n]⟩) (hφ) (hacc)
    (hc0 : (⟨1, ![n]⟩ : Shape).ShapeCasts ⟨2, ![1, n]⟩)
    (h1 h1' : (⟨2, ![1, n]⟩ : Shape).ShapeCasts ⟨3, ![1, n, 1]⟩)
    (hc : Shape.Concatenates [(⟨3, ![1, n, 1]⟩ : Shape), ⟨3, ![1, n, 1]⟩] ⟨3, ![1, n, 2]⟩ 2)
    (h2 : (⟨3, ![1, n, 2]⟩ : Shape).ShapeCasts ⟨2, ![1, n2]⟩) (hn : n2 = 2 * n) (k : Fin n2) (hk : k.val / 2 < n) :
    addf v (shapeCast ⟨2, ![1, n2]⟩
        (concatenate ⟨3, ![1, n, 2]⟩ 2
          [⟨⟨3, ![1, n, 1]⟩, shapeCast ⟨3, ![1, n, 1]⟩
              (shapeCast ⟨2, ![1, n]⟩ (multiReduction .add [0] ⟨1, ![n]⟩ src 0x00000000#32 h hφ hacc) hc0) h1⟩,
           ⟨⟨3, ![1, n, 1]⟩, shapeCast ⟨3, ![1, n, 1]⟩
              (shapeCast ⟨2, ![1, n]⟩ (multiReduction .add [0] ⟨1, ![n]⟩ src 0x00000000#32 h hφ hacc) hc0) h1'⟩] hc)
        h2) (ix2 (0 : Fin 1) k)
      = v (ix2 (0 : Fin 1) k) + ∑ r : Fin R, src (ix2 r ⟨k.val / 2, hk⟩) :=
  congrArg (v (ix2 (0 : Fin 1) k) + ·)
    ((dup_apply _ h1 h1' hc h2 hn k hk).trans (rowsum_apply src h hφ hacc hc0 ⟨k.val / 2, hk⟩))

/-- The sum over the lanes of a `[1, n]` row. -/
theorem lanesum_apply {n : ℕ} (src : FVec Ideal ⟨2, ![1, n]⟩ .f32)
    (h : Shape.Reduces ⟨2, ![1, n]⟩ [1] ⟨1, ![1]⟩) (hφ) (hacc) (i : Fin 1) :
    multiReduction .add [1] ⟨1, ![1]⟩ src 0x00000000#32 h hφ hacc (ix1 i) = ∑ j : Fin n, src (ix2 (0 : Fin 1) j) :=
  (Ideal.multiReduction_add_single src _ h hφ hacc (ix1 i)).trans
    (Finset.sum_congr rfl fun j _ => congrArg src (funext fun a =>
      match a with
      | ⟨0, _⟩ => Fin.ext (show i.val = 0 by omega)
      | ⟨1, _⟩ => Fin.ext rfl))

/-! ## The point's stores -/

variable (x0 : Vec Ideal S512x784 .f32) (x1 : Vec Ideal S784x1023 .bf16) (x2 : Vec Ideal S1x1023 .f32)
  (x3 : Vec Ideal S1024x10 .bf16)

/-- The penalty the last point stores, from accumulators `N`, `D` and the weight table `w`. -/
def penOf (N D w : ℕ → EReal) : EReal :=
  negHalfW * ∑ j : Fin 2046, w j * (Ideal.log (Ideal.div (N j) (D j)) + Ideal.log (oneW - Ideal.div (N j) (D j)))

/-- What the point stores into the first accumulator's slice of layer 0's children, over the slice `v` it loaded. -/
def Nst0 (v : Vec Ideal S1x2 .f32) : FVec Ideal S1x2 .f32 := k0_pay9 (F := Ideal) x0 x1 x2 v

theorem Nst0_apply (v : Vec Ideal S1x2 .f32) (k : Fin 2) :
    Nst0 x0 x1 x2 v (ix2 (0 : Fin 1) k) = v (ix2 (0 : Fin 1) k) + ∑ r : Fin 512, muRow oneW (Pt x0 x1 x2 r) 1 k.val :=
  (nst_apply (R := 512) (n := 2) (Mv1 x0 x1 x2) v _ _ _ _ _ k).trans
    (congrArg (v (ix2 (0 : Fin 1) k) + ·) (Finset.sum_congr rfl fun r _ => Mv1_apply x0 x1 x2 r k))

/-- What the point stores into the first accumulator's slice of layer 1's children, over the slice `v` it loaded. -/
def Nst1 (v : Vec Ideal S1x4 .f32) : FVec Ideal S1x4 .f32 := k0_pay13 (Pv x0 x1 x2) (Mv1 x0 x1 x2) v

theorem Nst1_apply (v : Vec Ideal S1x4 .f32) (k : Fin 4) :
    Nst1 x0 x1 x2 v (ix2 (0 : Fin 1) k) = v (ix2 (0 : Fin 1) k) + ∑ r : Fin 512, muRow oneW (Pt x0 x1 x2 r) 2 k.val :=
  (nst_apply (R := 512) (n := 4) (Mv2 x0 x1 x2) v _ _ _ _ _ k).trans
    (congrArg (v (ix2 (0 : Fin 1) k) + ·) (Finset.sum_congr rfl fun r _ => Mv2_apply x0 x1 x2 r k))

/-- What the point stores into the first accumulator's slice of layer 2's children, over the slice `v` it loaded. -/
def Nst2 (v : Vec Ideal S1x8 .f32) : FVec Ideal S1x8 .f32 := k0_pay17 (k0_pay16 (Pv x0 x1 x2) (Mv1 x0 x1 x2)) v

theorem Nst2_apply (v : Vec Ideal S1x8 .f32) (k : Fin 8) :
    Nst2 x0 x1 x2 v (ix2 (0 : Fin 1) k) = v (ix2 (0 : Fin 1) k) + ∑ r : Fin 512, muRow oneW (Pt x0 x1 x2 r) 3 k.val :=
  (nst_apply (R := 512) (n := 8) (Mv3 x0 x1 x2) v _ _ _ _ _ k).trans
    (congrArg (v (ix2 (0 : Fin 1) k) + ·) (Finset.sum_congr rfl fun r _ => Mv3_apply x0 x1 x2 r k))

/-- What the point stores into the first accumulator's slice of layer 3's children, over the slice `v` it loaded. -/
def Nst3 (v : Vec Ideal S1x16 .f32) : FVec Ideal S1x16 .f32 := k0_pay20 (Pv x0 x1 x2) (Mv3 x0 x1 x2) v

theorem Nst3_apply (v : Vec Ideal S1x16 .f32) (k : Fin 16) :
    Nst3 x0 x1 x2 v (ix2 (0 : Fin 1) k) = v (ix2 (0 : Fin 1) k) + ∑ r : Fin 512, muRow oneW (Pt x0 x1 x2 r) 4 k.val :=
  (nst_apply (R := 512) (n := 16) (Mv4 x0 x1 x2) v _ _ _ _ _ k).trans
    (congrArg (v (ix2 (0 : Fin 1) k) + ·) (Finset.sum_congr rfl fun r _ => Mv4_apply x0 x1 x2 r k))

/-- What the point stores into the first accumulator's slice of layer 4's children, over the slice `v` it loaded. -/
def Nst4 (v : Vec Ideal S1x32 .f32) : FVec Ideal S1x32 .f32 := k0_pay24 (Pv x0 x1 x2) (Mv4 x0 x1 x2) v

theorem Nst4_apply (v : Vec Ideal S1x32 .f32) (k : Fin 32) :
    Nst4 x0 x1 x2 v (ix2 (0 : Fin 1) k) = v (ix2 (0 : Fin 1) k) + ∑ r : Fin 512, muRow oneW (Pt x0 x1 x2 r) 5 k.val :=
  (nst_apply (R := 512) (n := 32) (Mv5 x0 x1 x2) v _ _ _ _ _ k).trans
    (congrArg (v (ix2 (0 : Fin 1) k) + ·) (Finset.sum_congr rfl fun r _ => Mv5_apply x0 x1 x2 r k))

/-- What the point stores into the first accumulator's slice of layer 5's children, over the slice `v` it loaded. -/
def Nst5 (v : Vec Ideal S1x64 .f32) : FVec Ideal S1x64 .f32 := k0_pay28 (k0_pay27 (Pv x0 x1 x2) (Mv4 x0 x1 x2)) v

theorem Nst5_apply (v : Vec Ideal S1x64 .f32) (k : Fin 64) :
    Nst5 x0 x1 x2 v (ix2 (0 : Fin 1) k) = v (ix2 (0 : Fin 1) k) + ∑ r : Fin 512, muRow oneW (Pt x0 x1 x2 r) 6 k.val :=
  (nst_apply (R := 512) (n := 64) (Mv6 x0 x1 x2) v _ _ _ _ _ k).trans
    (congrArg (v (ix2 (0 : Fin 1) k) + ·) (Finset.sum_congr rfl fun r _ => Mv6_apply x0 x1 x2 r k))

/-- What the point stores into the first accumulator's slice of layer 6's children, over the slice `v` it loaded. -/
def Nst6 (v : Vec Ideal S1x128 .f32) : FVec Ideal S1x128 .f32 := k0_pay31 (Pv x0 x1 x2) (Mv6 x0 x1 x2) v

theorem Nst6_apply (v : Vec Ideal S1x128 .f32) (k : Fin 128) :
    Nst6 x0 x1 x2 v (ix2 (0 : Fin 1) k) = v (ix2 (0 : Fin 1) k) + ∑ r : Fin 512, muRow oneW (Pt x0 x1 x2 r) 7 k.val :=
  (nst_apply (R := 512) (n := 128) (Mv7 x0 x1 x2) v _ _ _ _ _ k).trans
    (congrArg (v (ix2 (0 : Fin 1) k) + ·) (Finset.sum_congr rfl fun r _ => Mv7_apply x0 x1 x2 r k))

/-- What the point stores into the first accumulator's slice of layer 7's children, over the slice `v` it loaded. -/
def Nst7 (v : Vec Ideal S1x256 .f32) : FVec Ideal S1x256 .f32 := k0_pay35 (Pv x0 x1 x2) (Mv7 x0 x1 x2) v

theorem Nst7_apply (v : Vec Ideal S1x256 .f32) (k : Fin 256) :
    Nst7 x0 x1 x2 v (ix2 (0 : Fin 1) k) = v (ix2 (0 : Fin 1) k) + ∑ r : Fin 512, muRow oneW (Pt x0 x1 x2 r) 8 k.val :=
  (nst_apply (R := 512) (n := 256) (Mv8 x0 x1 x2) v _ _ _ _ _ k).trans
    (congrArg (v (ix2 (0 : Fin 1) k) + ·) (Finset.sum_congr rfl fun r _ => Mv8_apply x0 x1 x2 r k))

/-- What the point stores into the first accumulator's slice of layer 8's children, over the slice `v` it loaded. -/
def Nst8 (v : Vec Ideal S1x512 .f32) : FVec Ideal S1x512 .f32 := k0_pay39 (k0_pay38 (Pv x0 x1 x2) (Mv7 x0 x1 x2)) v

theorem Nst8_apply (v : Vec Ideal S1x512 .f32) (k : Fin 512) :
    Nst8 x0 x1 x2 v (ix2 (0 : Fin 1) k) = v (ix2 (0 : Fin 1) k) + ∑ r : Fin 512, muRow oneW (Pt x0 x1 x2 r) 9 k.val :=
  (nst_apply (R := 512) (n := 512) (Mv9 x0 x1 x2) v _ _ _ _ _ k).trans
    (congrArg (v (ix2 (0 : Fin 1) k) + ·) (Finset.sum_congr rfl fun r _ => Mv9_apply x0 x1 x2 r k))

/-- What the point stores into the first accumulator's slice of layer 9's children, over the slice `v` it loaded. -/
def Nst9 (v : Vec Ideal S1x1024 .f32) : FVec Ideal S1x1024 .f32 := k0_pay42 (Pv x0 x1 x2) (Mv9 x0 x1 x2) v

theorem Nst9_apply (v : Vec Ideal S1x1024 .f32) (k : Fin 1024) :
    Nst9 x0 x1 x2 v (ix2 (0 : Fin 1) k) = v (ix2 (0 : Fin 1) k) + ∑ r : Fin 512, muRow oneW (Pt x0 x1 x2 r) 10 k.val :=
  (nst_apply (R := 512) (n := 1024) (Mv10 x0 x1 x2) v _ _ _ _ _ k).trans
    (congrArg (v (ix2 (0 : Fin 1) k) + ·) (Finset.sum_congr rfl fun r _ => Mv10_apply x0 x1 x2 r k))

/-- What the point stores into the second accumulator's slice of layer 0's children, over the slice `v` it loaded. -/
def Dst0 (v : Vec Ideal S1x2 .f32) : FVec Ideal S1x2 .f32 := k0_pay11 (k0_pay10 (F := Ideal) v)

theorem Dst0_apply (v : Vec Ideal S1x2 .f32) (k : Fin 2) :
    Dst0 v (ix2 (0 : Fin 1) k) = v (ix2 (0 : Fin 1) k) + ∑ r : Fin 512, muRow oneW (Pt x0 x1 x2 r) 0 (k.val / 2) :=
  have hk : k.val / 2 < 1 := by omega
  (congrFun (shapeCast_self _ _) _).trans
    ((dst_apply (R := 512) (n := 1) (n2 := 2) (k0_pay7 (F := Ideal)) v _ _ _ _ _ _ _ _ rfl k hk).trans
      (congrArg (v (ix2 (0 : Fin 1) k) + ·) (Finset.sum_congr rfl fun r _ => rfl)))

/-- What the point stores into the second accumulator's slice of layer 1's children, over the slice `v` it loaded. -/
def Dst1 (v : Vec Ideal S1x4 .f32) : FVec Ideal S1x4 .f32 := k0_pay14 (Mv1 x0 x1 x2) v

theorem Dst1_apply (v : Vec Ideal S1x4 .f32) (k : Fin 4) :
    Dst1 x0 x1 x2 v (ix2 (0 : Fin 1) k) = v (ix2 (0 : Fin 1) k) + ∑ r : Fin 512, muRow oneW (Pt x0 x1 x2 r) 1 (k.val / 2) :=
  have hk : k.val / 2 < 2 := by omega
  (congrFun (shapeCast_self _ _) _).trans
    ((dst_apply (R := 512) (n := 2) (n2 := 4) (Mv1 x0 x1 x2) v _ _ _ _ _ _ _ _ rfl k hk).trans
      (congrArg (v (ix2 (0 : Fin 1) k) + ·) (Finset.sum_congr rfl fun r _ => Mv1_apply x0 x1 x2 r ⟨k.val / 2, hk⟩)))

/-- What the point stores into the second accumulator's slice of layer 2's children, over the slice `v` it loaded. -/
def Dst2 (v : Vec Ideal S1x8 .f32) : FVec Ideal S1x8 .f32 := k0_pay18 (Mv2 x0 x1 x2) v

theorem Dst2_apply (v : Vec Ideal S1x8 .f32) (k : Fin 8) :
    Dst2 x0 x1 x2 v (ix2 (0 : Fin 1) k) = v (ix2 (0 : Fin 1) k) + ∑ r : Fin 512, muRow oneW (Pt x0 x1 x2 r) 2 (k.val / 2) :=
  have hk : k.val / 2 < 4 := by omega
  (congrFun (shapeCast_self _ _) _).trans
    ((dst_apply (R := 512) (n := 4) (n2 := 8) (Mv2 x0 x1 x2) v _ _ _ _ _ _ _ _ rfl k hk).trans
      (congrArg (v (ix2 (0 : Fin 1) k) + ·) (Finset.sum_congr rfl fun r _ => Mv2_apply x0 x1 x2 r ⟨k.val / 2, hk⟩)))

/-- What the point stores into the second accumulator's slice of layer 3's children, over the slice `v` it loaded. -/
def Dst3 (v : Vec Ideal S1x16 .f32) : FVec Ideal S1x16 .f32 := k0_pay22 (k0_pay21 (Mv3 x0 x1 x2) v)

theorem Dst3_apply (v : Vec Ideal S1x16 .f32) (k : Fin 16) :
    Dst3 x0 x1 x2 v (ix2 (0 : Fin 1) k) = v (ix2 (0 : Fin 1) k) + ∑ r : Fin 512, muRow oneW (Pt x0 x1 x2 r) 3 (k.val / 2) :=
  have hk : k.val / 2 < 8 := by omega
  (congrFun (shapeCast_self _ _) _).trans
    ((dst_apply (R := 512) (n := 8) (n2 := 16) (Mv3 x0 x1 x2) v _ _ _ _ _ _ _ _ rfl k hk).trans
      (congrArg (v (ix2 (0 : Fin 1) k) + ·) (Finset.sum_congr rfl fun r _ => Mv3_apply x0 x1 x2 r ⟨k.val / 2, hk⟩)))

/-- What the point stores into the second accumulator's slice of layer 4's children, over the slice `v` it loaded. -/
def Dst4 (v : Vec Ideal S1x32 .f32) : FVec Ideal S1x32 .f32 := k0_pay25 (Mv4 x0 x1 x2) v

theorem Dst4_apply (v : Vec Ideal S1x32 .f32) (k : Fin 32) :
    Dst4 x0 x1 x2 v (ix2 (0 : Fin 1) k) = v (ix2 (0 : Fin 1) k) + ∑ r : Fin 512, muRow oneW (Pt x0 x1 x2 r) 4 (k.val / 2) :=
  have hk : k.val / 2 < 16 := by omega
  (congrFun (shapeCast_self _ _) _).trans
    ((dst_apply (R := 512) (n := 16) (n2 := 32) (Mv4 x0 x1 x2) v _ _ _ _ _ _ _ _ rfl k hk).trans
      (congrArg (v (ix2 (0 : Fin 1) k) + ·) (Finset.sum_congr rfl fun r _ => Mv4_apply x0 x1 x2 r ⟨k.val / 2, hk⟩)))

/-- What the point stores into the second accumulator's slice of layer 5's children, over the slice `v` it loaded. -/
def Dst5 (v : Vec Ideal S1x64 .f32) : FVec Ideal S1x64 .f32 := k0_pay29 (Mv5 x0 x1 x2) v

theorem Dst5_apply (v : Vec Ideal S1x64 .f32) (k : Fin 64) :
    Dst5 x0 x1 x2 v (ix2 (0 : Fin 1) k) = v (ix2 (0 : Fin 1) k) + ∑ r : Fin 512, muRow oneW (Pt x0 x1 x2 r) 5 (k.val / 2) :=
  have hk : k.val / 2 < 32 := by omega
  (congrFun (shapeCast_self _ _) _).trans
    ((dst_apply (R := 512) (n := 32) (n2 := 64) (Mv5 x0 x1 x2) v _ _ _ _ _ _ _ _ rfl k hk).trans
      (congrArg (v (ix2 (0 : Fin 1) k) + ·) (Finset.sum_congr rfl fun r _ => Mv5_apply x0 x1 x2 r ⟨k.val / 2, hk⟩)))

/-- What the point stores into the second accumulator's slice of layer 6's children, over the slice `v` it loaded. -/
def Dst6 (v : Vec Ideal S1x128 .f32) : FVec Ideal S1x128 .f32 := k0_pay33 (k0_pay32 (Mv6 x0 x1 x2) v)

theorem Dst6_apply (v : Vec Ideal S1x128 .f32) (k : Fin 128) :
    Dst6 x0 x1 x2 v (ix2 (0 : Fin 1) k) = v (ix2 (0 : Fin 1) k) + ∑ r : Fin 512, muRow oneW (Pt x0 x1 x2 r) 6 (k.val / 2) :=
  have hk : k.val / 2 < 64 := by omega
  (congrFun (shapeCast_self _ _) _).trans
    ((dst_apply (R := 512) (n := 64) (n2 := 128) (Mv6 x0 x1 x2) v _ _ _ _ _ _ _ _ rfl k hk).trans
      (congrArg (v (ix2 (0 : Fin 1) k) + ·) (Finset.sum_congr rfl fun r _ => Mv6_apply x0 x1 x2 r ⟨k.val / 2, hk⟩)))

/-- What the point stores into the second accumulator's slice of layer 7's children, over the slice `v` it loaded. -/
def Dst7 (v : Vec Ideal S1x256 .f32) : FVec Ideal S1x256 .f32 := k0_pay36 (Mv7 x0 x1 x2) v

theorem Dst7_apply (v : Vec Ideal S1x256 .f32) (k : Fin 256) :
    Dst7 x0 x1 x2 v (ix2 (0 : Fin 1) k) = v (ix2 (0 : Fin 1) k) + ∑ r : Fin 512, muRow oneW (Pt x0 x1 x2 r) 7 (k.val / 2) :=
  have hk : k.val / 2 < 128 := by omega
  (congrFun (shapeCast_self _ _) _).trans
    ((dst_apply (R := 512) (n := 128) (n2 := 256) (Mv7 x0 x1 x2) v _ _ _ _ _ _ _ _ rfl k hk).trans
      (congrArg (v (ix2 (0 : Fin 1) k) + ·) (Finset.sum_congr rfl fun r _ => Mv7_apply x0 x1 x2 r ⟨k.val / 2, hk⟩)))

/-- What the point stores into the second accumulator's slice of layer 8's children, over the slice `v` it loaded. -/
def Dst8 (v : Vec Ideal S1x512 .f32) : FVec Ideal S1x512 .f32 := k0_pay40 (Mv8 x0 x1 x2) v

theorem Dst8_apply (v : Vec Ideal S1x512 .f32) (k : Fin 512) :
    Dst8 x0 x1 x2 v (ix2 (0 : Fin 1) k) = v (ix2 (0 : Fin 1) k) + ∑ r : Fin 512, muRow oneW (Pt x0 x1 x2 r) 8 (k.val / 2) :=
  have hk : k.val / 2 < 256 := by omega
  (congrFun (shapeCast_self _ _) _).trans
    ((dst_apply (R := 512) (n := 256) (n2 := 512) (Mv8 x0 x1 x2) v _ _ _ _ _ _ _ _ rfl k hk).trans
      (congrArg (v (ix2 (0 : Fin 1) k) + ·) (Finset.sum_congr rfl fun r _ => Mv8_apply x0 x1 x2 r ⟨k.val / 2, hk⟩)))

/-- What the point stores into the second accumulator's slice of layer 9's children, over the slice `v` it loaded. -/
def Dst9 (v : Vec Ideal S1x1024 .f32) : FVec Ideal S1x1024 .f32 := k0_pay1 (k0_pay43 (Mv9 x0 x1 x2) v)

theorem Dst9_apply (v : Vec Ideal S1x1024 .f32) (k : Fin 1024) :
    Dst9 x0 x1 x2 v (ix2 (0 : Fin 1) k) = v (ix2 (0 : Fin 1) k) + ∑ r : Fin 512, muRow oneW (Pt x0 x1 x2 r) 9 (k.val / 2) :=
  have hk : k.val / 2 < 512 := by omega
  (congrFun (shapeCast_self _ _) _).trans
    ((dst_apply (R := 512) (n := 512) (n2 := 1024) (Mv9 x0 x1 x2) v _ _ _ _ _ _ _ _ rfl k hk).trans
      (congrArg (v (ix2 (0 : Fin 1) k) + ·) (Finset.sum_congr rfl fun r _ => Mv9_apply x0 x1 x2 r ⟨k.val / 2, hk⟩)))

/-- The penalty the last point stores, off the accumulators `a`, `b` and the weight table `w` it loads. -/
theorem pen_apply (a b w : Vec Ideal S1x2046 .f32) (y : S1x1.Idx) :
    k0_pay3 (F := Ideal) a b w y
      = penOf (fun j => if h : j < 2046 then a (ix2 (0 : Fin 1) (⟨j, h⟩ : Fin 2046)) else 0)
          (fun j => if h : j < 2046 then b (ix2 (0 : Fin 1) (⟨j, h⟩ : Fin 2046)) else 0)
          (fun j => if h : j < 2046 then w (ix2 (0 : Fin 1) (⟨j, h⟩ : Fin 2046)) else 0) := by
  obtain ⟨u, i, rfl⟩ : ∃ (u : Fin 1) (i : Fin 1), y = ix2 u i := ⟨y 0, y 1, eq_ix2 y⟩
  unfold k0_pay3 penOf
  show negHalfW * _ = negHalfW * _
  refine congrArg (negHalfW * ·) ?_
  refine (shapeCast_a_1a_apply _ _ u i).trans ?_
  refine (lanesum_apply (n := 2046) _ _ _ _ i).trans ?_
  refine Finset.sum_congr rfl fun j _ => ?_
  simp only [dif_pos j.isLt]
  rfl

/-- The zero block the first point stores into both accumulators. -/
theorem zero_apply (y : S1x2046.Idx) : k0_pay4 (F := Ideal) y = zeroW ∧ k0_pay5 (F := Ideal) y = zeroW :=
  ⟨rfl, rfl⟩

end Cert.KernelIdeal.Tile

end
-- ==== Proof.KerTile.lean ====
/-
  One grid point of the kernel, read as values.

  At a grid point the kernel holds a tile of 512 rows `x0`, the inner weights `x1` (transposed, bias column removed),
  the bias row `x2`, the transposed leaf weights `x3`, the weight table `x4`, and the two accumulators `xs0`, `xs1` as the
  point before left them.  Row `r` of the tile goes left at inner node `j` with probability
  `Pt r j = logistic ((∑ d, x0 (r, d) · x1 (d, j)) + x2 (0, j))`; the tile's rows then descend the tree exactly as in the
  specification (`muRow`).  The point adds to flat child `j` of the first accumulator the tile's mass at that child,
  `numPart j = ∑ r, muRow (Pt r) (layer j + 1) (j - start of the layer)`, and to the second the tile's mass at the child's
  parent, `denPart j`; at the grid's first point the accumulators start from the zero word instead of `xs0`, `xs1`.  The
  tile's block of predictions is the leaf probabilities against the leaf weights, and at the grid's last point the
  penalty is read off the updated accumulators.
-/
import proofs.«178311_j48498770706534_1_alg».proof.Proof.Gen.KernelIdeal.Frame
import proofs.«178311_j48498770706534_1_alg».proof.Proof.KerSums
import Idealize.ShloMosaic.Lib.Pipeline.Value
import Idealize.ShloMosaic.Lib.Tactic
import Idealize.ShloMosaic.PureOps.Ideal.Laws

set_option maxRecDepth 16384

noncomputable section

namespace Cert.KernelIdeal.Tile

open Idealize.ShloMosaic Idealize.ShloMosaic.TcCoe Idealize.ShloMosaic.Tactic Idealize.SL.Sem
open Idealize.ShloMosaic.ValueIdx
open Cert.KernelIdeal Cert.KernelIdeal.Gen Cert.SDT

variable (x0 : Vec Ideal S512x784 .f32) (x1 : Vec Ideal S784x1023 .bf16) (x2 : Vec Ideal S1x1023 .f32)
  (x3 : Vec Ideal S1024x10 .bf16) (x4 : Vec Ideal S1x2046 .f32) (xs0 xs1 : Vec Ideal S1x2046 .f32)

/-- The tile's mass at flat child `j`. -/
def numPart (j : ℕ) : EReal := ∑ r : Fin 512, muRow oneW (Pt x0 x1 x2 r) (layerOf j + 1) (j - off (layerOf j))

/-- The tile's mass at the parent of flat child `j`. -/
def denPart (j : ℕ) : EReal := ∑ r : Fin 512, muRow oneW (Pt x0 x1 x2 r) (layerOf j) ((j - off (layerOf j)) / 2)

/-- The zero offsets, as the constant function. -/
theorem hz : (![0, 0] : Fin 2 → Nat) = fun _ => 0 := funext fun a => by fin_cases a <;> rfl

/-! ### Flat children by layer -/

theorem layerOf_0 (j : ℕ) (h : j < 2) : layerOf j = 0 := by unfold layerOf; split_ifs <;> omega
theorem layerOf_1 (j : ℕ) (h0 : 2 ≤ j) (h : j < 6) : layerOf j = 1 := by unfold layerOf; split_ifs <;> omega
theorem layerOf_2 (j : ℕ) (h0 : 6 ≤ j) (h : j < 14) : layerOf j = 2 := by unfold layerOf; split_ifs <;> omega
theorem layerOf_3 (j : ℕ) (h0 : 14 ≤ j) (h : j < 30) : layerOf j = 3 := by unfold layerOf; split_ifs <;> omega
theorem layerOf_4 (j : ℕ) (h0 : 30 ≤ j) (h : j < 62) : layerOf j = 4 := by unfold layerOf; split_ifs <;> omega
theorem layerOf_5 (j : ℕ) (h0 : 62 ≤ j) (h : j < 126) : layerOf j = 5 := by unfold layerOf; split_ifs <;> omega
theorem layerOf_6 (j : ℕ) (h0 : 126 ≤ j) (h : j < 254) : layerOf j = 6 := by unfold layerOf; split_ifs <;> omega
theorem layerOf_7 (j : ℕ) (h0 : 254 ≤ j) (h : j < 510) : layerOf j = 7 := by unfold layerOf; split_ifs <;> omega
theorem layerOf_8 (j : ℕ) (h0 : 510 ≤ j) (h : j < 1022) : layerOf j = 8 := by unfold layerOf; split_ifs <;> omega
theorem layerOf_9 (j : ℕ) (h0 : 1022 ≤ j) : layerOf j = 9 := by unfold layerOf; split_ifs <;> omega

/-- The tile's mass at child `k` of layer `l + 1`, by the child's flat number `o + k` (`o` the layer's start). -/
theorem numPart_eq {l o : ℕ} (k : ℕ) (hl : layerOf (o + k) = l) (ho : off l = o) :
    numPart x0 x1 x2 (o + k) = ∑ r : Fin 512, muRow oneW (Pt x0 x1 x2 r) (l + 1) k := by
  unfold numPart; rw [hl, ho, Nat.add_sub_cancel_left]

theorem denPart_eq {l o : ℕ} (k : ℕ) (hl : layerOf (o + k) = l) (ho : off l = o) :
    denPart x0 x1 x2 (o + k) = ∑ r : Fin 512, muRow oneW (Pt x0 x1 x2 r) l (k / 2) := by
  unfold denPart; rw [hl, ho, Nat.add_sub_cancel_left]

/-! ### Slices of a row of 2046 columns -/

/-- An index of the accumulators' buffer lies in the slice of `n` columns from column `o` exactly when its column does. -/
theorem mem_row {o n : ℕ} (inb : ∀ a, (![0, o] : Fin 2 → ℕ) a + (![1, n] : Fin 2 → ℕ) a ≤ S1x2046.size a) (y : S1x2046.Idx) :
    y ∈ (Rect.unit (s := S1x2046) ![0, o] ![1, n] inb).set ↔ o ≤ (y 1).val ∧ (y 1).val < o + n := by
  rw [Rect.mem_set_unit]
  constructor
  · intro h; exact h 1
  · intro h a
    have h0 : (y 0).val < 1 := (y 0).isLt
    match a with
    | ⟨0, _⟩ => exact ⟨Nat.zero_le _, by show (y 0).val < 0 + 1; omega⟩
    | ⟨1, _⟩ => exact h

/-- The slice's local index `(0, k)` sits at column `o + k` of the buffer. -/
theorem idx_row {o n : ℕ} (inb : ∀ a, (![0, o] : Fin 2 → ℕ) a + (![1, n] : Fin 2 → ℕ) a ≤ S1x2046.size a) (k : Fin n)
    (y : S1x2046.Idx) (hy : (y 1).val = o + k.val) :
    (Rect.unit (s := S1x2046) ![0, o] ![1, n] inb).idx (ix2 (0 : Fin 1) k) = y := by
  funext a
  apply Fin.ext
  have h0 : (y 0).val < 1 := (y 0).isLt
  match a with
  | ⟨0, _⟩ => show 0 + 1 * 0 = (y 0).val; omega
  | ⟨1, _⟩ => show o + 1 * k.val = (y 1).val; omega

/-- A load of the slice reads the buffer at column `o + k`. -/
theorem ld_row (xs : S1x2046.Idx → EReal) {o n : ℕ}
    (inb : ∀ a, (![0, o] : Fin 2 → ℕ) a + (![1, n] : Fin 2 → ℕ) a ≤ S1x2046.size a) (k : Fin n)
    (y : S1x2046.Idx) (hy : (y 1).val = o + k.val) :
    View.ld (Val := Elt Ideal) (e' := .f32) xs (Rect.unit (s := S1x2046) ![0, o] ![1, n] inb) (ix2 (0 : Fin 1) k) = xs y :=
  congrArg xs (idx_row inb k y hy)

/-- One store into a slice, over earlier stores `L`: where the stored block at local `(0, k)` is the wanted value at
    column `o + k`, and the earlier stores give the wanted value off the slice, the buffer holds the wanted value. -/
theorem canon_cons_row (G : S1x2046.Idx → EReal) {o n : ℕ}
    (inb : ∀ a, (![0, o] : Fin 2 → ℕ) a + (![1, n] : Fin 2 → ℕ) a ≤ S1x2046.size a)
    (w : (Rect.unit (s := S1x2046) ![0, o] ![1, n] inb).shape.Idx → Elt Ideal .f32)
    (L : List (View.Piece (Elt Ideal) S1x2046 .f32)) (y : S1x2046.Idx)
    (hw : ∀ k : Fin n, (y 1).val = o + k.val → w (ix2 (0 : Fin 1) k) = G y)
    (hL : ¬(o ≤ (y 1).val ∧ (y 1).val < o + n) → View.canon L y = G y) :
    View.canon ((⟨Rect.unit (s := S1x2046) ![0, o] ![1, n] inb, w⟩ : View.Piece (Elt Ideal) S1x2046 .f32) :: L) y = G y := by
  by_cases hm : y ∈ (Rect.unit (s := S1x2046) ![0, o] ![1, n] inb).set
  · have hc := (mem_row inb y).mp hm
    have hk : (y 1).val - o < n := by omega
    have hy : (y 1).val = o + (⟨(y 1).val - o, hk⟩ : Fin n).val := by show _ = o + ((y 1).val - o); omega
    have e := View.canon_cons_emb (Val := Elt Ideal) (Rect.unit (s := S1x2046) ![0, o] ![1, n] inb) w L (ix2 (0 : Fin 1) ⟨(y 1).val - o, hk⟩)
    rw [show (Rect.unit (s := S1x2046) ![0, o] ![1, n] inb).emb (ix2 (0 : Fin 1) ⟨(y 1).val - o, hk⟩) = y from idx_row inb _ y hy] at e
    exact e.trans (hw _ hy)
  · exact (View.canon_cons_of_not_mem (⟨Rect.unit (s := S1x2046) ![0, o] ![1, n] inb, w⟩ : View.Piece (Elt Ideal) S1x2046 .f32) L hm).trans
      (hL (fun h => hm ((mem_row inb y).mpr h)))

/-- A store into a slice that ends before the index's column leaves the earlier stores' value there. -/
theorem canon_cons_skip {o n : ℕ}
    (inb : ∀ a, (![0, o] : Fin 2 → ℕ) a + (![1, n] : Fin 2 → ℕ) a ≤ S1x2046.size a)
    (w : (Rect.unit (s := S1x2046) ![0, o] ![1, n] inb).shape.Idx → Elt Ideal .f32)
    (L : List (View.Piece (Elt Ideal) S1x2046 .f32)) (y : S1x2046.Idx) (h : o + n ≤ (y 1).val) :
    View.canon ((⟨Rect.unit (s := S1x2046) ![0, o] ![1, n] inb, w⟩ : View.Piece (Elt Ideal) S1x2046 .f32) :: L) y
      = View.canon L y :=
  View.canon_cons_of_not_mem (⟨Rect.unit (s := S1x2046) ![0, o] ![1, n] inb, w⟩ : View.Piece (Elt Ideal) S1x2046 .f32) L
    (fun hm => by have := (mem_row inb y).mp hm; omega)

/-- A load of a slice after the stores `L` reads, at local `(0, k)`, what they left at column `o + k`. -/
theorem readCov_row (v : View sig .tc .vmem S1x2046 .f32) (L : List (View.Piece (Elt Ideal) S1x2046 .f32)) {o n : ℕ}
    (inb : ∀ a, (![0, o] : Fin 2 → ℕ) a + (![1, n] : Fin 2 → ℕ) a ≤ S1x2046.size a) (k : Fin n)
    (y : S1x2046.Idx) (hy : (y 1).val = o + k.val) :
    v.readCov L (Rect.unit (s := S1x2046) ![0, o] ![1, n] inb).toLoadRect (ix2 (0 : Fin 1) k) = View.canon L y := by
  rw [View.readCov_eq_canon']
  exact congrArg (View.canon L) (idx_row inb k y hy)

/-- A load of the whole buffer after the stores `L` reads what they left. -/
theorem readCov_whole (v : View sig .tc .vmem S1x2046 .f32) (L : List (View.Piece (Elt Ideal) S1x2046 .f32))
    (inb : ∀ a, (![0, 0] : Fin 2 → ℕ) a + (![1, 2046] : Fin 2 → ℕ) a ≤ S1x2046.size a) (k : Fin 2046) :
    v.readCov L (Rect.unit (s := S1x2046) ![0, 0] ![1, 2046] inb).toLoadRect (ix2 (0 : Fin 1) k)
      = View.canon L (ix2 (0 : Fin 1) k) :=
  readCov_row v L inb k (ix2 (0 : Fin 1) k) (by show k.val = 0 + k.val; omega)

variable (c : Dev nD) (i : grid0.Coords) (arg1 : Memref sig .tc .vmem S512x784 .f32) (harg1 : arg1.IsWhole) (arg2 : Memref sig .tc .vmem S784x1023 .bf16) (harg2 : arg2.IsWhole) (arg3 : Memref sig .tc .vmem S1x1023 .f32) (harg3 : arg3.IsWhole) (arg4 : Memref sig .tc .vmem S1024x10 .bf16) (harg4 : arg4.IsWhole) (arg5 : Memref sig .tc .vmem S1x2046 .f32) (harg5 : arg5.IsWhole) (arg6 : Memref sig .tc .vmem S512x10 .f32) (harg6 : arg6.IsWhole) (arg7 : Memref sig .tc .vmem S1x1 .f32) (harg7 : arg7.IsWhole) (arg8 : Memref sig .tc .vmem S1x2046 .f32) (harg8 : arg8.IsWhole) (arg9 : Memref sig .tc .vmem S1x2046 .f32) (harg9 : arg9.IsWhole)

/-! ### A point that is neither the first nor the last

The ten slices the point stores tile the 2046 columns, layer after layer; the slice of layer `l` holds, at its child `k`,
what the accumulator held there plus the tile's mass (`Nst`/`Dst` of KerSums), and the flat child `off l + k` is of layer
`l`: so every column `j` ends at the old value plus `numPart j` (`denPart j`).  The block of predictions is one whole store. -/

theorem canon_B_0 (hc0 : ¬cond0_0 i) (hc1 : ¬cond0_1 i) (y : S1x2046.Idx) :
    View.canon (kernelRun0_B (F := Ideal) c i arg1 harg1 arg2 harg2 arg3 harg3 arg4 harg4 arg5 harg5 arg6 harg6 arg7 harg7 arg8 harg8 arg9 harg9 hc0 hc1 x0 x1 x2 x3 x4 xs0 xs1).2.2.1 y
      = xs0 y + numPart x0 x1 x2 (y 1).val := by
  unfold kernelRun0_B
  dsimp only
  sl_unfold_words
  simp only [View.readAt_eq_ld, harg1.read_unread, harg2.read_unread, harg3.read_unread,
    View.ld_unit_zero (S := S512x784) hz, View.ld_unit_zero (S := S784x1023) hz, View.ld_unit_zero (S := S1x1023) hz, harg8.read_unread]
  have hy : (y 1).val < 2046 := (y 1).isLt
  refine canon_cons_row (fun y => xs0 y + numPart x0 x1 x2 (y 1).val) _ _ _ y (fun k hk => ?_) (fun h9 => ?_)
  · have hk' := k.isLt
    exact (Nst9_apply x0 x1 x2 _ k).trans (congrArg₂ (· + ·) (ld_row xs0 _ k y hk)
      ((congrArg (numPart x0 x1 x2) hk).trans (numPart_eq x0 x1 x2 k.val (layerOf_9 _ (by omega)) (by norm_num [off]))).symm)
  refine canon_cons_row (fun y => xs0 y + numPart x0 x1 x2 (y 1).val) _ _ _ y (fun k hk => ?_) (fun h8 => ?_)
  · have hk' := k.isLt
    exact (Nst8_apply x0 x1 x2 _ k).trans (congrArg₂ (· + ·) (ld_row xs0 _ k y hk)
      ((congrArg (numPart x0 x1 x2) hk).trans (numPart_eq x0 x1 x2 k.val (layerOf_8 _ (by omega) (by omega)) (by norm_num [off]))).symm)
  refine canon_cons_row (fun y => xs0 y + numPart x0 x1 x2 (y 1).val) _ _ _ y (fun k hk => ?_) (fun h7 => ?_)
  · have hk' := k.isLt
    exact (Nst7_apply x0 x1 x2 _ k).trans (congrArg₂ (· + ·) (ld_row xs0 _ k y hk)
      ((congrArg (numPart x0 x1 x2) hk).trans (numPart_eq x0 x1 x2 k.val (layerOf_7 _ (by omega) (by omega)) (by norm_num [off]))).symm)
  refine canon_cons_row (fun y => xs0 y + numPart x0 x1 x2 (y 1).val) _ _ _ y (fun k hk => ?_) (fun h6 => ?_)
  · have hk' := k.isLt
    exact (Nst6_apply x0 x1 x2 _ k).trans (congrArg₂ (· + ·) (ld_row xs0 _ k y hk)
      ((congrArg (numPart x0 x1 x2) hk).trans (numPart_eq x0 x1 x2 k.val (layerOf_6 _ (by omega) (by omega)) (by norm_num [off]))).symm)
  refine canon_cons_row (fun y => xs0 y + numPart x0 x1 x2 (y 1).val) _ _ _ y (fun k hk => ?_) (fun h5 => ?_)
  · have hk' := k.isLt
    exact (Nst5_apply x0 x1 x2 _ k).trans (congrArg₂ (· + ·) (ld_row xs0 _ k y hk)
      ((congrArg (numPart x0 x1 x2) hk).trans (numPart_eq x0 x1 x2 k.val (layerOf_5 _ (by omega) (by omega)) (by norm_num [off]))).symm)
  refine canon_cons_row (fun y => xs0 y + numPart x0 x1 x2 (y 1).val) _ _ _ y (fun k hk => ?_) (fun h4 => ?_)
  · have hk' := k.isLt
    exact (Nst4_apply x0 x1 x2 _ k).trans (congrArg₂ (· + ·) (ld_row xs0 _ k y hk)
      ((congrArg (numPart x0 x1 x2) hk).trans (numPart_eq x0 x1 x2 k.val (layerOf_4 _ (by omega) (by omega)) (by norm_num [off]))).symm)
  refine canon_cons_row (fun y => xs0 y + numPart x0 x1 x2 (y 1).val) _ _ _ y (fun k hk => ?_) (fun h3 => ?_)
  · have hk' := k.isLt
    exact (Nst3_apply x0 x1 x2 _ k).trans (congrArg₂ (· + ·) (ld_row xs0 _ k y hk)
      ((congrArg (numPart x0 x1 x2) hk).trans (numPart_eq x0 x1 x2 k.val (layerOf_3 _ (by omega) (by omega)) (by norm_num [off]))).symm)
  refine canon_cons_row (fun y => xs0 y + numPart x0 x1 x2 (y 1).val) _ _ _ y (fun k hk => ?_) (fun h2 => ?_)
  · have hk' := k.isLt
    exact (Nst2_apply x0 x1 x2 _ k).trans (congrArg₂ (· + ·) (ld_row xs0 _ k y hk)
      ((congrArg (numPart x0 x1 x2) hk).trans (numPart_eq x0 x1 x2 k.val (layerOf_2 _ (by omega) (by omega)) (by norm_num [off]))).symm)
  refine canon_cons_row (fun y => xs0 y + numPart x0 x1 x2 (y 1).val) _ _ _ y (fun k hk => ?_) (fun h1 => ?_)
  · have hk' := k.isLt
    exact (Nst1_apply x0 x1 x2 _ k).trans (congrArg₂ (· + ·) (ld_row xs0 _ k y hk)
      ((congrArg (numPart x0 x1 x2) hk).trans (numPart_eq x0 x1 x2 k.val (layerOf_1 _ (by omega) (by omega)) (by norm_num [off]))).symm)
  refine canon_cons_row (fun y => xs0 y + numPart x0 x1 x2 (y 1).val) _ _ _ y (fun k hk => ?_) (fun h0 => ?_)
  · have hk' := k.isLt
    exact (Nst0_apply x0 x1 x2 _ k).trans (congrArg₂ (· + ·) (ld_row xs0 _ k y hk)
      ((congrArg (numPart x0 x1 x2) hk).trans (numPart_eq x0 x1 x2 k.val (layerOf_0 _ (by omega)) (by norm_num [off]))).symm)
  exfalso; omega

theorem canon_B_1 (hc0 : ¬cond0_0 i) (hc1 : ¬cond0_1 i) (y : S1x2046.Idx) :
    View.canon (kernelRun0_B (F := Ideal) c i arg1 harg1 arg2 harg2 arg3 harg3 arg4 harg4 arg5 harg5 arg6 harg6 arg7 harg7 arg8 harg8 arg9 harg9 hc0 hc1 x0 x1 x2 x3 x4 xs0 xs1).2.2.2.1 y
      = xs1 y + denPart x0 x1 x2 (y 1).val := by
  unfold kernelRun0_B
  dsimp only
  sl_unfold_words
  simp only [View.readAt_eq_ld, harg1.read_unread, harg2.read_unread, harg3.read_unread,
    View.ld_unit_zero (S := S512x784) hz, View.ld_unit_zero (S := S784x1023) hz, View.ld_unit_zero (S := S1x1023) hz, harg9.read_unread]
  have hy : (y 1).val < 2046 := (y 1).isLt
  refine canon_cons_row (fun y => xs1 y + denPart x0 x1 x2 (y 1).val) _ _ _ y (fun k hk => ?_) (fun h9 => ?_)
  · have hk' := k.isLt
    exact (Dst9_apply x0 x1 x2 _ k).trans (congrArg₂ (· + ·) (ld_row xs1 _ k y hk)
      ((congrArg (denPart x0 x1 x2) hk).trans (denPart_eq x0 x1 x2 k.val (layerOf_9 _ (by omega)) (by norm_num [off]))).symm)
  refine canon_cons_row (fun y => xs1 y + denPart x0 x1 x2 (y 1).val) _ _ _ y (fun k hk => ?_) (fun h8 => ?_)
  · have hk' := k.isLt
    exact (Dst8_apply x0 x1 x2 _ k).trans (congrArg₂ (· + ·) (ld_row xs1 _ k y hk)
      ((congrArg (denPart x0 x1 x2) hk).trans (denPart_eq x0 x1 x2 k.val (layerOf_8 _ (by omega) (by omega)) (by norm_num [off]))).symm)
  refine canon_cons_row (fun y => xs1 y + denPart x0 x1 x2 (y 1).val) _ _ _ y (fun k hk => ?_) (fun h7 => ?_)
  · have hk' := k.isLt
    exact (Dst7_apply x0 x1 x2 _ k).trans (congrArg₂ (· + ·) (ld_row xs1 _ k y hk)
      ((congrArg (denPart x0 x1 x2) hk).trans (denPart_eq x0 x1 x2 k.val (layerOf_7 _ (by omega) (by omega)) (by norm_num [off]))).symm)
  refine canon_cons_row (fun y => xs1 y + denPart x0 x1 x2 (y 1).val) _ _ _ y (fun k hk => ?_) (fun h6 => ?_)
  · have hk' := k.isLt
    exact (Dst6_apply x0 x1 x2 _ k).trans (congrArg₂ (· + ·) (ld_row xs1 _ k y hk)
      ((congrArg (denPart x0 x1 x2) hk).trans (denPart_eq x0 x1 x2 k.val (layerOf_6 _ (by omega) (by omega)) (by norm_num [off]))).symm)
  refine canon_cons_row (fun y => xs1 y + denPart x0 x1 x2 (y 1).val) _ _ _ y (fun k hk => ?_) (fun h5 => ?_)
  · have hk' := k.isLt
    exact (Dst5_apply x0 x1 x2 _ k).trans (congrArg₂ (· + ·) (ld_row xs1 _ k y hk)
      ((congrArg (denPart x0 x1 x2) hk).trans (denPart_eq x0 x1 x2 k.val (layerOf_5 _ (by omega) (by omega)) (by norm_num [off]))).symm)
  refine canon_cons_row (fun y => xs1 y + denPart x0 x1 x2 (y 1).val) _ _ _ y (fun k hk => ?_) (fun h4 => ?_)
  · have hk' := k.isLt
    exact (Dst4_apply x0 x1 x2 _ k).trans (congrArg₂ (· + ·) (ld_row xs1 _ k y hk)
      ((congrArg (denPart x0 x1 x2) hk).trans (denPart_eq x0 x1 x2 k.val (layerOf_4 _ (by omega) (by omega)) (by norm_num [off]))).symm)
  refine canon_cons_row (fun y => xs1 y + denPart x0 x1 x2 (y 1).val) _ _ _ y (fun k hk => ?_) (fun h3 => ?_)
  · have hk' := k.isLt
    exact (Dst3_apply x0 x1 x2 _ k).trans (congrArg₂ (· + ·) (ld_row xs1 _ k y hk)
      ((congrArg (denPart x0 x1 x2) hk).trans (denPart_eq x0 x1 x2 k.val (layerOf_3 _ (by omega) (by omega)) (by norm_num [off]))).symm)
  refine canon_cons_row (fun y => xs1 y + denPart x0 x1 x2 (y 1).val) _ _ _ y (fun k hk => ?_) (fun h2 => ?_)
  · have hk' := k.isLt
    exact (Dst2_apply x0 x1 x2 _ k).trans (congrArg₂ (· + ·) (ld_row xs1 _ k y hk)
      ((congrArg (denPart x0 x1 x2) hk).trans (denPart_eq x0 x1 x2 k.val (layerOf_2 _ (by omega) (by omega)) (by norm_num [off]))).symm)
  refine canon_cons_row (fun y => xs1 y + denPart x0 x1 x2 (y 1).val) _ _ _ y (fun k hk => ?_) (fun h1 => ?_)
  · have hk' := k.isLt
    exact (Dst1_apply x0 x1 x2 _ k).trans (congrArg₂ (· + ·) (ld_row xs1 _ k y hk)
      ((congrArg (denPart x0 x1 x2) hk).trans (denPart_eq x0 x1 x2 k.val (layerOf_1 _ (by omega) (by omega)) (by norm_num [off]))).symm)
  refine canon_cons_row (fun y => xs1 y + denPart x0 x1 x2 (y 1).val) _ _ _ y (fun k hk => ?_) (fun h0 => ?_)
  · have hk' := k.isLt
    exact (Dst0_apply x0 x1 x2 _ k).trans (congrArg₂ (· + ·) (ld_row xs1 _ k y hk)
      ((congrArg (denPart x0 x1 x2) hk).trans (denPart_eq x0 x1 x2 k.val (layerOf_0 _ (by omega)) (by norm_num [off]))).symm)
  exfalso; omega

theorem canon_B_5 (hc0 : ¬cond0_0 i) (hc1 : ¬cond0_1 i) :
    View.canon (kernelRun0_B (F := Ideal) c i arg1 harg1 arg2 harg2 arg3 harg3 arg4 harg4 arg5 harg5 arg6 harg6 arg7 harg7 arg8 harg8 arg9 harg9 hc0 hc1 x0 x1 x2 x3 x4 xs0 xs1).1 = yTile x0 x1 x2 x3 := by
  unfold kernelRun0_B
  dsimp only
  sl_unfold_words
  simp only [View.readAt_eq_ld, harg1.read_unread, harg2.read_unread, harg3.read_unread,
    View.ld_unit_zero (S := S512x784) hz, View.ld_unit_zero (S := S784x1023) hz, View.ld_unit_zero (S := S1x1023) hz, harg4.read_unread, View.ld_unit_zero (S := S1024x10) hz]
  rw [View.canon_unit_zero hz]
  exact funext fun y => Y_apply x0 x1 x2 x3 y

theorem sout_B_0 (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 hc0 hc1 x0 x1 x2 x3 x4 xs0 xs1 = fun y => xs0 y + numPart x0 x1 x2 (y 1).val := by
  unfold sout0_B_0
  exact (View.read_writes_junk_eq_canon _ _).trans (funext fun y => canon_B_0 x0 x1 x2 x3 x4 xs0 xs1 c i arg1 harg1 arg2 harg2 arg3 harg3 arg4 harg4 arg5 harg5 arg6 harg6 arg7 harg7 arg8 harg8 arg9 harg9 hc0 hc1 y)

theorem sout_B_1 (hc0 : ¬cond0_0 i) (hc1 : ¬cond0_1 i) :
    sout0_B_1 (F := Ideal) c i arg1 harg1 arg2 harg2 arg3 harg3 arg4 harg4 arg5 harg5 arg6 harg6 arg7 harg7 arg8 harg8 arg9 harg9 hc0 hc1 x0 x1 x2 x3 x4 xs0 xs1 = fun y => xs1 y + denPart x0 x1 x2 (y 1).val := by
  unfold sout0_B_1
  exact (View.read_writes_junk_eq_canon _ _).trans (funext fun y => canon_B_1 x0 x1 x2 x3 x4 xs0 xs1 c i arg1 harg1 arg2 harg2 arg3 harg3 arg4 harg4 arg5 harg5 arg6 harg6 arg7 harg7 arg8 harg8 arg9 harg9 hc0 hc1 y)

theorem out_B_5 (hc0 : ¬cond0_0 i) (hc1 : ¬cond0_1 i) :
    out0_B_5 (F := Ideal) c i arg1 harg1 arg2 harg2 arg3 harg3 arg4 harg4 arg5 harg5 arg6 harg6 arg7 harg7 arg8 harg8 arg9 harg9 hc0 hc1 x0 x1 x2 x3 x4 xs0 xs1 = yTile x0 x1 x2 x3 := by
  unfold out0_B_5
  exact (View.read_writes_junk_eq_canon _ _).trans (canon_B_5 x0 x1 x2 x3 x4 xs0 xs1 c i arg1 harg1 arg2 harg2 arg3 harg3 arg4 harg4 arg5 harg5 arg6 harg6 arg7 harg7 arg8 harg8 arg9 harg9 hc0 hc1)

/-! ### The first point: the accumulators start from the zero word

The point first stores the zero word over both accumulators, then the ten slices as at any point; each slice's load
comes after the zero store and the stores of the layers before it, none of which reaches the slice's columns, so it reads
the zero word.  For the stores up to layer `l`: a column at or past the layer's start still holds the zero word
(`high`), and a column before it holds the zero word plus the tile's mass (`low`). -/

theorem A0_high_0 (y : S1x2046.Idx) : View.canon (kernelRun0_A.sl.HS0_1 (F := Ideal)) y = zeroW := by
  unfold kernelRun0_A.sl.HS0_1
  rw [View.canon_unit_zero hz]
  rfl

theorem A0_high_1 (y : S1x2046.Idx) (h : 2 ≤ (y 1).val) : View.canon (kernelRun0_A.sl.HS0_2 (F := Ideal) c arg1 harg1 arg2 harg2 arg3 harg3 arg8 x0 x1 x2) y = zeroW := by
  unfold kernelRun0_A.sl.HS0_2
  exact (canon_cons_skip _ _ _ y (by omega)).trans (A0_high_0 y)

theorem A0_low_1 (y : S1x2046.Idx) (h : (y 1).val < 2) :
    View.canon (kernelRun0_A.sl.HS0_2 (F := Ideal) c arg1 harg1 arg2 harg2 arg3 harg3 arg8 x0 x1 x2) y = zeroW + numPart x0 x1 x2 (y 1).val := by
  unfold kernelRun0_A.sl.HS0_2
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v31, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst0_apply x0 x1 x2 _ k).trans (congrArg₂ (· + ·)
      ((readCov_row _ _ _ k y hk).trans (A0_high_0 y))
      ((congrArg (numPart x0 x1 x2) hk).trans (numPart_eq x0 x1 x2 k.val (layerOf_0 _ (by omega)) (by norm_num [off]))).symm)
  · exfalso; omega

theorem A0_high_2 (y : S1x2046.Idx) (h : 6 ≤ (y 1).val) : View.canon (kernelRun0_A.sl.HS0_3 (F := Ideal) c arg1 harg1 arg2 harg2 arg3 harg3 arg8 x0 x1 x2) y = zeroW := by
  unfold kernelRun0_A.sl.HS0_3
  exact (canon_cons_skip _ _ _ y (by omega)).trans (A0_high_1 x0 x1 x2 c arg1 harg1 arg2 harg2 arg3 harg3 arg8 y (by omega))

theorem A0_low_2 (y : S1x2046.Idx) (h : (y 1).val < 6) :
    View.canon (kernelRun0_A.sl.HS0_3 (F := Ideal) c arg1 harg1 arg2 harg2 arg3 harg3 arg8 x0 x1 x2) y = zeroW + numPart x0 x1 x2 (y 1).val := by
  unfold kernelRun0_A.sl.HS0_3
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v58, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst1_apply x0 x1 x2 _ k).trans (congrArg₂ (· + ·)
      ((readCov_row _ _ _ k y hk).trans (A0_high_1 x0 x1 x2 c arg1 harg1 arg2 harg2 arg3 harg3 arg8 y (by omega)))
      ((congrArg (numPart x0 x1 x2) hk).trans (numPart_eq x0 x1 x2 k.val (layerOf_1 _ (by omega) (by omega)) (by norm_num [off]))).symm)
  · exact A0_low_1 x0 x1 x2 c arg1 harg1 arg2 harg2 arg3 harg3 arg8 y (by omega)

theorem A0_high_3 (y : S1x2046.Idx) (h : 14 ≤ (y 1).val) : View.canon (kernelRun0_A.sl.HS0_4 (F := Ideal) c arg1 harg1 arg2 harg2 arg3 harg3 arg8 x0 x1 x2) y = zeroW := by
  unfold kernelRun0_A.sl.HS0_4
  exact (canon_cons_skip _ _ _ y (by omega)).trans (A0_high_2 x0 x1 x2 c arg1 harg1 arg2 harg2 arg3 harg3 arg8 y (by omega))

theorem A0_low_3 (y : S1x2046.Idx) (h : (y 1).val < 14) :
    View.canon (kernelRun0_A.sl.HS0_4 (F := Ideal) c arg1 harg1 arg2 harg2 arg3 harg3 arg8 x0 x1 x2) y = zeroW + numPart x0 x1 x2 (y 1).val := by
  unfold kernelRun0_A.sl.HS0_4
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v85, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst2_apply x0 x1 x2 _ k).trans (congrArg₂ (· + ·)
      ((readCov_row _ _ _ k y hk).trans (A0_high_2 x0 x1 x2 c arg1 harg1 arg2 harg2 arg3 harg3 arg8 y (by omega)))
      ((congrArg (numPart x0 x1 x2) hk).trans (numPart_eq x0 x1 x2 k.val (layerOf_2 _ (by omega) (by omega)) (by norm_num [off]))).symm)
  · exact A0_low_2 x0 x1 x2 c arg1 harg1 arg2 harg2 arg3 harg3 arg8 y (by omega)

theorem A0_high_4 (y : S1x2046.Idx) (h : 30 ≤ (y 1).val) : View.canon (kernelRun0_A.sl.HS0_5 (F := Ideal) c arg1 harg1 arg2 harg2 arg3 harg3 arg8 x0 x1 x2) y = zeroW := by
  unfold kernelRun0_A.sl.HS0_5
  exact (canon_cons_skip _ _ _ y (by omega)).trans (A0_high_3 x0 x1 x2 c arg1 harg1 arg2 harg2 arg3 harg3 arg8 y (by omega))

theorem A0_low_4 (y : S1x2046.Idx) (h : (y 1).val < 30) :
    View.canon (kernelRun0_A.sl.HS0_5 (F := Ideal) c arg1 harg1 arg2 harg2 arg3 harg3 arg8 x0 x1 x2) y = zeroW + numPart x0 x1 x2 (y 1).val := by
  unfold kernelRun0_A.sl.HS0_5
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v112, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst3_apply x0 x1 x2 _ k).trans (congrArg₂ (· + ·)
      ((readCov_row _ _ _ k y hk).trans (A0_high_3 x0 x1 x2 c arg1 harg1 arg2 harg2 arg3 harg3 arg8 y (by omega)))
      ((congrArg (numPart x0 x1 x2) hk).trans (numPart_eq x0 x1 x2 k.val (layerOf_3 _ (by omega) (by omega)) (by norm_num [off]))).symm)
  · exact A0_low_3 x0 x1 x2 c arg1 harg1 arg2 harg2 arg3 harg3 arg8 y (by omega)

theorem A0_high_5 (y : S1x2046.Idx) (h : 62 ≤ (y 1).val) : View.canon (kernelRun0_A.sl.HS0_6 (F := Ideal) c arg1 harg1 arg2 harg2 arg3 harg3 arg8 x0 x1 x2) y = zeroW := by
  unfold kernelRun0_A.sl.HS0_6
  exact (canon_cons_skip _ _ _ y (by omega)).trans (A0_high_4 x0 x1 x2 c arg1 harg1 arg2 harg2 arg3 harg3 arg8 y (by omega))

theorem A0_low_5 (y : S1x2046.Idx) (h : (y 1).val < 62) :
    View.canon (kernelRun0_A.sl.HS0_6 (F := Ideal) c arg1 harg1 arg2 harg2 arg3 harg3 arg8 x0 x1 x2) y = zeroW + numPart x0 x1 x2 (y 1).val := by
  unfold kernelRun0_A.sl.HS0_6
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v139, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst4_apply x0 x1 x2 _ k).trans (congrArg₂ (· + ·)
      ((readCov_row _ _ _ k y hk).trans (A0_high_4 x0 x1 x2 c arg1 harg1 arg2 harg2 arg3 harg3 arg8 y (by omega)))
      ((congrArg (numPart x0 x1 x2) hk).trans (numPart_eq x0 x1 x2 k.val (layerOf_4 _ (by omega) (by omega)) (by norm_num [off]))).symm)
  · exact A0_low_4 x0 x1 x2 c arg1 harg1 arg2 harg2 arg3 harg3 arg8 y (by omega)

theorem A0_high_6 (y : S1x2046.Idx) (h : 126 ≤ (y 1).val) : View.canon (kernelRun0_A.sl.HS0_7 (F := Ideal) c arg1 harg1 arg2 harg2 arg3 harg3 arg8 x0 x1 x2) y = zeroW := by
  unfold kernelRun0_A.sl.HS0_7
  exact (canon_cons_skip _ _ _ y (by omega)).trans (A0_high_5 x0 x1 x2 c arg1 harg1 arg2 harg2 arg3 harg3 arg8 y (by omega))

theorem A0_low_6 (y : S1x2046.Idx) (h : (y 1).val < 126) :
    View.canon (kernelRun0_A.sl.HS0_7 (F := Ideal) c arg1 harg1 arg2 harg2 arg3 harg3 arg8 x0 x1 x2) y = zeroW + numPart x0 x1 x2 (y 1).val := by
  unfold kernelRun0_A.sl.HS0_7
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v166, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst5_apply x0 x1 x2 _ k).trans (congrArg₂ (· + ·)
      ((readCov_row _ _ _ k y hk).trans (A0_high_5 x0 x1 x2 c arg1 harg1 arg2 harg2 arg3 harg3 arg8 y (by omega)))
      ((congrArg (numPart x0 x1 x2) hk).trans (numPart_eq x0 x1 x2 k.val (layerOf_5 _ (by omega) (by omega)) (by norm_num [off]))).symm)
  · exact A0_low_5 x0 x1 x2 c arg1 harg1 arg2 harg2 arg3 harg3 arg8 y (by omega)

theorem A0_high_7 (y : S1x2046.Idx) (h : 254 ≤ (y 1).val) : View.canon (kernelRun0_A.sl.HS0_8 (F := Ideal) c arg1 harg1 arg2 harg2 arg3 harg3 arg8 x0 x1 x2) y = zeroW := by
  unfold kernelRun0_A.sl.HS0_8
  exact (canon_cons_skip _ _ _ y (by omega)).trans (A0_high_6 x0 x1 x2 c arg1 harg1 arg2 harg2 arg3 harg3 arg8 y (by omega))

theorem A0_low_7 (y : S1x2046.Idx) (h : (y 1).val < 254) :
    View.canon (kernelRun0_A.sl.HS0_8 (F := Ideal) c arg1 harg1 arg2 harg2 arg3 harg3 arg8 x0 x1 x2) y = zeroW + numPart x0 x1 x2 (y 1).val := by
  unfold kernelRun0_A.sl.HS0_8
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v193, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst6_apply x0 x1 x2 _ k).trans (congrArg₂ (· + ·)
      ((readCov_row _ _ _ k y hk).trans (A0_high_6 x0 x1 x2 c arg1 harg1 arg2 harg2 arg3 harg3 arg8 y (by omega)))
      ((congrArg (numPart x0 x1 x2) hk).trans (numPart_eq x0 x1 x2 k.val (layerOf_6 _ (by omega) (by omega)) (by norm_num [off]))).symm)
  · exact A0_low_6 x0 x1 x2 c arg1 harg1 arg2 harg2 arg3 harg3 arg8 y (by omega)

theorem A0_high_8 (y : S1x2046.Idx) (h : 510 ≤ (y 1).val) : View.canon (kernelRun0_A.sl.HS0_9 (F := Ideal) c arg1 harg1 arg2 harg2 arg3 harg3 arg8 x0 x1 x2) y = zeroW := by
  unfold kernelRun0_A.sl.HS0_9
  exact (canon_cons_skip _ _ _ y (by omega)).trans (A0_high_7 x0 x1 x2 c arg1 harg1 arg2 harg2 arg3 harg3 arg8 y (by omega))

theorem A0_low_8 (y : S1x2046.Idx) (h : (y 1).val < 510) :
    View.canon (kernelRun0_A.sl.HS0_9 (F := Ideal) c arg1 harg1 arg2 harg2 arg3 harg3 arg8 x0 x1 x2) y = zeroW + numPart x0 x1 x2 (y 1).val := by
  unfold kernelRun0_A.sl.HS0_9
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v220, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst7_apply x0 x1 x2 _ k).trans (congrArg₂ (· + ·)
      ((readCov_row _ _ _ k y hk).trans (A0_high_7 x0 x1 x2 c arg1 harg1 arg2 harg2 arg3 harg3 arg8 y (by omega)))
      ((congrArg (numPart x0 x1 x2) hk).trans (numPart_eq x0 x1 x2 k.val (layerOf_7 _ (by omega) (by omega)) (by norm_num [off]))).symm)
  · exact A0_low_7 x0 x1 x2 c arg1 harg1 arg2 harg2 arg3 harg3 arg8 y (by omega)

theorem A0_high_9 (y : S1x2046.Idx) (h : 1022 ≤ (y 1).val) : View.canon (kernelRun0_A.sl.HS0_10 (F := Ideal) c arg1 harg1 arg2 harg2 arg3 harg3 arg8 x0 x1 x2) y = zeroW := by
  unfold kernelRun0_A.sl.HS0_10
  exact (canon_cons_skip _ _ _ y (by omega)).trans (A0_high_8 x0 x1 x2 c arg1 harg1 arg2 harg2 arg3 harg3 arg8 y (by omega))

theorem A0_low_9 (y : S1x2046.Idx) (h : (y 1).val < 1022) :
    View.canon (kernelRun0_A.sl.HS0_10 (F := Ideal) c arg1 harg1 arg2 harg2 arg3 harg3 arg8 x0 x1 x2) y = zeroW + numPart x0 x1 x2 (y 1).val := by
  unfold kernelRun0_A.sl.HS0_10
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v247, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst8_apply x0 x1 x2 _ k).trans (congrArg₂ (· + ·)
      ((readCov_row _ _ _ k y hk).trans (A0_high_8 x0 x1 x2 c arg1 harg1 arg2 harg2 arg3 harg3 arg8 y (by omega)))
      ((congrArg (numPart x0 x1 x2) hk).trans (numPart_eq x0 x1 x2 k.val (layerOf_8 _ (by omega) (by omega)) (by norm_num [off]))).symm)
  · exact A0_low_8 x0 x1 x2 c arg1 harg1 arg2 harg2 arg3 harg3 arg8 y (by omega)

theorem canon_A_0 (hc0 : cond0_0 i) (hc1 : ¬cond0_1 i) (y : S1x2046.Idx) :
    View.canon (kernelRun0_A (F := Ideal) c i arg1 harg1 arg2 harg2 arg3 harg3 arg4 harg4 arg5 harg5 arg6 harg6 arg7 harg7 arg8 harg8 arg9 harg9 hc0 hc1 x0 x1 x2 x3 x4).2.2.1 y
      = zeroW + numPart x0 x1 x2 (y 1).val := by
  unfold kernelRun0_A
  dsimp only
  have h : (y 1).val < 2046 := (y 1).isLt
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v274, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + numPart x0 x1 x2 (y 1).val) _ _ _ y (fun k hk => ?_) (fun hl => ?_)
  · have hk' := k.isLt
    exact (Nst9_apply x0 x1 x2 _ k).trans (congrArg₂ (· + ·)
      ((readCov_row _ _ _ k y hk).trans (A0_high_9 x0 x1 x2 c arg1 harg1 arg2 harg2 arg3 harg3 arg8 y (by omega)))
      ((congrArg (numPart x0 x1 x2) hk).trans (numPart_eq x0 x1 x2 k.val (layerOf_9 _ (by omega)) (by norm_num [off]))).symm)
  · exact A0_low_9 x0 x1 x2 c arg1 harg1 arg2 harg2 arg3 harg3 arg8 y (by omega)

theorem A1_high_0 (y : S1x2046.Idx) : View.canon (kernelRun0_A.sl.HS1_1 (F := Ideal)) y = zeroW := by
  unfold kernelRun0_A.sl.HS1_1
  rw [View.canon_unit_zero hz]
  rfl

theorem A1_high_1 (y : S1x2046.Idx) (h : 2 ≤ (y 1).val) : View.canon (kernelRun0_A.sl.HS1_2 (F := Ideal) c arg9) y = zeroW := by
  unfold kernelRun0_A.sl.HS1_2
  exact (canon_cons_skip _ _ _ y (by omega)).trans (A1_high_0 y)

theorem A1_low_1 (y : S1x2046.Idx) (h : (y 1).val < 2) :
    View.canon (kernelRun0_A.sl.HS1_2 (F := Ideal) c arg9) y = zeroW + denPart x0 x1 x2 (y 1).val := by
  unfold kernelRun0_A.sl.HS1_2
  simp only [kernelRun0_A.sl.r_2, kernelRun0_A.sl.v36]
  refine canon_cons_row (fun y => zeroW + denPart x0 x1 x2 (y 1).val) _ _ _ y (fun k hk => ?_) (fun hl => ?_)
  · have hk' := k.isLt
    exact (Dst0_apply x0 x1 x2 _ k).trans (congrArg₂ (· + ·)
      ((readCov_row _ _ _ k y hk).trans (A1_high_0 y))
      ((congrArg (denPart x0 x1 x2) hk).trans (denPart_eq x0 x1 x2 k.val (layerOf_0 _ (by omega)) (by norm_num [off]))).symm)
  · exfalso; omega

theorem A1_high_2 (y : S1x2046.Idx) (h : 6 ≤ (y 1).val) : View.canon (kernelRun0_A.sl.HS1_3 (F := Ideal) c arg1 harg1 arg2 harg2 arg3 harg3 arg9 x0 x1 x2) y = zeroW := by
  unfold kernelRun0_A.sl.HS1_3
  exact (canon_cons_skip _ _ _ y (by omega)).trans (A1_high_1 c arg9 y (by omega))

theorem A1_low_2 (y : S1x2046.Idx) (h : (y 1).val < 6) :
    View.canon (kernelRun0_A.sl.HS1_3 (F := Ideal) c arg1 harg1 arg2 harg2 arg3 harg3 arg9 x0 x1 x2) y = zeroW + denPart x0 x1 x2 (y 1).val := by
  unfold kernelRun0_A.sl.HS1_3
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v63, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst1_apply x0 x1 x2 _ k).trans (congrArg₂ (· + ·)
      ((readCov_row _ _ _ k y hk).trans (A1_high_1 c arg9 y (by omega)))
      ((congrArg (denPart x0 x1 x2) hk).trans (denPart_eq x0 x1 x2 k.val (layerOf_1 _ (by omega) (by omega)) (by norm_num [off]))).symm)
  · exact A1_low_1 x0 x1 x2 c arg9 y (by omega)

theorem A1_high_3 (y : S1x2046.Idx) (h : 14 ≤ (y 1).val) : View.canon (kernelRun0_A.sl.HS1_4 (F := Ideal) c arg1 harg1 arg2 harg2 arg3 harg3 arg9 x0 x1 x2) y = zeroW := by
  unfold kernelRun0_A.sl.HS1_4
  exact (canon_cons_skip _ _ _ y (by omega)).trans (A1_high_2 x0 x1 x2 c arg1 harg1 arg2 harg2 arg3 harg3 arg9 y (by omega))

theorem A1_low_3 (y : S1x2046.Idx) (h : (y 1).val < 14) :
    View.canon (kernelRun0_A.sl.HS1_4 (F := Ideal) c arg1 harg1 arg2 harg2 arg3 harg3 arg9 x0 x1 x2) y = zeroW + denPart x0 x1 x2 (y 1).val := by
  unfold kernelRun0_A.sl.HS1_4
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v90, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst2_apply x0 x1 x2 _ k).trans (congrArg₂ (· + ·)
      ((readCov_row _ _ _ k y hk).trans (A1_high_2 x0 x1 x2 c arg1 harg1 arg2 harg2 arg3 harg3 arg9 y (by omega)))
      ((congrArg (denPart x0 x1 x2) hk).trans (denPart_eq x0 x1 x2 k.val (layerOf_2 _ (by omega) (by omega)) (by norm_num [off]))).symm)
  · exact A1_low_2 x0 x1 x2 c arg1 harg1 arg2 harg2 arg3 harg3 arg9 y (by omega)

theorem A1_high_4 (y : S1x2046.Idx) (h : 30 ≤ (y 1).val) : View.canon (kernelRun0_A.sl.HS1_5 (F := Ideal) c arg1 harg1 arg2 harg2 arg3 harg3 arg9 x0 x1 x2) y = zeroW := by
  unfold kernelRun0_A.sl.HS1_5
  exact (canon_cons_skip _ _ _ y (by omega)).trans (A1_high_3 x0 x1 x2 c arg1 harg1 arg2 harg2 arg3 harg3 arg9 y (by omega))

theorem A1_low_4 (y : S1x2046.Idx) (h : (y 1).val < 30) :
    View.canon (kernelRun0_A.sl.HS1_5 (F := Ideal) c arg1 harg1 arg2 harg2 arg3 harg3 arg9 x0 x1 x2) y = zeroW + denPart x0 x1 x2 (y 1).val := by
  unfold kernelRun0_A.sl.HS1_5
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v117, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst3_apply x0 x1 x2 _ k).trans (congrArg₂ (· + ·)
      ((readCov_row _ _ _ k y hk).trans (A1_high_3 x0 x1 x2 c arg1 harg1 arg2 harg2 arg3 harg3 arg9 y (by omega)))
      ((congrArg (denPart x0 x1 x2) hk).trans (denPart_eq x0 x1 x2 k.val (layerOf_3 _ (by omega) (by omega)) (by norm_num [off]))).symm)
  · exact A1_low_3 x0 x1 x2 c arg1 harg1 arg2 harg2 arg3 harg3 arg9 y (by omega)

theorem A1_high_5 (y : S1x2046.Idx) (h : 62 ≤ (y 1).val) : View.canon (kernelRun0_A.sl.HS1_6 (F := Ideal) c arg1 harg1 arg2 harg2 arg3 harg3 arg9 x0 x1 x2) y = zeroW := by
  unfold kernelRun0_A.sl.HS1_6
  exact (canon_cons_skip _ _ _ y (by omega)).trans (A1_high_4 x0 x1 x2 c arg1 harg1 arg2 harg2 arg3 harg3 arg9 y (by omega))

theorem A1_low_5 (y : S1x2046.Idx) (h : (y 1).val < 62) :
    View.canon (kernelRun0_A.sl.HS1_6 (F := Ideal) c arg1 harg1 arg2 harg2 arg3 harg3 arg9 x0 x1 x2) y = zeroW + denPart x0 x1 x2 (y 1).val := by
  unfold kernelRun0_A.sl.HS1_6
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v144, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst4_apply x0 x1 x2 _ k).trans (congrArg₂ (· + ·)
      ((readCov_row _ _ _ k y hk).trans (A1_high_4 x0 x1 x2 c arg1 harg1 arg2 harg2 arg3 harg3 arg9 y (by omega)))
      ((congrArg (denPart x0 x1 x2) hk).trans (denPart_eq x0 x1 x2 k.val (layerOf_4 _ (by omega) (by omega)) (by norm_num [off]))).symm)
  · exact A1_low_4 x0 x1 x2 c arg1 harg1 arg2 harg2 arg3 harg3 arg9 y (by omega)

theorem A1_high_6 (y : S1x2046.Idx) (h : 126 ≤ (y 1).val) : View.canon (kernelRun0_A.sl.HS1_7 (F := Ideal) c arg1 harg1 arg2 harg2 arg3 harg3 arg9 x0 x1 x2) y = zeroW := by
  unfold kernelRun0_A.sl.HS1_7
  exact (canon_cons_skip _ _ _ y (by omega)).trans (A1_high_5 x0 x1 x2 c arg1 harg1 arg2 harg2 arg3 harg3 arg9 y (by omega))

theorem A1_low_6 (y : S1x2046.Idx) (h : (y 1).val < 126) :
    View.canon (kernelRun0_A.sl.HS1_7 (F := Ideal) c arg1 harg1 arg2 harg2 arg3 harg3 arg9 x0 x1 x2) y = zeroW + denPart x0 x1 x2 (y 1).val := by
  unfold kernelRun0_A.sl.HS1_7
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v171, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst5_apply x0 x1 x2 _ k).trans (congrArg₂ (· + ·)
      ((readCov_row _ _ _ k y hk).trans (A1_high_5 x0 x1 x2 c arg1 harg1 arg2 harg2 arg3 harg3 arg9 y (by omega)))
      ((congrArg (denPart x0 x1 x2) hk).trans (denPart_eq x0 x1 x2 k.val (layerOf_5 _ (by omega) (by omega)) (by norm_num [off]))).symm)
  · exact A1_low_5 x0 x1 x2 c arg1 harg1 arg2 harg2 arg3 harg3 arg9 y (by omega)

theorem A1_high_7 (y : S1x2046.Idx) (h : 254 ≤ (y 1).val) : View.canon (kernelRun0_A.sl.HS1_8 (F := Ideal) c arg1 harg1 arg2 harg2 arg3 harg3 arg9 x0 x1 x2) y = zeroW := by
  unfold kernelRun0_A.sl.HS1_8
  exact (canon_cons_skip _ _ _ y (by omega)).trans (A1_high_6 x0 x1 x2 c arg1 harg1 arg2 harg2 arg3 harg3 arg9 y (by omega))

theorem A1_low_7 (y : S1x2046.Idx) (h : (y 1).val < 254) :
    View.canon (kernelRun0_A.sl.HS1_8 (F := Ideal) c arg1 harg1 arg2 harg2 arg3 harg3 arg9 x0 x1 x2) y = zeroW + denPart x0 x1 x2 (y 1).val := by
  unfold kernelRun0_A.sl.HS1_8
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v198, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst6_apply x0 x1 x2 _ k).trans (congrArg₂ (· + ·)
      ((readCov_row _ _ _ k y hk).trans (A1_high_6 x0 x1 x2 c arg1 harg1 arg2 harg2 arg3 harg3 arg9 y (by omega)))
      ((congrArg (denPart x0 x1 x2) hk).trans (denPart_eq x0 x1 x2 k.val (layerOf_6 _ (by omega) (by omega)) (by norm_num [off]))).symm)
  · exact A1_low_6 x0 x1 x2 c arg1 harg1 arg2 harg2 arg3 harg3 arg9 y (by omega)

theorem A1_high_8 (y : S1x2046.Idx) (h : 510 ≤ (y 1).val) : View.canon (kernelRun0_A.sl.HS1_9 (F := Ideal) c arg1 harg1 arg2 harg2 arg3 harg3 arg9 x0 x1 x2) y = zeroW := by
  unfold kernelRun0_A.sl.HS1_9
  exact (canon_cons_skip _ _ _ y (by omega)).trans (A1_high_7 x0 x1 x2 c arg1 harg1 arg2 harg2 arg3 harg3 arg9 y (by omega))

theorem A1_low_8 (y : S1x2046.Idx) (h : (y 1).val < 510) :
    View.canon (kernelRun0_A.sl.HS1_9 (F := Ideal) c arg1 harg1 arg2 harg2 arg3 harg3 arg9 x0 x1 x2) y = zeroW + denPart x0 x1 x2 (y 1).val := by
  unfold kernelRun0_A.sl.HS1_9
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v225, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst7_apply x0 x1 x2 _ k).trans (congrArg₂ (· + ·)
      ((readCov_row _ _ _ k y hk).trans (A1_high_7 x0 x1 x2 c arg1 harg1 arg2 harg2 arg3 harg3 arg9 y (by omega)))
      ((congrArg (denPart x0 x1 x2) hk).trans (denPart_eq x0 x1 x2 k.val (layerOf_7 _ (by omega) (by omega)) (by norm_num [off]))).symm)
  · exact A1_low_7 x0 x1 x2 c arg1 harg1 arg2 harg2 arg3 harg3 arg9 y (by omega)

theorem A1_high_9 (y : S1x2046.Idx) (h : 1022 ≤ (y 1).val) : View.canon (kernelRun0_A.sl.HS1_10 (F := Ideal) c arg1 harg1 arg2 harg2 arg3 harg3 arg9 x0 x1 x2) y = zeroW := by
  unfold kernelRun0_A.sl.HS1_10
  exact (canon_cons_skip _ _ _ y (by omega)).trans (A1_high_8 x0 x1 x2 c arg1 harg1 arg2 harg2 arg3 harg3 arg9 y (by omega))

theorem A1_low_9 (y : S1x2046.Idx) (h : (y 1).val < 1022) :
    View.canon (kernelRun0_A.sl.HS1_10 (F := Ideal) c arg1 harg1 arg2 harg2 arg3 harg3 arg9 x0 x1 x2) y = zeroW + denPart x0 x1 x2 (y 1).val := by
  unfold kernelRun0_A.sl.HS1_10
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v252, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst8_apply x0 x1 x2 _ k).trans (congrArg₂ (· + ·)
      ((readCov_row _ _ _ k y hk).trans (A1_high_8 x0 x1 x2 c arg1 harg1 arg2 harg2 arg3 harg3 arg9 y (by omega)))
      ((congrArg (denPart x0 x1 x2) hk).trans (denPart_eq x0 x1 x2 k.val (layerOf_8 _ (by omega) (by omega)) (by norm_num [off]))).symm)
  · exact A1_low_8 x0 x1 x2 c arg1 harg1 arg2 harg2 arg3 harg3 arg9 y (by omega)

theorem canon_A_1 (hc0 : cond0_0 i) (hc1 : ¬cond0_1 i) (y : S1x2046.Idx) :
    View.canon (kernelRun0_A (F := Ideal) c i arg1 harg1 arg2 harg2 arg3 harg3 arg4 harg4 arg5 harg5 arg6 harg6 arg7 harg7 arg8 harg8 arg9 harg9 hc0 hc1 x0 x1 x2 x3 x4).2.2.2.1 y
      = zeroW + denPart x0 x1 x2 (y 1).val := by
  unfold kernelRun0_A
  dsimp only
  have h : (y 1).val < 2046 := (y 1).isLt
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.v279, View.readAt_eq_ld, harg1.read_unread, harg2.read_unread, harg3.read_unread,
    View.ld_unit_zero (S := S512x784) hz, View.ld_unit_zero (S := S784x1023) hz, View.ld_unit_zero (S := S1x1023) hz]
  refine canon_cons_row (fun y => zeroW + denPart x0 x1 x2 (y 1).val) _ _ _ y (fun k hk => ?_) (fun hl => ?_)
  · have hk' := k.isLt
    exact (Dst9_apply x0 x1 x2 _ k).trans (congrArg₂ (· + ·)
      ((readCov_row _ _ _ k y hk).trans (A1_high_9 x0 x1 x2 c arg1 harg1 arg2 harg2 arg3 harg3 arg9 y (by omega)))
      ((congrArg (denPart x0 x1 x2) hk).trans (denPart_eq x0 x1 x2 k.val (layerOf_9 _ (by omega)) (by norm_num [off]))).symm)
  · exact A1_low_9 x0 x1 x2 c arg1 harg1 arg2 harg2 arg3 harg3 arg9 y (by omega)

theorem canon_A_5 (hc0 : cond0_0 i) (hc1 : ¬cond0_1 i) :
    View.canon (kernelRun0_A (F := Ideal) c i arg1 harg1 arg2 harg2 arg3 harg3 arg4 harg4 arg5 harg5 arg6 harg6 arg7 harg7 arg8 harg8 arg9 harg9 hc0 hc1 x0 x1 x2 x3 x4).1 = yTile x0 x1 x2 x3 := by
  unfold kernelRun0_A
  dsimp only
  sl_unfold_words
  simp only [View.readAt_eq_ld, harg1.read_unread, harg2.read_unread, harg3.read_unread,
    View.ld_unit_zero (S := S512x784) hz, View.ld_unit_zero (S := S784x1023) hz, View.ld_unit_zero (S := S1x1023) hz, harg4.read_unread, View.ld_unit_zero (S := S1024x10) hz]
  rw [View.canon_unit_zero hz]
  exact funext fun y => Y_apply x0 x1 x2 x3 y

theorem sout_A_0 (hc0 : cond0_0 i) (hc1 : ¬cond0_1 i) :
    sout0_A_0 (F := Ideal) c i arg1 harg1 arg2 harg2 arg3 harg3 arg4 harg4 arg5 harg5 arg6 harg6 arg7 harg7 arg8 harg8 arg9 harg9 hc0 hc1 x0 x1 x2 x3 x4 = fun y => zeroW + numPart x0 x1 x2 (y 1).val := by
  unfold sout0_A_0
  exact (View.read_writes_junk_eq_canon _ _).trans (funext fun y => canon_A_0 x0 x1 x2 x3 x4 c i arg1 harg1 arg2 harg2 arg3 harg3 arg4 harg4 arg5 harg5 arg6 harg6 arg7 harg7 arg8 harg8 arg9 harg9 hc0 hc1 y)

theorem sout_A_1 (hc0 : cond0_0 i) (hc1 : ¬cond0_1 i) :
    sout0_A_1 (F := Ideal) c i arg1 harg1 arg2 harg2 arg3 harg3 arg4 harg4 arg5 harg5 arg6 harg6 arg7 harg7 arg8 harg8 arg9 harg9 hc0 hc1 x0 x1 x2 x3 x4 = fun y => zeroW + denPart x0 x1 x2 (y 1).val := by
  unfold sout0_A_1
  exact (View.read_writes_junk_eq_canon _ _).trans (funext fun y => canon_A_1 x0 x1 x2 x3 x4 c i arg1 harg1 arg2 harg2 arg3 harg3 arg4 harg4 arg5 harg5 arg6 harg6 arg7 harg7 arg8 harg8 arg9 harg9 hc0 hc1 y)

theorem out_A_5 (hc0 : cond0_0 i) (hc1 : ¬cond0_1 i) :
    out0_A_5 (F := Ideal) c i arg1 harg1 arg2 harg2 arg3 harg3 arg4 harg4 arg5 harg5 arg6 harg6 arg7 harg7 arg8 harg8 arg9 harg9 hc0 hc1 x0 x1 x2 x3 x4 = yTile x0 x1 x2 x3 := by
  unfold out0_A_5
  exact (View.read_writes_junk_eq_canon _ _).trans (canon_A_5 x0 x1 x2 x3 x4 c i arg1 harg1 arg2 harg2 arg3 harg3 arg4 harg4 arg5 harg5 arg6 harg6 arg7 harg7 arg8 harg8 arg9 harg9 hc0 hc1)

/-! ### The last point: as a middle point, and the penalty off the updated accumulators

After its ten slices the point loads both accumulators whole (so it reads what the slices left), and the weight table,
and stores the penalty of the three. -/

theorem canon_C_hs0 (y : S1x2046.Idx) :
    View.canon (kernelRun0_C.sl.HS0_10 (F := Ideal) c arg1 harg1 arg2 harg2 arg3 harg3 arg8 harg8 x0 x1 x2 xs0) y = xs0 y + numPart x0 x1 x2 (y 1).val := by
  sl_unfold_words
  simp only [View.readAt_eq_ld, harg1.read_unread, harg2.read_unread, harg3.read_unread,
    View.ld_unit_zero (S := S512x784) hz, View.ld_unit_zero (S := S784x1023) hz, View.ld_unit_zero (S := S1x1023) hz, harg8.read_unread]
  have hy : (y 1).val < 2046 := (y 1).isLt
  refine canon_cons_row (fun y => xs0 y + numPart x0 x1 x2 (y 1).val) _ _ _ y (fun k hk => ?_) (fun h9 => ?_)
  · have hk' := k.isLt
    exact (Nst9_apply x0 x1 x2 _ k).trans (congrArg₂ (· + ·) (ld_row xs0 _ k y hk)
      ((congrArg (numPart x0 x1 x2) hk).trans (numPart_eq x0 x1 x2 k.val (layerOf_9 _ (by omega)) (by norm_num [off]))).symm)
  refine canon_cons_row (fun y => xs0 y + numPart x0 x1 x2 (y 1).val) _ _ _ y (fun k hk => ?_) (fun h8 => ?_)
  · have hk' := k.isLt
    exact (Nst8_apply x0 x1 x2 _ k).trans (congrArg₂ (· + ·) (ld_row xs0 _ k y hk)
      ((congrArg (numPart x0 x1 x2) hk).trans (numPart_eq x0 x1 x2 k.val (layerOf_8 _ (by omega) (by omega)) (by norm_num [off]))).symm)
  refine canon_cons_row (fun y => xs0 y + numPart x0 x1 x2 (y 1).val) _ _ _ y (fun k hk => ?_) (fun h7 => ?_)
  · have hk' := k.isLt
    exact (Nst7_apply x0 x1 x2 _ k).trans (congrArg₂ (· + ·) (ld_row xs0 _ k y hk)
      ((congrArg (numPart x0 x1 x2) hk).trans (numPart_eq x0 x1 x2 k.val (layerOf_7 _ (by omega) (by omega)) (by norm_num [off]))).symm)
  refine canon_cons_row (fun y => xs0 y + numPart x0 x1 x2 (y 1).val) _ _ _ y (fun k hk => ?_) (fun h6 => ?_)
  · have hk' := k.isLt
    exact (Nst6_apply x0 x1 x2 _ k).trans (congrArg₂ (· + ·) (ld_row xs0 _ k y hk)
      ((congrArg (numPart x0 x1 x2) hk).trans (numPart_eq x0 x1 x2 k.val (layerOf_6 _ (by omega) (by omega)) (by norm_num [off]))).symm)
  refine canon_cons_row (fun y => xs0 y + numPart x0 x1 x2 (y 1).val) _ _ _ y (fun k hk => ?_) (fun h5 => ?_)
  · have hk' := k.isLt
    exact (Nst5_apply x0 x1 x2 _ k).trans (congrArg₂ (· + ·) (ld_row xs0 _ k y hk)
      ((congrArg (numPart x0 x1 x2) hk).trans (numPart_eq x0 x1 x2 k.val (layerOf_5 _ (by omega) (by omega)) (by norm_num [off]))).symm)
  refine canon_cons_row (fun y => xs0 y + numPart x0 x1 x2 (y 1).val) _ _ _ y (fun k hk => ?_) (fun h4 => ?_)
  · have hk' := k.isLt
    exact (Nst4_apply x0 x1 x2 _ k).trans (congrArg₂ (· + ·) (ld_row xs0 _ k y hk)
      ((congrArg (numPart x0 x1 x2) hk).trans (numPart_eq x0 x1 x2 k.val (layerOf_4 _ (by omega) (by omega)) (by norm_num [off]))).symm)
  refine canon_cons_row (fun y => xs0 y + numPart x0 x1 x2 (y 1).val) _ _ _ y (fun k hk => ?_) (fun h3 => ?_)
  · have hk' := k.isLt
    exact (Nst3_apply x0 x1 x2 _ k).trans (congrArg₂ (· + ·) (ld_row xs0 _ k y hk)
      ((congrArg (numPart x0 x1 x2) hk).trans (numPart_eq x0 x1 x2 k.val (layerOf_3 _ (by omega) (by omega)) (by norm_num [off]))).symm)
  refine canon_cons_row (fun y => xs0 y + numPart x0 x1 x2 (y 1).val) _ _ _ y (fun k hk => ?_) (fun h2 => ?_)
  · have hk' := k.isLt
    exact (Nst2_apply x0 x1 x2 _ k).trans (congrArg₂ (· + ·) (ld_row xs0 _ k y hk)
      ((congrArg (numPart x0 x1 x2) hk).trans (numPart_eq x0 x1 x2 k.val (layerOf_2 _ (by omega) (by omega)) (by norm_num [off]))).symm)
  refine canon_cons_row (fun y => xs0 y + numPart x0 x1 x2 (y 1).val) _ _ _ y (fun k hk => ?_) (fun h1 => ?_)
  · have hk' := k.isLt
    exact (Nst1_apply x0 x1 x2 _ k).trans (congrArg₂ (· + ·) (ld_row xs0 _ k y hk)
      ((congrArg (numPart x0 x1 x2) hk).trans (numPart_eq x0 x1 x2 k.val (layerOf_1 _ (by omega) (by omega)) (by norm_num [off]))).symm)
  refine canon_cons_row (fun y => xs0 y + numPart x0 x1 x2 (y 1).val) _ _ _ y (fun k hk => ?_) (fun h0 => ?_)
  · have hk' := k.isLt
    exact (Nst0_apply x0 x1 x2 _ k).trans (congrArg₂ (· + ·) (ld_row xs0 _ k y hk)
      ((congrArg (numPart x0 x1 x2) hk).trans (numPart_eq x0 x1 x2 k.val (layerOf_0 _ (by omega)) (by norm_num [off]))).symm)
  exfalso; omega

theorem canon_C_hs1 (y : S1x2046.Idx) :
    View.canon (kernelRun0_C.sl.HS1_10 (F := Ideal) c arg1 harg1 arg2 harg2 arg3 harg3 arg9 harg9 x0 x1 x2 xs1) y = xs1 y + denPart x0 x1 x2 (y 1).val := by
  sl_unfold_words
  simp only [View.readAt_eq_ld, harg1.read_unread, harg2.read_unread, harg3.read_unread,
    View.ld_unit_zero (S := S512x784) hz, View.ld_unit_zero (S := S784x1023) hz, View.ld_unit_zero (S := S1x1023) hz, harg9.read_unread]
  have hy : (y 1).val < 2046 := (y 1).isLt
  refine canon_cons_row (fun y => xs1 y + denPart x0 x1 x2 (y 1).val) _ _ _ y (fun k hk => ?_) (fun h9 => ?_)
  · have hk' := k.isLt
    exact (Dst9_apply x0 x1 x2 _ k).trans (congrArg₂ (· + ·) (ld_row xs1 _ k y hk)
      ((congrArg (denPart x0 x1 x2) hk).trans (denPart_eq x0 x1 x2 k.val (layerOf_9 _ (by omega)) (by norm_num [off]))).symm)
  refine canon_cons_row (fun y => xs1 y + denPart x0 x1 x2 (y 1).val) _ _ _ y (fun k hk => ?_) (fun h8 => ?_)
  · have hk' := k.isLt
    exact (Dst8_apply x0 x1 x2 _ k).trans (congrArg₂ (· + ·) (ld_row xs1 _ k y hk)
      ((congrArg (denPart x0 x1 x2) hk).trans (denPart_eq x0 x1 x2 k.val (layerOf_8 _ (by omega) (by omega)) (by norm_num [off]))).symm)
  refine canon_cons_row (fun y => xs1 y + denPart x0 x1 x2 (y 1).val) _ _ _ y (fun k hk => ?_) (fun h7 => ?_)
  · have hk' := k.isLt
    exact (Dst7_apply x0 x1 x2 _ k).trans (congrArg₂ (· + ·) (ld_row xs1 _ k y hk)
      ((congrArg (denPart x0 x1 x2) hk).trans (denPart_eq x0 x1 x2 k.val (layerOf_7 _ (by omega) (by omega)) (by norm_num [off]))).symm)
  refine canon_cons_row (fun y => xs1 y + denPart x0 x1 x2 (y 1).val) _ _ _ y (fun k hk => ?_) (fun h6 => ?_)
  · have hk' := k.isLt
    exact (Dst6_apply x0 x1 x2 _ k).trans (congrArg₂ (· + ·) (ld_row xs1 _ k y hk)
      ((congrArg (denPart x0 x1 x2) hk).trans (denPart_eq x0 x1 x2 k.val (layerOf_6 _ (by omega) (by omega)) (by norm_num [off]))).symm)
  refine canon_cons_row (fun y => xs1 y + denPart x0 x1 x2 (y 1).val) _ _ _ y (fun k hk => ?_) (fun h5 => ?_)
  · have hk' := k.isLt
    exact (Dst5_apply x0 x1 x2 _ k).trans (congrArg₂ (· + ·) (ld_row xs1 _ k y hk)
      ((congrArg (denPart x0 x1 x2) hk).trans (denPart_eq x0 x1 x2 k.val (layerOf_5 _ (by omega) (by omega)) (by norm_num [off]))).symm)
  refine canon_cons_row (fun y => xs1 y + denPart x0 x1 x2 (y 1).val) _ _ _ y (fun k hk => ?_) (fun h4 => ?_)
  · have hk' := k.isLt
    exact (Dst4_apply x0 x1 x2 _ k).trans (congrArg₂ (· + ·) (ld_row xs1 _ k y hk)
      ((congrArg (denPart x0 x1 x2) hk).trans (denPart_eq x0 x1 x2 k.val (layerOf_4 _ (by omega) (by omega)) (by norm_num [off]))).symm)
  refine canon_cons_row (fun y => xs1 y + denPart x0 x1 x2 (y 1).val) _ _ _ y (fun k hk => ?_) (fun h3 => ?_)
  · have hk' := k.isLt
    exact (Dst3_apply x0 x1 x2 _ k).trans (congrArg₂ (· + ·) (ld_row xs1 _ k y hk)
      ((congrArg (denPart x0 x1 x2) hk).trans (denPart_eq x0 x1 x2 k.val (layerOf_3 _ (by omega) (by omega)) (by norm_num [off]))).symm)
  refine canon_cons_row (fun y => xs1 y + denPart x0 x1 x2 (y 1).val) _ _ _ y (fun k hk => ?_) (fun h2 => ?_)
  · have hk' := k.isLt
    exact (Dst2_apply x0 x1 x2 _ k).trans (congrArg₂ (· + ·) (ld_row xs1 _ k y hk)
      ((congrArg (denPart x0 x1 x2) hk).trans (denPart_eq x0 x1 x2 k.val (layerOf_2 _ (by omega) (by omega)) (by norm_num [off]))).symm)
  refine canon_cons_row (fun y => xs1 y + denPart x0 x1 x2 (y 1).val) _ _ _ y (fun k hk => ?_) (fun h1 => ?_)
  · have hk' := k.isLt
    exact (Dst1_apply x0 x1 x2 _ k).trans (congrArg₂ (· + ·) (ld_row xs1 _ k y hk)
      ((congrArg (denPart x0 x1 x2) hk).trans (denPart_eq x0 x1 x2 k.val (layerOf_1 _ (by omega) (by omega)) (by norm_num [off]))).symm)
  refine canon_cons_row (fun y => xs1 y + denPart x0 x1 x2 (y 1).val) _ _ _ y (fun k hk => ?_) (fun h0 => ?_)
  · have hk' := k.isLt
    exact (Dst0_apply x0 x1 x2 _ k).trans (congrArg₂ (· + ·) (ld_row xs1 _ k y hk)
      ((congrArg (denPart x0 x1 x2) hk).trans (denPart_eq x0 x1 x2 k.val (layerOf_0 _ (by omega)) (by norm_num [off]))).symm)
  exfalso; omega

theorem canon_C_0 (hc0 : ¬cond0_0 i) (hc1 : cond0_1 i) (y : S1x2046.Idx) :
    View.canon (kernelRun0_C (F := Ideal) c i arg1 harg1 arg2 harg2 arg3 harg3 arg4 harg4 arg5 harg5 arg6 harg6 arg7 harg7 arg8 harg8 arg9 harg9 hc0 hc1 x0 x1 x2 x3 x4 xs0 xs1).2.2.1 y
      = xs0 y + numPart x0 x1 x2 (y 1).val := by
  unfold kernelRun0_C
  dsimp only
  exact canon_C_hs0 x0 x1 x2 xs0 c arg1 harg1 arg2 harg2 arg3 harg3 arg8 harg8 y

theorem canon_C_1 (hc0 : ¬cond0_0 i) (hc1 : cond0_1 i) (y : S1x2046.Idx) :
    View.canon (kernelRun0_C (F := Ideal) c i arg1 harg1 arg2 harg2 arg3 harg3 arg4 harg4 arg5 harg5 arg6 harg6 arg7 harg7 arg8 harg8 arg9 harg9 hc0 hc1 x0 x1 x2 x3 x4 xs0 xs1).2.2.2.1 y
      = xs1 y + denPart x0 x1 x2 (y 1).val := by
  unfold kernelRun0_C
  dsimp only
  exact canon_C_hs1 x0 x1 x2 xs1 c arg1 harg1 arg2 harg2 arg3 harg3 arg9 harg9 y

theorem canon_C_5 (hc0 : ¬cond0_0 i) (hc1 : cond0_1 i) :
    View.canon (kernelRun0_C (F := Ideal) c i arg1 harg1 arg2 harg2 arg3 harg3 arg4 harg4 arg5 harg5 arg6 harg6 arg7 harg7 arg8 harg8 arg9 harg9 hc0 hc1 x0 x1 x2 x3 x4 xs0 xs1).1 = yTile x0 x1 x2 x3 := by
  unfold kernelRun0_C
  dsimp only
  sl_unfold_words
  simp only [View.readAt_eq_ld, harg1.read_unread, harg2.read_unread, harg3.read_unread,
    View.ld_unit_zero (S := S512x784) hz, View.ld_unit_zero (S := S784x1023) hz, View.ld_unit_zero (S := S1x1023) hz, harg4.read_unread, View.ld_unit_zero (S := S1024x10) hz]
  rw [View.canon_unit_zero hz]
  exact funext fun y => Y_apply x0 x1 x2 x3 y

theorem canon_C_6 (hc0 : ¬cond0_0 i) (hc1 : cond0_1 i) :
    View.canon (kernelRun0_C (F := Ideal) c i arg1 harg1 arg2 harg2 arg3 harg3 arg4 harg4 arg5 harg5 arg6 harg6 arg7 harg7 arg8 harg8 arg9 harg9 hc0 hc1 x0 x1 x2 x3 x4 xs0 xs1).2.1
      = fun _ => penOf
          (fun j => if h : j < 2046 then xs0 (ix2 (0 : Fin 1) (⟨j, h⟩ : Fin 2046)) + numPart x0 x1 x2 j else 0)
          (fun j => if h : j < 2046 then xs1 (ix2 (0 : Fin 1) (⟨j, h⟩ : Fin 2046)) + denPart x0 x1 x2 j else 0)
          (fun j => if h : j < 2046 then x4 (ix2 (0 : Fin 1) (⟨j, h⟩ : Fin 2046)) else 0) := by
  unfold kernelRun0_C
  dsimp only
  rw [View.canon_unit_zero hz]
  simp only [View.readAt_eq_ld, harg5.read_unread, View.ld_unit_zero (S := S1x2046) hz]
  funext y
  refine (pen_apply _ _ _ y).trans ?_
  congr 1
  · funext j
    by_cases h : j < 2046
    · rw [dif_pos h, dif_pos h]
      exact (readCov_whole _ _ _ ⟨j, h⟩).trans (canon_C_hs0 x0 x1 x2 xs0 c arg1 harg1 arg2 harg2 arg3 harg3 arg8 harg8 _)
    · rw [dif_neg h, dif_neg h]
  · funext j
    by_cases h : j < 2046
    · rw [dif_pos h, dif_pos h]
      exact (readCov_whole _ _ _ ⟨j, h⟩).trans (canon_C_hs1 x0 x1 x2 xs1 c arg1 harg1 arg2 harg2 arg3 harg3 arg9 harg9 _)
    · rw [dif_neg h, dif_neg h]

theorem sout_C_0 (hc0 : ¬cond0_0 i) (hc1 : cond0_1 i) :
    sout0_C_0 (F := Ideal) c i arg1 harg1 arg2 harg2 arg3 harg3 arg4 harg4 arg5 harg5 arg6 harg6 arg7 harg7 arg8 harg8 arg9 harg9 hc0 hc1 x0 x1 x2 x3 x4 xs0 xs1 = fun y => xs0 y + numPart x0 x1 x2 (y 1).val := by
  unfold sout0_C_0
  exact (View.read_writes_junk_eq_canon _ _).trans (funext fun y => canon_C_0 x0 x1 x2 x3 x4 xs0 xs1 c i arg1 harg1 arg2 harg2 arg3 harg3 arg4 harg4 arg5 harg5 arg6 harg6 arg7 harg7 arg8 harg8 arg9 harg9 hc0 hc1 y)

theorem sout_C_1 (hc0 : ¬cond0_0 i) (hc1 : cond0_1 i) :
    sout0_C_1 (F := Ideal) c i arg1 harg1 arg2 harg2 arg3 harg3 arg4 harg4 arg5 harg5 arg6 harg6 arg7 harg7 arg8 harg8 arg9 harg9 hc0 hc1 x0 x1 x2 x3 x4 xs0 xs1 = fun y => xs1 y + denPart x0 x1 x2 (y 1).val := by
  unfold sout0_C_1
  exact (View.read_writes_junk_eq_canon _ _).trans (funext fun y => canon_C_1 x0 x1 x2 x3 x4 xs0 xs1 c i arg1 harg1 arg2 harg2 arg3 harg3 arg4 harg4 arg5 harg5 arg6 harg6 arg7 harg7 arg8 harg8 arg9 harg9 hc0 hc1 y)

theorem out_C_5 (hc0 : ¬cond0_0 i) (hc1 : cond0_1 i) :
    out0_C_5 (F := Ideal) c i arg1 harg1 arg2 harg2 arg3 harg3 arg4 harg4 arg5 harg5 arg6 harg6 arg7 harg7 arg8 harg8 arg9 harg9 hc0 hc1 x0 x1 x2 x3 x4 xs0 xs1 = yTile x0 x1 x2 x3 := by
  unfold out0_C_5
  exact (View.read_writes_junk_eq_canon _ _).trans (canon_C_5 x0 x1 x2 x3 x4 xs0 xs1 c i arg1 harg1 arg2 harg2 arg3 harg3 arg4 harg4 arg5 harg5 arg6 harg6 arg7 harg7 arg8 harg8 arg9 harg9 hc0 hc1)

theorem out_C_6 (hc0 : ¬cond0_0 i) (hc1 : cond0_1 i) :
    out0_C_6 (F := Ideal) c i arg1 harg1 arg2 harg2 arg3 harg3 arg4 harg4 arg5 harg5 arg6 harg6 arg7 harg7 arg8 harg8 arg9 harg9 hc0 hc1 x0 x1 x2 x3 x4 xs0 xs1
      = fun _ => penOf
          (fun j => if h : j < 2046 then xs0 (ix2 (0 : Fin 1) (⟨j, h⟩ : Fin 2046)) + numPart x0 x1 x2 j else 0)
          (fun j => if h : j < 2046 then xs1 (ix2 (0 : Fin 1) (⟨j, h⟩ : Fin 2046)) + denPart x0 x1 x2 j else 0)
          (fun j => if h : j < 2046 then x4 (ix2 (0 : Fin 1) (⟨j, h⟩ : Fin 2046)) else 0) := by
  unfold out0_C_6
  exact (View.read_writes_junk_eq_canon _ _).trans (canon_C_6 x0 x1 x2 x3 x4 xs0 xs1 c i arg1 harg1 arg2 harg2 arg3 harg3 arg4 harg4 arg5 harg5 arg6 harg6 arg7 harg7 arg8 harg8 arg9 harg9 hc0 hc1)

end Cert.KernelIdeal.Tile

end
-- ==== Proof.KerBlocks.lean ====
/-
  What the kernel's windows show it at a grid point.

  Point `t` of the 64 sees rows `512 t … 512 t + 511` of the batch; the other four windows never move: the inner
  weights transposed with the bias column cut off, the bias column as a row, the leaf weights transposed, and the
  table of per-child weights, all prepared by host operations before the kernel runs.  The tile's left-probabilities
  are therefore the batch's, at the tile's rows.
-/
import proofs.«178311_j48498770706534_1_alg».proof.Proof.Gen.KernelIdeal.Frame
import proofs.«178311_j48498770706534_1_alg».proof.Proof.KerMu
import Idealize.ShloMosaic.Lib.Pipeline.Value
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.SDT

variable (m : (ℓ : Loc nD τ sig) → Buf (Elt Ideal) ℓ) (ρ : Dev nD → PrngReg)

/-- The three arguments as functions of their coordinates. -/
def Xk (c : Dev nD) : Fin 32768 → Fin 784 → EReal := arr2 (a := 32768) (b := 784) (m ((c.tc : Thread nD τ).loc main_arg0))
def Wik (c : Dev nD) : Fin 1023 → Fin 785 → EReal := arr2 (a := 1023) (b := 785) (m ((c.tc : Thread nD τ).loc main_arg1))
def Wlk (c : Dev nD) : Fin 10 → Fin 1024 → EReal := arr2 (a := 10) (b := 1024) (m ((c.tc : Thread nD τ).loc main_arg2))

/-- The five input blocks at point `t`, at their literal types. -/
abbrev blk0 (c : Dev nD) (t : Fin cfg0.N) : Vec Ideal S512x784 .f32 := iblk m c 0 t
abbrev blk1 (c : Dev nD) (t : Fin cfg0.N) : Vec Ideal S784x1023 .bf16 := iblk m c 1 t
abbrev blk2 (c : Dev nD) (t : Fin cfg0.N) : Vec Ideal S1x1023 .f32 := iblk m c 2 t
abbrev blk3 (c : Dev nD) (t : Fin cfg0.N) : Vec Ideal S1024x10 .bf16 := iblk m c 3 t
abbrev blk4 (c : Dev nD) (t : Fin cfg0.N) : Vec Ideal S1x2046 .f32 := iblk m c 4 t

/-! ## Where the windows' blocks lie in their arrays

The batch window's block index is the grid point along the rows and zero along the columns; the four fixed windows sit
at block index zero on both axes.  Each is a finite statement over the 64 grid points. -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem blk0_apply (c : Dev nD) (t : Fin cfg0.N) (r : Fin 512) (d : Fin 784) (h : 512 * t.val + r.val < 32768) :
    blk0 m c t (ix2 r d) = Xk m c ⟨512 * t.val + r.val, h⟩ d := by
  have hi := idx0 t
  show iblk m c 0 t (ix2 r d) = _
  unfold iblk
  rw [View.read_apply]
  show V m c main_arg0 _ = m ((c.tc : Thread nD τ).loc main_arg0) _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 784 + 1 * d.val = d.val; rw [hi.2]; omega

/-! ## The arrays the host prepared, read at an index -/

/-- The inner weights without the bias column, transposed (and narrowed, which changes no extended real). -/
theorem V_v5_apply (c : Dev nD) (d : Fin 784) (j : Fin 1023) : V m c main_v5 (ix2 d j) = Wik m c j d.succ := by
  show StableHlo.after hostOps0 (fun b => m (c, b)) (Proc.devRef .tc main_v5) (ix2 d j) = _
  after_results
  rw [truncf_apply, transpose_ix2_apply, slice2_axis1_apply 1 _ _ j d d.succ (by rw [Fin.val_succ]; omega)]
  rfl

/-- The bias column as a row. -/
theorem V_v2_apply (c : Dev nD) (j : Fin 1023) : V m c main_v2 (ix2 (0 : Fin 1) j) = Wik m c j 0 := by
  show StableHlo.after hostOps0 (fun b => m (c, b)) (Proc.devRef .tc main_v2) (ix2 (0 : Fin 1) j) = _
  after_results
  show shapeCast S1x1023 (shapeCast S1023 (extractStridedSlice S1023x1 ![0, 0] (m ((c.tc : Thread nD τ).loc main_arg1))
    slices_S1023x785_S1023x1_0_0) shapeCasts_S1023x1_S1023) shapeCasts_S1023_S1x1023 (ix2 (0 : Fin 1) j) = _
  rw [shapeCast_a_1a_apply,
    shapeCast_apply _ _ (ix1 j) (ix2 j (0 : Fin 1)) (by
      rw [Shape.rowMajor_val_two, Shape.rowMajor_val_one]; show j.val * 1 + 0 = j.val; omega),
    slice2_axis1_apply 0 _ _ j (0 : Fin 1) (0 : Fin 785) rfl]
  rfl

/-- The leaf weights transposed. -/
theorem V_v7_apply (c : Dev nD) (k : Fin 1024) (o : Fin 10) : V m c main_v7 (ix2 k o) = Wlk m c o k := by
  show StableHlo.after hostOps0 (fun b => m (c, b)) (Proc.devRef .tc main_v7) (ix2 k o) = _
  after_results
  rw [truncf_apply, transpose_ix2_apply]
  rfl

/-- The table of per-child weights: child `j`'s word is its layer's. -/
theorem lit0_eq : ∀ j : Fin 2046, lit0 j = Cert.Consts.wWord (layerOf j.val) := by decide +kernel

theorem V_cst_apply (c : Dev nD) (j : Fin 2046) : V m c main_cst (ix2 (0 : Fin 1) j) = wK j.val := by
  have hrm : S1x2046.rowMajor (ix2 (0 : Fin 1) j) = j :=
    Fin.ext (by rw [Shape.rowMajor_val_two]; show 0 * 2046 + j.val = j.val; omega)
  show StableHlo.after hostOps0 (fun b => m (c, b)) (Proc.devRef .tc main_cst) (ix2 (0 : Fin 1) j) = _
  after_results
  show Ideal.ofBits .f32 (lit0 (S1x2046.rowMajor (ix2 (0 : Fin 1) j))) = Ideal.ofBits .f32 (Cert.Consts.wWord (layerOf j.val))
  rw [hrm, lit0_eq j]

/-! ## The blocks -/

theorem blk1_apply (c : Dev nD) (t : Fin cfg0.N) (d : Fin 784) (j : Fin 1023) :
    blk1 m c t (ix2 d j) = Wik m c j d.succ := by
  have hi := idx1 t
  show iblk m c 1 t (ix2 d j) = _
  unfold iblk
  rw [View.read_apply]
  show V m c main_v5 _ = _
  refine Eq.trans ?_ (V_v5_apply m c d j)
  congr 1
  funext a
  apply Fin.ext
  match a with
  | ⟨0, _⟩ => show win0_1.index t 0 * 784 + 1 * d.val = d.val; rw [hi.1]; omega
  | ⟨1, _⟩ => show win0_1.index t 1 * 1023 + 1 * j.val = j.val; rw [hi.2]; omega

theorem blk2_apply (c : Dev nD) (t : Fin cfg0.N) (j : Fin 1023) :
    blk2 m c t (ix2 (0 : Fin 1) j) = Wik m c j 0 := by
  have hi := idx2 t
  show iblk m c 2 t (ix2 (0 : Fin 1) j) = _
  unfold iblk
  rw [View.read_apply]
  show V m c main_v2 _ = _
  refine Eq.trans ?_ (V_v2_apply m c j)
  congr 1
  funext a
  apply Fin.ext
  match a with
  | ⟨0, _⟩ => show win0_2.index t 0 * 1 + 1 * 0 = 0; rw [hi.1]
  | ⟨1, _⟩ => show win0_2.index t 1 * 1023 + 1 * j.val = j.val; rw [hi.2]; omega

theorem blk3_apply (c : Dev nD) (t : Fin cfg0.N) (k : Fin 1024) (o : Fin 10) :
    blk3 m c t (ix2 k o) = Wlk m c o k := by
  have hi := idx3 t
  show iblk m c 3 t (ix2 k o) = _
  unfold iblk
  rw [View.read_apply]
  show V m c main_v7 _ = _
  refine Eq.trans ?_ (V_v7_apply m c k o)
  congr 1
  funext a
  apply Fin.ext
  match a with
  | ⟨0, _⟩ => show win0_3.index t 0 * 1024 + 1 * k.val = k.val; rw [hi.1]; omega
  | ⟨1, _⟩ => show win0_3.index t 1 * 10 + 1 * o.val = o.val; rw [hi.2]; omega

theorem blk4_apply (c : Dev nD) (t : Fin cfg0.N) (j : Fin 2046) :
    blk4 m c t (ix2 (0 : Fin 1) j) = wK j.val := by
  have hi := idx4 t
  show iblk m c 4 t (ix2 (0 : Fin 1) j) = _
  unfold iblk
  rw [View.read_apply]
  show V m c main_cst _ = _
  refine Eq.trans ?_ (V_cst_apply m c j)
  congr 1
  funext a
  apply Fin.ext
  match a with
  | ⟨0, _⟩ => show win0_4.index t 0 * 1 + 1 * 0 = 0; rw [hi.1]
  | ⟨1, _⟩ => show win0_4.index t 1 * 2046 + 1 * j.val = j.val; rw [hi.2]; omega

/-- The tile's left-probabilities are the batch's at the tile's rows. -/
theorem Pt_blk (c : Dev nD) (t : Fin cfg0.N) (r : Fin 512) (h : 512 * t.val + r.val < 32768) (j : ℕ) :
    Tile.Pt (blk0 m c t) (blk1 m c t) (blk2 m c t) r j = probN (Xk m c) (Wik m c) ⟨512 * t.val + r.val, h⟩ j := by
  unfold Tile.Pt probN prob logit
  by_cases hj : j < 1023
  · rw [dif_pos hj, dif_pos hj, blk2_apply]
    congr 2
    exact Finset.sum_congr rfl fun d _ => by rw [blk0_apply m c t r d h, blk1_apply]
  · rw [dif_neg hj, dif_neg hj]

end Cert.KernelIdeal.Blocks

end
-- ==== Proof.KerAcc.lean ====
/-
  The accumulators over the grid.

  After point `n` the first accumulator holds, at flat child `j`, the zero word plus the masses of tiles `0 … n` at
  that child, and the second the same for the child's parent: by induction on the point, the first point starting
  from the zero word and every later one adding its tile to what the point before left.  The 64 tiles of 512 rows are
  the batch, so after the last point the accumulators hold the batch's masses, the penalty the last point stores is
  the specification's flat form, and every point's block of predictions is the specification's, at the tile's rows.
-/
import proofs.«178311_j48498770706534_1_alg».proof.Proof.KerTile
import proofs.«178311_j48498770706534_1_alg».proof.Proof.KerBlocks
import Mathlib.Algebra.BigOperators.Fin
import Mathlib.Data.Fintype.BigOperators
import Mathlib.Logic.Equiv.Fin.Basic

set_option maxRecDepth 16384

noncomputable section

namespace Cert.KernelIdeal.Acc

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.SDT Cert.KernelIdeal.Blocks

/-- 64 tiles of 512 rows are the batch: summing over the tiles and over the rows within a tile is summing over the
    batch, row `r` of tile `t` being row `512 t + r`. -/
theorem sum_tiles {M : Type*} [AddCommMonoid M] (f : Fin 32768 → M)
    (h : ∀ (t : Fin 64) (r : Fin 512), 512 * t.val + r.val < 32768) :
    ∑ t : Fin 64, ∑ r : Fin 512, f ⟨512 * t.val + r.val, h t r⟩ = ∑ b : Fin 32768, f b := by
  rw [← Fintype.sum_prod_type' (fun (t : Fin 64) (r : Fin 512) => f ⟨512 * t.val + r.val, h t r⟩)]
  refine Fintype.sum_equiv (finProdFinEquiv (m := 64) (n := 512)) _ _ fun p => ?_
  exact congrArg f (Fin.ext (Nat.add_comm _ _))

/-- The penalty depends on its three tables only at the 2046 children. -/
theorem penOf_congr {N D w N' D' w' : ℕ → EReal} (hN : ∀ j : Fin 2046, N j.val = N' j.val)
    (hD : ∀ j : Fin 2046, D j.val = D' j.val) (hw : ∀ j : Fin 2046, w j.val = w' j.val) :
    Tile.penOf N D w = Tile.penOf N' D' w' := by
  unfold Tile.penOf
  refine congrArg (negHalfW * ·) (Finset.sum_congr rfl fun j _ => ?_)
  rw [hN j, hD j, hw j]

/-- The specification's flat penalty is the point's formula at the batch's masses and the per-child weights. -/
theorem penFlat_eq (X : Fin 32768 → Fin 784 → EReal) (Wi : Fin 1023 → Fin 785 → EReal) :
    penFlat X Wi oneW negHalfW wK = Tile.penOf (numerF X Wi oneW) (denomF X Wi oneW) wK := rfl

variable (m : (ℓ : Loc nD τ sig) → Buf (Elt Ideal) ℓ) (ρ : Dev nD → PrngReg)

theorem lt63 : 63 < cfg0.N := Nat.lt_of_lt_of_eq (by norm_num : 63 < 64) N_0.symm

/-! ### One point -/

/-- The first accumulator after a first point: the zero word plus the tile's masses. -/
theorem scr0_A (c : Dev nD) (t : Fin cfg0.N) (h0 : t.val % 64 = 0) (h1 : ¬t.val % 64 = 63) (y : S1x2046.Idx) :
    ((outsAt0 m c t.val t.isLt).2.2.1 : Vec Ideal S1x2046 .f32) y
      = zeroW + Tile.numPart (blk0 m c t) (blk1 m c t) (blk2 m c t) (y 1).val := by
  rw [outsAt0_A m c t h0 h1]
  dsimp only
  exact congrFun (Tile.sout_A_0 (blk0 m c t) (blk1 m c t) (blk2 m c t) (blk3 m c t) (blk4 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h))) y

/-- The second accumulator after a first point. -/
theorem scr1_A (c : Dev nD) (t : Fin cfg0.N) (h0 : t.val % 64 = 0) (h1 : ¬t.val % 64 = 63) (y : S1x2046.Idx) :
    ((outsAt0 m c t.val t.isLt).2.2.2 : Vec Ideal S1x2046 .f32) y
      = zeroW + Tile.denPart (blk0 m c t) (blk1 m c t) (blk2 m c t) (y 1).val := by
  rw [outsAt0_A m c t h0 h1]
  dsimp only
  exact congrFun (Tile.sout_A_1 (blk0 m c t) (blk1 m c t) (blk2 m c t) (blk3 m c t) (blk4 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h))) y

/-- The first accumulator after a later point: what the point before left plus the tile's masses. -/
theorem scr0_B (c : Dev nD) (t : Fin cfg0.N) (h0 : ¬t.val % 64 = 0) (y : S1x2046.Idx) :
    ((outsAt0 m c t.val t.isLt).2.2.1 : Vec Ideal S1x2046 .f32) y
      = ((outsAt0 m c (t.val - 1) (Nat.lt_of_le_of_lt (Nat.sub_le _ _) t.isLt)).2.2.1 : Vec Ideal S1x2046 .f32) y
        + Tile.numPart (blk0 m c t) (blk1 m c t) (blk2 m c t) (y 1).val := by
  by_cases h1 : t.val % 64 = 63
  · rw [outsAt0_C m c t h0 h1]
    dsimp only
    exact congrFun (Tile.sout_C_0 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1)) y
  · rw [outsAt0_B m c t h0 h1]
    dsimp only
    exact congrFun (Tile.sout_B_0 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h))) y

/-- The second accumulator after a later point. -/
theorem scr1_B (c : Dev nD) (t : Fin cfg0.N) (h0 : ¬t.val % 64 = 0) (y : S1x2046.Idx) :
    ((outsAt0 m c t.val t.isLt).2.2.2 : Vec Ideal S1x2046 .f32) y
      = ((outsAt0 m c (t.val - 1) (Nat.lt_of_le_of_lt (Nat.sub_le _ _) t.isLt)).2.2.2 : Vec Ideal S1x2046 .f32) y
        + Tile.denPart (blk0 m c t) (blk1 m c t) (blk2 m c t) (y 1).val := by
  by_cases h1 : t.val % 64 = 63
  · rw [outsAt0_C m c t h0 h1]
    dsimp only
    exact congrFun (Tile.sout_C_1 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1)) y
  · rw [outsAt0_B m c t h0 h1]
    dsimp only
    exact congrFun (Tile.sout_B_1 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h))) y

/-- Every point's block of predictions is the tile's. -/
theorem outs5_eq (c : Dev nD) (t : Fin cfg0.N) :
    ((outsAt0 m c t.val t.isLt).1 : Vec Ideal S512x10 .f32)
      = Tile.yTile (blk0 m c t) (blk1 m c t) (blk2 m c t) (blk3 m c t) := by
  by_cases h0 : t.val % 64 = 0
  · have h1 : ¬t.val % 64 = 63 := by omega
    rw [outsAt0_A m c t h0 h1]
    dsimp only
    exact Tile.out_A_5 (blk0 m c t) (blk1 m c t) (blk2 m c t) (blk3 m c t) (blk4 m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h))
  · by_cases h1 : t.val % 64 = 63
    · rw [outsAt0_C m c t h0 h1]
      dsimp only
      exact Tile.out_C_5 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1)
    · rw [outsAt0_B m c t h0 h1]
      dsimp only
      exact Tile.out_B_5 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h))

/-- The penalty a last point stores: the point's formula at the updated accumulators and the weight table. -/
theorem outs6_C (c : Dev nD) (t : Fin cfg0.N) (h0 : ¬t.val % 64 = 0) (h1 : t.val % 64 = 63) :
    ((outsAt0 m c t.val t.isLt).2.1 : Vec Ideal S1x1 .f32)
      = fun _ => Tile.penOf
          (fun j => if h : j < 2046 then ((outsAt0 m c (t.val - 1) (Nat.lt_of_le_of_lt (Nat.sub_le _ _) t.isLt)).2.2.1 : Vec Ideal S1x2046 .f32) (ix2 (0 : Fin 1) (⟨j, h⟩ : Fin 2046))
              + Tile.numPart (blk0 m c t) (blk1 m c t) (blk2 m c t) j else 0)
          (fun j => if h : j < 2046 then ((outsAt0 m c (t.val - 1) (Nat.lt_of_le_of_lt (Nat.sub_le _ _) t.isLt)).2.2.2 : Vec Ideal S1x2046 .f32) (ix2 (0 : Fin 1) (⟨j, h⟩ : Fin 2046))
              + Tile.denPart (blk0 m c t) (blk1 m c t) (blk2 m c t) j else 0)
          (fun j => if h : j < 2046 then blk4 m c t (ix2 (0 : Fin 1) (⟨j, h⟩ : Fin 2046)) else 0) := by
  rw [outsAt0_C m c t h0 h1]
  dsimp only
  exact Tile.out_C_6 (blk0 m c t) (blk1 m c t) (blk2 m c t) (blk3 m c t) (blk4 m c t) (outsAt0 m c (t.val - 1) (Nat.lt_of_le_of_lt (Nat.sub_le _ _) t.isLt)).2.2.1 (outsAt0 m c (t.val - 1) (Nat.lt_of_le_of_lt (Nat.sub_le _ _) t.isLt)).2.2.2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1)

/-- The same point reached under two names of its position. -/
theorem outsAt0_congr (c : Dev nD) {a b : ℕ} (h : a = b) (ha : a < cfg0.N) (hb : b < cfg0.N) :
    outsAt0 m c a ha = outsAt0 m c b hb := by
  subst h
  rfl

/-! ### The tiles' masses -/

/-- The mass of tile `t` at flat child `j`, and at the child's parent; past the grid there is no tile. -/
def tileNum (c : Dev nD) (t j : ℕ) : EReal :=
  if h : t < cfg0.N then Tile.numPart (blk0 m c ⟨t, h⟩) (blk1 m c ⟨t, h⟩) (blk2 m c ⟨t, h⟩) j else 0
def tileDen (c : Dev nD) (t j : ℕ) : EReal :=
  if h : t < cfg0.N then Tile.denPart (blk0 m c ⟨t, h⟩) (blk1 m c ⟨t, h⟩) (blk2 m c ⟨t, h⟩) j else 0

theorem tileNum_of_lt (c : Dev nD) (t j : ℕ) (h : t < cfg0.N) :
    tileNum m c t j = Tile.numPart (blk0 m c ⟨t, h⟩) (blk1 m c ⟨t, h⟩) (blk2 m c ⟨t, h⟩) j := dif_pos h
theorem tileDen_of_lt (c : Dev nD) (t j : ℕ) (h : t < cfg0.N) :
    tileDen m c t j = Tile.denPart (blk0 m c ⟨t, h⟩) (blk1 m c ⟨t, h⟩) (blk2 m c ⟨t, h⟩) j := dif_pos h

/-- A tile's mass at a child is the mass of its 512 rows of the batch. -/
theorem numPart_blk (c : Dev nD) (t : Fin cfg0.N) (j : ℕ) (h : ∀ r : Fin 512, 512 * t.val + r.val < 32768) :
    Tile.numPart (blk0 m c t) (blk1 m c t) (blk2 m c t) j
      = ∑ r : Fin 512, mu (Xk m c) (Wik m c) oneW ⟨512 * t.val + r.val, h r⟩ (layerOf j + 1) (j - off (layerOf j)) := by
  unfold Tile.numPart
  refine Finset.sum_congr rfl fun r _ => ?_
  rw [show Tile.Pt (blk0 m c t) (blk1 m c t) (blk2 m c t) r = probN (Xk m c) (Wik m c) ⟨512 * t.val + r.val, h r⟩
    from funext fun q => Pt_blk m c t r (h r) q]
  rfl

theorem denPart_blk (c : Dev nD) (t : Fin cfg0.N) (j : ℕ) (h : ∀ r : Fin 512, 512 * t.val + r.val < 32768) :
    Tile.denPart (blk0 m c t) (blk1 m c t) (blk2 m c t) j
      = ∑ r : Fin 512, mu (Xk m c) (Wik m c) oneW ⟨512 * t.val + r.val, h r⟩ (layerOf j) ((j - off (layerOf j)) / 2) := by
  unfold Tile.denPart
  refine Finset.sum_congr rfl fun r _ => ?_
  rw [show Tile.Pt (blk0 m c t) (blk1 m c t) (blk2 m c t) r = probN (Xk m c) (Wik m c) ⟨512 * t.val + r.val, h r⟩
    from funext fun q => Pt_blk m c t r (h r) q]
  rfl

/-! ### The accumulators point by point -/

/-- The first accumulator after point `n`, the tiles numbered by natural numbers. -/
theorem acc0_range (c : Dev nD) (n : ℕ) : ∀ (hn : n < cfg0.N) (y : S1x2046.Idx),
    ((outsAt0 m c n hn).2.2.1 : Vec Ideal S1x2046 .f32) y
      = zeroW + ∑ t ∈ Finset.range (n + 1), tileNum m c t (y 1).val := by
  induction n with
  | zero =>
    intro hn y
    rw [Finset.sum_range_succ, Finset.range_zero, Finset.sum_empty, zero_add, tileNum_of_lt m c 0 _ hn]
    exact scr0_A m c ⟨0, hn⟩ (Nat.zero_mod 64) (fun h => by (try dsimp only at h); omega) y
  | succ n ih =>
    intro hn y
    have hN : cfg0.N = 64 := N_0
    have hs := scr0_B m c ⟨n + 1, hn⟩ (by dsimp only; omega) y
    rw [outsAt0_congr m c (by omega : n + 1 - 1 = n) _ (Nat.lt_of_succ_lt hn)] at hs
    rw [Finset.sum_range_succ, ← add_assoc zeroW, ← ih (Nat.lt_of_succ_lt hn) y, tileNum_of_lt m c (n + 1) _ hn]
    exact hs

/-- The second accumulator after point `n`, the tiles numbered by natural numbers. -/
theorem acc1_range (c : Dev nD) (n : ℕ) : ∀ (hn : n < cfg0.N) (y : S1x2046.Idx),
    ((outsAt0 m c n hn).2.2.2 : Vec Ideal S1x2046 .f32) y
      = zeroW + ∑ t ∈ Finset.range (n + 1), tileDen m c t (y 1).val := by
  induction n with
  | zero =>
    intro hn y
    rw [Finset.sum_range_succ, Finset.range_zero, Finset.sum_empty, zero_add, tileDen_of_lt m c 0 _ hn]
    exact scr1_A m c ⟨0, hn⟩ (Nat.zero_mod 64) (fun h => by (try dsimp only at h); omega) y
  | succ n ih =>
    intro hn y
    have hN : cfg0.N = 64 := N_0
    have hs := scr1_B m c ⟨n + 1, hn⟩ (by dsimp only; omega) y
    rw [outsAt0_congr m c (by omega : n + 1 - 1 = n) _ (Nat.lt_of_succ_lt hn)] at hs
    rw [Finset.sum_range_succ, ← add_assoc zeroW, ← ih (Nat.lt_of_succ_lt hn) y, tileDen_of_lt m c (n + 1) _ hn]
    exact hs

/-- Every point's block of predictions. -/
theorem outs5_apply (c : Dev nD) (t : Fin cfg0.N) (r : Fin 512) (o : Fin 10) (h : 512 * t.val + r.val < 32768) :
    ((outsAt0 m c t.val t.isLt).1 : Vec Ideal S512x10 .f32) (ix2 r o)
      = leaf (Xk m c) (Wik m c) (Wlk m c) oneW ⟨512 * t.val + r.val, h⟩ o := by
  rw [outs5_eq m c t]
  show ∑ k : Fin 1024, muRow oneW (Tile.Pt (blk0 m c t) (blk1 m c t) (blk2 m c t) r) 10 k.val * blk3 m c t (ix2 k o)
    = ∑ k : Fin 1024, mu (Xk m c) (Wik m c) oneW ⟨512 * t.val + r.val, h⟩ 10 k.val * Wlk m c o k
  refine Finset.sum_congr rfl fun k _ => ?_
  rw [blk3_apply m c t k o,
    show Tile.Pt (blk0 m c t) (blk1 m c t) (blk2 m c t) r = probN (Xk m c) (Wik m c) ⟨512 * t.val + r.val, h⟩
      from funext fun q => Pt_blk m c t r h q]
  rfl

/-- The first accumulator after point `n`: the zero word plus the tiles' masses so far. -/
theorem acc0 (c : Dev nD) (n : ℕ) (hn : n < cfg0.N) (y : S1x2046.Idx) :
    ((outsAt0 m c n hn).2.2.1 : Vec Ideal S1x2046 .f32) y
      = zeroW + ∑ t : Fin (n + 1), Tile.numPart (blk0 m c ⟨t.val, lt_of_lt_of_le t.isLt hn⟩)
          (blk1 m c ⟨t.val, lt_of_lt_of_le t.isLt hn⟩) (blk2 m c ⟨t.val, lt_of_lt_of_le t.isLt hn⟩) (y 1).val := by
  rw [acc0_range m c n hn y, ← Fin.sum_univ_eq_sum_range (fun t => tileNum m c t (y 1).val) (n + 1)]
  exact congrArg (zeroW + ·) (Finset.sum_congr rfl fun t _ =>
    tileNum_of_lt m c t.val (y 1).val (lt_of_lt_of_le t.isLt hn))

/-- The second accumulator after point `n`. -/
theorem acc1 (c : Dev nD) (n : ℕ) (hn : n < cfg0.N) (y : S1x2046.Idx) :
    ((outsAt0 m c n hn).2.2.2 : Vec Ideal S1x2046 .f32) y
      = zeroW + ∑ t : Fin (n + 1), Tile.denPart (blk0 m c ⟨t.val, lt_of_lt_of_le t.isLt hn⟩)
          (blk1 m c ⟨t.val, lt_of_lt_of_le t.isLt hn⟩) (blk2 m c ⟨t.val, lt_of_lt_of_le t.isLt hn⟩) (y 1).val := by
  rw [acc1_range m c n hn y, ← Fin.sum_univ_eq_sum_range (fun t => tileDen m c t (y 1).val) (n + 1)]
  exact congrArg (zeroW + ·) (Finset.sum_congr rfl fun t _ =>
    tileDen_of_lt m c t.val (y 1).val (lt_of_lt_of_le t.isLt hn))

/-- After the last point the accumulators hold the batch's masses. -/
theorem acc0_last (c : Dev nD) (j : Fin 2046) :
    ((outsAt0 m c 63 lt63).2.2.1 : Vec Ideal S1x2046 .f32) (ix2 (0 : Fin 1) j) = numerF (Xk m c) (Wik m c) oneW j.val := by
  have hN : cfg0.N = 64 := N_0
  have hb : ∀ (t : Fin 64) (r : Fin 512), 512 * t.val + r.val < 32768 := fun t r => by
    have := t.isLt; have := r.isLt; omega
  rw [acc0_range m c 63 lt63 (ix2 (0 : Fin 1) j)]
  show zeroW + ∑ t ∈ Finset.range 64, tileNum m c t j.val
    = ∑ b : Fin 32768, mu (Xk m c) (Wik m c) oneW b (layerOf j.val + 1) (j.val - off (layerOf j.val))
  rw [show (zeroW : EReal) = 0 from Cert.Consts.ofBits_zero, zero_add,
    ← Fin.sum_univ_eq_sum_range (fun t => tileNum m c t j.val) 64,
    ← sum_tiles (fun b => mu (Xk m c) (Wik m c) oneW b (layerOf j.val + 1) (j.val - off (layerOf j.val))) hb]
  refine Finset.sum_congr rfl fun t _ => ?_
  have ht : t.val < cfg0.N := by have := t.isLt; omega
  exact (tileNum_of_lt m c t.val j.val ht).trans (numPart_blk m c ⟨t.val, ht⟩ j.val (hb t))

theorem acc1_last (c : Dev nD) (j : Fin 2046) :
    ((outsAt0 m c 63 lt63).2.2.2 : Vec Ideal S1x2046 .f32) (ix2 (0 : Fin 1) j) = denomF (Xk m c) (Wik m c) oneW j.val := by
  have hN : cfg0.N = 64 := N_0
  have hb : ∀ (t : Fin 64) (r : Fin 512), 512 * t.val + r.val < 32768 := fun t r => by
    have := t.isLt; have := r.isLt; omega
  rw [acc1_range m c 63 lt63 (ix2 (0 : Fin 1) j)]
  show zeroW + ∑ t ∈ Finset.range 64, tileDen m c t j.val
    = ∑ b : Fin 32768, mu (Xk m c) (Wik m c) oneW b (layerOf j.val) ((j.val - off (layerOf j.val)) / 2)
  rw [show (zeroW : EReal) = 0 from Cert.Consts.ofBits_zero, zero_add,
    ← Fin.sum_univ_eq_sum_range (fun t => tileDen m c t j.val) 64,
    ← sum_tiles (fun b => mu (Xk m c) (Wik m c) oneW b (layerOf j.val) ((j.val - off (layerOf j.val)) / 2)) hb]
  refine Finset.sum_congr rfl fun t _ => ?_
  have ht : t.val < cfg0.N := by have := t.isLt; omega
  exact (tileDen_of_lt m c t.val j.val ht).trans (denPart_blk m c ⟨t.val, ht⟩ j.val (hb t))

/-- The penalty a last point stores, read off the accumulators as that same point leaves them: each entry the point
    before left, plus the last tile's mass, is the entry after the point. -/
theorem pen_at (c : Dev nD) (n : ℕ) (hn : n < cfg0.N) (h0 : ¬n % 64 = 0) (h1 : n % 64 = 63) :
    ((outsAt0 m c n hn).2.1 : Vec Ideal S1x1 .f32)
      = fun _ => Tile.penOf
          (fun j => if h : j < 2046 then ((outsAt0 m c n hn).2.2.1 : Vec Ideal S1x2046 .f32) (ix2 (0 : Fin 1) (⟨j, h⟩ : Fin 2046)) else 0)
          (fun j => if h : j < 2046 then ((outsAt0 m c n hn).2.2.2 : Vec Ideal S1x2046 .f32) (ix2 (0 : Fin 1) (⟨j, h⟩ : Fin 2046)) else 0)
          wK := by
  rw [outs6_C m c ⟨n, hn⟩ h0 h1]
  funext _
  refine penOf_congr (fun j => ?_) (fun j => ?_) (fun j => ?_)
  · rw [dif_pos j.isLt, dif_pos j.isLt]
    exact (scr0_B m c ⟨n, hn⟩ h0 (ix2 (0 : Fin 1) (⟨j.val, j.isLt⟩ : Fin 2046))).symm
  · rw [dif_pos j.isLt, dif_pos j.isLt]
    exact (scr1_B m c ⟨n, hn⟩ h0 (ix2 (0 : Fin 1) (⟨j.val, j.isLt⟩ : Fin 2046))).symm
  · rw [dif_pos j.isLt]
    exact blk4_apply m c ⟨n, hn⟩ ⟨j.val, j.isLt⟩

/-- The penalty the last point stores. -/
theorem pen_last (c : Dev nD) :
    ((outsAt0 m c 63 lt63).2.1 : Vec Ideal S1x1 .f32) = fun _ => penFlat (Xk m c) (Wik m c) oneW negHalfW wK := by
  rw [pen_at m c 63 lt63 (by decide) rfl]
  funext _
  rw [penFlat_eq]
  refine penOf_congr (fun j => ?_) (fun j => ?_) (fun _ => rfl)
  · rw [dif_pos j.isLt, Fin.eta]
    exact acc0_last m c j
  · rw [dif_pos j.isLt, Fin.eta]
    exact acc1_last m c j

end Cert.KernelIdeal.Acc

end
-- ==== Proof.KerRun.lean ====
/-
  The kernel program's run, read: its two results are the specification's prediction array and penalty.

  Every point writes its block of predictions back to rows `512 t … 512 t + 511` of the result, and the 64 blocks
  cover it; only the last point writes the penalty's one-entry block back, and the host line after the kernel reshapes
  that [1,1] array to a scalar.  The three arguments end as they started.
-/
import proofs.«178311_j48498770706534_1_alg».proof.Proof.KerAcc
import Idealize.ShloMosaic.Lib.StableHlo.Run
import Idealize.ShloMosaic.Lib.Pipeline.Value
import Idealize.ShloMosaic.Lib.ValueIdx

set_option maxRecDepth 16384

noncomputable section

namespace Cert.KernelIdeal.RunValue

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.SDT Cert.KernelIdeal.Blocks Cert.KernelIdeal.Acc

variable (m : (ℓ : Loc nD τ sig) → Buf (Elt Ideal) ℓ) (ρ : Dev nD → PrngReg)

/-! ## The predictions: one block of 512 rows per point -/

/-- The window of predictions moves down the rows with the point and never sideways: at point `t` its block index
    is `(t, 0)`. -/
theorem idx5 : ∀ t : Fin cfg0.N, win0_5.index t 0 = t.val ∧ win0_5.index t 1 = 0 :=
  (by decide +kernel : ∀ t : Fin grid0.N, win0_5.index t 0 = t.val ∧ win0_5.index t 1 = 0)

/-- A [512,10] block whose entry `(r, o)` is `L (512 t + r) o` is block `t` of the [32768,10] array `L`: the block's
    entry `(r, o)` sits in the array at row `t · 512 + r`, column `0 · 10 + o`. -/
theorem blk5_read (L : Fin 32768 → Fin 10 → EReal) (t : Fin cfg0.N) (X : Vec Ideal S512x10 .f32)
    (hX : ∀ (r : Fin 512) (o : Fin 10) (h : 512 * t.val + r.val < 32768), X (ix2 r o) = L ⟨512 * t.val + r.val, h⟩ o) :
    (cfg0.win 5).cut (grid0.coords t) X
      = ((cfg0.win 5).blk t).view.read (Elt Ideal) (fun y : S32768x10.Idx => L (y 0) (y 1)) := by
  funext j
  have hN : cfg0.N = 64 := N_0
  have ht : t.val < 64 := lt_of_lt_of_eq t.isLt hN
  obtain ⟨e0, e1⟩ := idx5 t
  have hj0 : (j 0).val < 512 := (j 0).isLt
  have hj1 : (j 1).val < 10 := (j 1).isLt
  rw [View.read_apply]
  show X j = L (((cfg0.win 5).blk t).view.emb j 0) (((cfg0.win 5).blk t).view.emb j 1)
  have h0 : ((cfg0.win 5).blk t).view.emb j 0 = (⟨512 * t.val + (j 0).val, by omega⟩ : Fin 32768) :=
    Fin.ext (by show win0_5.index t 0 * 512 + 1 * (j 0).val = 512 * t.val + (j 0).val; rw [e0]; omega)
  have h1 : ((cfg0.win 5).blk t).view.emb j 1 = (j 1 : Fin 10) :=
    Fin.ext (by show win0_5.index t 1 * 10 + 1 * (j 1).val = (j 1).val; rw [e1]; omega)
  rw [h0, h1]
  conv_lhs => rw [eq_ix2 j]
  exact hX (j 0) (j 1) (by omega)

/-- What point `t` writes back is block `t` of the specification's prediction array. -/
theorem flushed_eq5 (c : Dev nD) (t : Fin cfg0.N) :
    (dats m 0 c).flushed 5 t
      = ((cfg0.win 5).blk t).view.read (Elt Ideal)
          (fun y : S32768x10.Idx => leaf (Xk m c) (Wik m c) (Wlk m c) oneW (y 0) (y 1)) := by
  show (cfg0.win 5).cut (grid0.coords t) ((dats m 0 c).after 5 t) = _
  rw [after0_5]
  exact blk5_read (leaf (Xk m c) (Wik m c) (Wlk m c) oneW) t _ (fun r o h => outs5_apply m c t r o h)

/-- An index of the array is in point `t`'s block iff each coordinate is in the block's range on its axis. -/
theorem mem_blk5 (t : Fin cfg0.N) (i : S32768x10.Idx) :
    i ∈ ((cfg0.win 5).blk t).view.set
      ↔ ∀ a : Fin 2, win0_5.index t a * S512x10.size a ≤ (i a).val
          ∧ (i a).val < win0_5.index t a * S512x10.size a + S512x10.size a := by
  show i ∈ ((View.whole main_v8_0).slice (win0_5.rect t)).set ↔ _
  rw [View.set_slice_whole, Rect.mem_set_unit]
  exact Iff.rfl

/-- Row `i₀` of the array lies in the block of point `i₀ / 512`, and every point writes its block back. -/
theorem cover5 (i : S32768x10.Idx) :
    ∃ t : Fin cfg0.N, (cfg0.win 5).flush t = true ∧ i ∈ ((cfg0.win 5).blk t).view.set := by
  have hN : cfg0.N = 64 := N_0
  have hi0 : (i 0).val < 32768 := (i 0).isLt
  have hi1 : (i 1).val < 10 := (i 1).isLt
  have hq : (i 0).val / 512 < cfg0.N := by rw [hN]; omega
  obtain ⟨e0, e1⟩ := idx5 ⟨(i 0).val / 512, hq⟩
  refine ⟨⟨(i 0).val / 512, hq⟩, flush0_5 _, ?_⟩
  rw [mem_blk5]
  intro a
  match a with
  | ⟨0, _⟩ =>
    show win0_5.index ⟨(i 0).val / 512, hq⟩ 0 * 512 ≤ (i 0).val
      ∧ (i 0).val < win0_5.index ⟨(i 0).val / 512, hq⟩ 0 * 512 + 512
    rw [e0]; dsimp only; omega
  | ⟨1, _⟩ =>
    show win0_5.index ⟨(i 0).val / 512, hq⟩ 1 * 10 ≤ (i 1).val
      ∧ (i 1).val < win0_5.index ⟨(i 0).val / 512, hq⟩ 1 * 10 + 10
    rw [e1]; omega

/-- The array of predictions after the run. -/
theorem final5 (c : Dev nD) :
    (dats m 0 c).arrAt 5 cfg0.N
      = (fun y : S32768x10.Idx => leaf (Xk m c) (Wik m c) (Wlk m c) oneW (y 0) (y 1)) :=
  (dats m 0 c).arrAt_eq_of_cover 5 _ (fun t _ => flushed_eq5 m c t) cover5

/-! ## The penalty: one entry, written back after the last point -/

/-- The penalty's window never moves: its one block is the whole [1,1] array. -/
theorem idx6 : ∀ t : Fin cfg0.N, win0_6.index t 0 = 0 ∧ win0_6.index t 1 = 0 :=
  (by decide +kernel : ∀ t : Fin grid0.N, win0_6.index t 0 = 0 ∧ win0_6.index t 1 = 0)

/-- Any block of a constant array is that constant. -/
theorem blk6_read (p : EReal) (t : Fin cfg0.N) :
    ((cfg0.win 6).blk t).view.read (Elt Ideal) (fun _ : S1x1.Idx => p) = fun _ => p := by
  funext j
  rw [View.read_apply]
  rfl

/-- The penalty's block is never cut at the array's end: all of what the body leaves is written back. -/
theorem cut6 (i : grid0.Coords) (X : Vec Ideal S1x1 .f32) : (cfg0.win 6).cut i X = X := rfl

/-- The one write-back, at the last point, writes the specification's penalty. -/
theorem flushed_eq6 (c : Dev nD) (t : Fin cfg0.N) (hf : (cfg0.win 6).flush t = true) :
    (dats m 0 c).flushed 6 t
      = ((cfg0.win 6).blk t).view.read (Elt Ideal)
          (fun _ : S1x1.Idx => penFlat (Xk m c) (Wik m c) oneW negHalfW wK) := by
  have hN : cfg0.N = 64 := N_0
  have h63 : t.val = 63 := by have := (flush0_6 t).mp hf; have := t.isLt; omega
  have hlast : ∀ (n : ℕ) (hn : n < cfg0.N), n = 63 →
      ((outsAt0 m c n hn).2.1 : Vec Ideal S1x1 .f32)
        = fun _ => penFlat (Xk m c) (Wik m c) oneW negHalfW wK := by
    intro n hn e
    subst e
    obtain rfl : hn = lt63 := rfl
    exact pen_last m c
  rw [blk6_read]
  show (cfg0.win 6).cut (grid0.coords t) ((dats m 0 c).after 6 t) = _
  rw [after0_6, cut6]
  exact hlast t.val t.isLt h63

theorem mem_blk6 (t : Fin cfg0.N) (i : S1x1.Idx) :
    i ∈ ((cfg0.win 6).blk t).view.set
      ↔ ∀ a : Fin 2, win0_6.index t a * S1x1.size a ≤ (i a).val
          ∧ (i a).val < win0_6.index t a * S1x1.size a + S1x1.size a := by
  show i ∈ ((View.whole main_v8_1).slice (win0_6.rect t)).set ↔ _
  rw [View.set_slice_whole, Rect.mem_set_unit]
  exact Iff.rfl

/-- The last point's block holds the array's one index. -/
theorem cover6 (i : S1x1.Idx) :
    ∃ t : Fin cfg0.N, (cfg0.win 6).flush t = true ∧ i ∈ ((cfg0.win 6).blk t).view.set := by
  have hi0 : (i 0).val < 1 := (i 0).isLt
  have hi1 : (i 1).val < 1 := (i 1).isLt
  obtain ⟨e0, e1⟩ := idx6 ⟨63, lt63⟩
  refine ⟨⟨63, lt63⟩, (flush0_6 _).mpr rfl, ?_⟩
  rw [mem_blk6]
  intro a
  match a with
  | ⟨0, _⟩ =>
    show win0_6.index ⟨63, lt63⟩ 0 * 1 ≤ (i 0).val ∧ (i 0).val < win0_6.index ⟨63, lt63⟩ 0 * 1 + 1
    rw [e0]; omega
  | ⟨1, _⟩ =>
    show win0_6.index ⟨63, lt63⟩ 1 * 1 ≤ (i 1).val ∧ (i 1).val < win0_6.index ⟨63, lt63⟩ 1 * 1 + 1
    rw [e1]; omega

/-- The penalty's [1,1] array after the run. -/
theorem final6 (c : Dev nD) :
    (dats m 0 c).arrAt 6 cfg0.N = (fun _ : S1x1.Idx => penFlat (Xk m c) (Wik m c) oneW negHalfW wK) :=
  (dats m 0 c).arrAt_eq_of_cover 6 _ (flushed_eq6 m c) cover6

/-! ## The host line after the kernel, and the run -/

/-- The host line after the kernel reshapes the [1,1] array to a scalar: the scalar is the array's one entry. -/
theorem tail9 (dats : (p : Fin 1) → (c : Dev nD) → Dat τ (Elt Ideal) Unit ℕ (UR sig nD τ) ℕ (cfgs p) c) (c : Dev nD)
    (p : EReal) (h6 : (dats 0 c).arrAt 6 cfg0.N = fun _ : S1x1.Idx => p) :
    Pipeline.afterTail₀ cfgs dats 0 (V0 m) [hostOps1] c main_v9 = fun _ : S_.Idx => p := by
  unfold Pipeline.afterTail₀
  show StableHlo.after hostOps1 _ (Proc.devRef .tc main_v9) = _
  after_results
  have hw : Pipeline.withArrays (cfgs 0).spec c (V0 m c) (fun w => (dats 0 c).arrAt w (cfgs 0).N)
      (Proc.devRef .tc main_v8_1) = fun _ : S1x1.Idx => p :=
    (Pipeline.withArrays_arr spec0 launch0.win.arr_inj c _ _ 6).trans h6
  rw [hw]
  rfl

/-- The run, read: both results at the specification's values, the arguments unchanged. -/
theorem run : θ_run defs (onTc (τ := τ) (main (F := Ideal))) ⟨m, fun _ => 0, ρ⟩ fun r => ∀ c : Dev nD,
      r.2.mem ((c.tc : Thread nD τ).loc main_v8_0)
          = (fun y : S32768x10.Idx => leaf (Xk m c) (Wik m c) (Wlk m c) oneW (y 0) (y 1))
      ∧ r.2.mem ((c.tc : Thread nD τ).loc main_v9)
          = (fun _ : S_.Idx => penFlat (Xk m c) (Wik m c) oneW negHalfW wK)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 5).trans (final5 m c),
      ((h c).2 main_v9 (Pipeline.mem_restRefs_of main_v9 (by decide) (by decide))).trans
        (tail9 m (dats m) c _ (final6 m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefRun.lean ====
/-
  The reference program's run, as generated: every execution ends with each result at the composed term of its
  operations applied to the arguments.  This module only brings that run into the certificate.
-/
import proofs.«178311_j48498770706534_1_alg».proof.Proof.Gen.ReferenceIdeal.Run
-- ==== Proof.RefMu.lean ====
/-
  The reference's tables, read at an index.

  The reference computes the whole batch at once: the table of left-probabilities (rows by inner nodes), the table of
  branch factors (each node's left-probability and its complement, side by side), and for each layer `l` the branch
  factors of that layer's `2^(l+1)` children (`pp`) and the probabilities of reaching their parents, each repeated for
  a node's two children (`rep`).  Read at an index these are the specification's `prob`, its branch factor and `mu`;
  the product `rep · pp` of a layer is the next layer's `mu`.
-/
import proofs.«178311_j48498770706534_1_alg».proof.Proof.RefRun
import proofs.«178311_j48498770706534_1_alg».proof.Proof.Weights
import proofs.«178311_j48498770706534_1_alg».proof.Proof.LibInterleave
import proofs.«178311_j48498770706534_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Value Cert.SDT

/-! ## Layout readings at any extents -/

section Generic
variable {α : Type}

/-- A one-column array joined before an `n`-column array: column `0` of the result is the single column. -/
theorem consCol_apply_zero {R n n1 : ℕ} (u : (⟨2, ![R, 1]⟩ : Shape).Idx → α) (v : (⟨2, ![R, n]⟩ : Shape).Idx → α)
    (h : Shape.Concatenates [(⟨2, ![R, 1]⟩ : Shape), ⟨2, ![R, n]⟩] ⟨2, ![R, n1]⟩ 1) (r : Fin R) (k : Fin n1)
    (hk : k.val = 0) :
    concatenate ⟨2, ![R, n1]⟩ 1 [⟨⟨2, ![R, 1]⟩, u⟩, ⟨⟨2, ![R, n]⟩, v⟩] h (ix2 r k) = u (ix2 r 0) := by
  refine concatenate_pair_apply_left (1 : Fin 2) u v h (ix2 r k) rfl (ix2 r 0) ?_
  intro b
  match b with
  | ⟨0, _⟩ => rfl
  | ⟨1, _⟩ => exact hk.symm

/-- A one-column array joined before an `n`-column array: column `d + 1` of the result is column `d` of the second. -/
theorem consCol_apply_succ {R n n1 : ℕ} (u : (⟨2, ![R, 1]⟩ : Shape).Idx → α) (v : (⟨2, ![R, n]⟩ : Shape).Idx → α)
    (h : Shape.Concatenates [(⟨2, ![R, 1]⟩ : Shape), ⟨2, ![R, n]⟩] ⟨2, ![R, n1]⟩ 1) (r : Fin R) (k : Fin n1)
    (d : Fin n) (hk : k.val = d.val + 1) :
    concatenate ⟨2, ![R, n1]⟩ 1 [⟨⟨2, ![R, 1]⟩, u⟩, ⟨⟨2, ![R, n]⟩, v⟩] h (ix2 r k) = v (ix2 r d) := by
  refine concatenate_pair_apply_right (1 : Fin 2) u v h (ix2 r k) rfl rfl (ix2 r d) ?_ ?_
  · intro b hb
    match b, hb with
    | ⟨0, _⟩, _ => rfl
    | ⟨1, _⟩, hb => exact absurd rfl hb
  · show d.val + 1 = k.val
    exact hk.symm

/-- A window of `n` nodes from node `o` of an `[R, N, 2]` array, its last two axes flattened: entry `(r, k)` is the
    array's entry `(r, o + k / 2, k % 2)`. -/
theorem flatSlice_apply {R N n n2 : ℕ} (o : ℕ) (x : (⟨3, ![R, N, 2]⟩ : Shape).Idx → α)
    (hs : (⟨3, ![R, N, 2]⟩ : Shape).Slices ![0, o, 0] ⟨3, ![R, n, 2]⟩)
    (h2 : (⟨3, ![R, n, 2]⟩ : Shape).ShapeCasts ⟨2, ![R, n2]⟩) (hn : n2 = 2 * n) (r : Fin R) (k : Fin n2)
    (hk : k.val / 2 < n) (hN : o + k.val / 2 < N) :
    shapeCast ⟨2, ![R, n2]⟩ (extractStridedSlice ⟨3, ![R, n, 2]⟩ ![0, o, 0] x hs) h2 (ix2 r k)
      = x (ix3 r ⟨o + k.val / 2, hN⟩ ⟨k.val % 2, Nat.mod_lt _ (by omega)⟩) :=
  (Cert.Interleave.flat_apply _ h2 hn r k hk).trans
    (slice3_axis1_apply o x hs r ⟨k.val / 2, hk⟩ _ ⟨o + k.val / 2, hN⟩ rfl)

/-- An `[R, n]` array repeated along a new last axis of extent 2 and flattened: entry `(r, k)` is entry `(r, k / 2)`. -/
theorem flatBcast_apply {R n n2 : ℕ} (a : (⟨2, ![R, n]⟩ : Shape).Idx → α)
    (hb : (⟨2, ![R, n]⟩ : Shape).BroadcastsInDim ⟨3, ![R, n, 2]⟩ ![0, 1])
    (h2 : (⟨3, ![R, n, 2]⟩ : Shape).ShapeCasts ⟨2, ![R, n2]⟩) (hn : n2 = 2 * n) (hR : R ≠ 1) (r : Fin R) (k : Fin n2)
    (hk : k.val / 2 < n) :
    shapeCast ⟨2, ![R, n2]⟩ (broadcastInDim ⟨3, ![R, n, 2]⟩ ![0, 1] hb a) h2 (ix2 r k) = a (ix2 r ⟨k.val / 2, hk⟩) :=
  (Cert.Interleave.flat_apply _ h2 hn r k hk).trans (Cert.Interleave.bcastLast2_apply a hb hR r _ _)

end Generic

variable (V0 : Valuation τ sig (Elt Ideal))

/-- The three arguments as functions of their coordinates. -/
def Xr : Fin 32768 → Fin 784 → EReal := arr2 (a := 32768) (b := 784) (V0 (Proc.devRef .tc main_arg0))
def Wir : Fin 1023 → Fin 785 → EReal := arr2 (a := 1023) (b := 785) (V0 (Proc.devRef .tc main_arg1))
def Wlr : Fin 10 → Fin 1024 → EReal := arr2 (a := 10) (b := 1024) (V0 (Proc.devRef .tc main_arg2))

/-- The branch factor of child `k` of layer `l + 1` for row `b`. -/
def branchR (b : Fin 32768) (l k : ℕ) : EReal :=
  if k % 2 = 0 then probN (Xr V0) (Wir V0) b (2 ^ l - 1 + k / 2) else oneW - probN (Xr V0) (Wir V0) b (2 ^ l - 1 + k / 2)

/-! ## The left-probabilities -/

/-- The table of affine scores: the rows, a column of ones put before them, against the inner weights transposed. -/
def logitTab : S32768x1023.Idx → EReal :=
  Host.dotGeneral (F := Ideal) (φ₁ := .f32) (φ₂ := .f32) dot_S32768x785_S785x1023_S32768x1023_1_0_0_1_n_n none
    (concatenate S32768x785 1 [⟨S32768x1, (broadcastInDim S32768x1 ![] bcast_S_S32768x1 (constant S_ .f32 0x3F800000#32))⟩, ⟨S32768x784, (V0 (Proc.devRef .tc main_arg0))⟩] concatenates_S32768x1_S32768x784_S32768x785_d1)
    (transpose S785x1023 [1, 0] (V0 (Proc.devRef .tc main_arg1)) transposes_S1023x785_S785x1023_1_0)

/-- The contraction over the 785 columns is the ones column against the bias plus the contraction over the 784 data
    columns. -/
theorem logitTab_apply (b : Fin 32768) (j : Fin 1023) :
    logitTab V0 (ix2 b j) = logit (Xr V0) (Wir V0) b j := by
  unfold logitTab
  show FloatOps.dotGeneral _ _ _ _ _ _ = _
  rw [Cert.PlainDot.dotGeneral_eq_mm _ rfl rfl rfl rfl rfl rfl, Cert.PlainDot.mm_apply]
  refine (Fin.sum_univ_succ (n := 784) _).trans ?_
  refine (add_comm _ _).trans ?_
  unfold logit
  refine congrArg₂ (fun x y : EReal => x + y) (Finset.sum_congr rfl fun d _ => ?_) ?_
  · refine congrArg₂ (fun x y : EReal => x * y) (consCol_apply_succ _ _ _ b d.succ d (Fin.val_succ d)) (transpose_ix2_apply _ _ d.succ j)
  · refine (congrArg₂ (fun x y : EReal => x * y) (consCol_apply_zero _ _ _ b 0 rfl) (transpose_ix2_apply _ _ 0 j)).trans ?_
    show Ideal.ofBits .f32 0x3F800000#32 * Wir V0 j 0 = Wir V0 j 0
    rw [Cert.Consts.ofBits_one, one_mul]

/-- The left-probability table is one over one plus the exponential of the negated score. -/
theorem v9_eq (i : S32768x1023.Idx) :
    res_main_v9 (F := Ideal) V0 i
      = Ideal.div (Ideal.ofBits .f32 0x3F800000#32) (Ideal.ofBits .f32 0x3F800000#32 + Ideal.exp (-(logitTab V0 i))) := rfl

/-- The table of left-probabilities. -/
theorem prob_apply (b : Fin 32768) (j : Fin 1023) :
    res_main_v9 (F := Ideal) V0 (ix2 b j) = prob (Xr V0) (Wir V0) b j := by
  rw [v9_eq, logitTab_apply, Cert.Consts.ofBits_one]
  rfl

/-- The table of branch factors: a node's left-probability beside its complement. -/
theorem v14_apply (b : Fin 32768) (j : Fin 1023) (c : Fin 2) :
    res_main_v14 (F := Ideal) V0 (ix3 b j c)
      = if c.val = 0 then prob (Xr V0) (Wir V0) b j else oneW - prob (Xr V0) (Wir V0) b j := by
  unfold res_main_v14
  refine (Cert.Interleave.pairLast_apply (R := 32768) (n := 1023) _ _ _ b j c).trans ?_
  refine congrArg₂ (fun x y : EReal => if c.val = 0 then x else y) ?_ ?_
  · exact (Cert.Interleave.bcastLast1_apply (R := 32768) (n := 1023) _ _ (by norm_num) b j 0).trans (prob_apply V0 b j)
  · refine (Cert.Interleave.bcastLast1_apply (R := 32768) (n := 1023) _ _ (by norm_num) b j 0).trans ?_
    show oneW - res_main_v9 (F := Ideal) V0 (ix2 b j) = _
    rw [prob_apply]

theorem probN_of_lt (X : Fin 32768 → Fin 784 → EReal) (Wi : Fin 1023 → Fin 785 → EReal) (b : Fin 32768) (j : ℕ)
    (h : j < 1023) : probN X Wi b j = prob X Wi b ⟨j, h⟩ := dif_pos h

/-- A pair of the branch-factor table, read at the node `2^l - 1 + k / 2` and the side `k % 2`, is the branch factor
    of child `k` of layer `l + 1`. -/
theorem branch_eq (b : Fin 32768) (l k j : ℕ) (hj : j < 1023) (e : 2 ^ l - 1 + k / 2 = j) (c : Fin 2)
    (hc : c.val = k % 2) :
    (if c.val = 0 then prob (Xr V0) (Wir V0) b ⟨j, hj⟩ else oneW - prob (Xr V0) (Wir V0) b ⟨j, hj⟩)
      = branchR V0 b l k := by
  unfold branchR
  rw [e, probN_of_lt _ _ b j hj, hc]

/-- Reaching child `k` of layer `l + 1`: reaching its parent, times the branch factor. -/
theorem mu_step (b : Fin 32768) (l k : ℕ) :
    mu (Xr V0) (Wir V0) oneW b l (k / 2) * branchR V0 b l k = mu (Xr V0) (Wir V0) oneW b (l + 1) k := rfl

/-! ## The layers -/

/-- Layer 0: the branch factors of its 2 children, and the probabilities of reaching their parents. -/
theorem pp0_apply (b : Fin 32768) (k : Fin 2) :
    res_main_v17 (F := Ideal) V0 (ix2 b k) = branchR V0 b 0 k.val := by
  have hk := k.isLt
  unfold res_main_v17
  refine (flatSlice_apply (R := 32768) (N := 1023) (n := 1) (n2 := 2) 0 _ _ _ rfl b k (by omega) (by omega)).trans ?_
  exact (v14_apply V0 b _ _).trans (branch_eq V0 b 0 k.val _ _ (by norm_num) _ rfl)

theorem rep0_apply (b : Fin 32768) (k : Fin 2) :
    res_main_v19 (F := Ideal) V0 (ix2 b k) = mu (Xr V0) (Wir V0) oneW b 0 (k.val / 2) := by
  have hk := k.isLt
  unfold res_main_v19
  refine (flatBcast_apply (R := 32768) (n := 1) (n2 := 2) _ _ _ rfl (by norm_num) b k (by omega)).trans ?_
  rfl

/-- Layer 1: the branch factors of its 4 children, and the probabilities of reaching their parents. -/
theorem pp1_apply (b : Fin 32768) (k : Fin 4) :
    res_main_v34 (F := Ideal) V0 (ix2 b k) = branchR V0 b 1 k.val := by
  have hk := k.isLt
  unfold res_main_v34
  refine (flatSlice_apply (R := 32768) (N := 1023) (n := 2) (n2 := 4) 1 _ _ _ rfl b k (by omega) (by omega)).trans ?_
  exact (v14_apply V0 b _ _).trans (branch_eq V0 b 1 k.val _ _ (by norm_num) _ rfl)

theorem rep1_apply (b : Fin 32768) (k : Fin 4) :
    res_main_v36 (F := Ideal) V0 (ix2 b k) = mu (Xr V0) (Wir V0) oneW b 1 (k.val / 2) := by
  have hk := k.isLt
  unfold res_main_v36
  refine (flatBcast_apply (R := 32768) (n := 2) (n2 := 4) _ _ _ rfl (by norm_num) b k (by omega)).trans ?_
  exact (congrArg₂ (fun x y : EReal => x * y) (rep0_apply V0 b _) (pp0_apply V0 b _)).trans (mu_step V0 b 0 (k.val / 2))

/-- Layer 2: the branch factors of its 8 children, and the probabilities of reaching their parents. -/
theorem pp2_apply (b : Fin 32768) (k : Fin 8) :
    res_main_v51 (F := Ideal) V0 (ix2 b k) = branchR V0 b 2 k.val := by
  have hk := k.isLt
  unfold res_main_v51
  refine (flatSlice_apply (R := 32768) (N := 1023) (n := 4) (n2 := 8) 3 _ _ _ rfl b k (by omega) (by omega)).trans ?_
  exact (v14_apply V0 b _ _).trans (branch_eq V0 b 2 k.val _ _ (by norm_num) _ rfl)

theorem rep2_apply (b : Fin 32768) (k : Fin 8) :
    res_main_v53 (F := Ideal) V0 (ix2 b k) = mu (Xr V0) (Wir V0) oneW b 2 (k.val / 2) := by
  have hk := k.isLt
  unfold res_main_v53
  refine (flatBcast_apply (R := 32768) (n := 4) (n2 := 8) _ _ _ rfl (by norm_num) b k (by omega)).trans ?_
  exact (congrArg₂ (fun x y : EReal => x * y) (rep1_apply V0 b _) (pp1_apply V0 b _)).trans (mu_step V0 b 1 (k.val / 2))

/-- Layer 3: the branch factors of its 16 children, and the probabilities of reaching their parents. -/
theorem pp3_apply (b : Fin 32768) (k : Fin 16) :
    res_main_v68 (F := Ideal) V0 (ix2 b k) = branchR V0 b 3 k.val := by
  have hk := k.isLt
  unfold res_main_v68
  refine (flatSlice_apply (R := 32768) (N := 1023) (n := 8) (n2 := 16) 7 _ _ _ rfl b k (by omega) (by omega)).trans ?_
  exact (v14_apply V0 b _ _).trans (branch_eq V0 b 3 k.val _ _ (by norm_num) _ rfl)

theorem rep3_apply (b : Fin 32768) (k : Fin 16) :
    res_main_v70 (F := Ideal) V0 (ix2 b k) = mu (Xr V0) (Wir V0) oneW b 3 (k.val / 2) := by
  have hk := k.isLt
  unfold res_main_v70
  refine (flatBcast_apply (R := 32768) (n := 8) (n2 := 16) _ _ _ rfl (by norm_num) b k (by omega)).trans ?_
  exact (congrArg₂ (fun x y : EReal => x * y) (rep2_apply V0 b _) (pp2_apply V0 b _)).trans (mu_step V0 b 2 (k.val / 2))

/-- Layer 4: the branch factors of its 32 children, and the probabilities of reaching their parents. -/
theorem pp4_apply (b : Fin 32768) (k : Fin 32) :
    res_main_v85 (F := Ideal) V0 (ix2 b k) = branchR V0 b 4 k.val := by
  have hk := k.isLt
  unfold res_main_v85
  refine (flatSlice_apply (R := 32768) (N := 1023) (n := 16) (n2 := 32) 15 _ _ _ rfl b k (by omega) (by omega)).trans ?_
  exact (v14_apply V0 b _ _).trans (branch_eq V0 b 4 k.val _ _ (by norm_num) _ rfl)

theorem rep4_apply (b : Fin 32768) (k : Fin 32) :
    res_main_v87 (F := Ideal) V0 (ix2 b k) = mu (Xr V0) (Wir V0) oneW b 4 (k.val / 2) := by
  have hk := k.isLt
  unfold res_main_v87
  refine (flatBcast_apply (R := 32768) (n := 16) (n2 := 32) _ _ _ rfl (by norm_num) b k (by omega)).trans ?_
  exact (congrArg₂ (fun x y : EReal => x * y) (rep3_apply V0 b _) (pp3_apply V0 b _)).trans (mu_step V0 b 3 (k.val / 2))

/-- Layer 5: the branch factors of its 64 children, and the probabilities of reaching their parents. -/
theorem pp5_apply (b : Fin 32768) (k : Fin 64) :
    res_main_v102 (F := Ideal) V0 (ix2 b k) = branchR V0 b 5 k.val := by
  have hk := k.isLt
  unfold res_main_v102
  refine (flatSlice_apply (R := 32768) (N := 1023) (n := 32) (n2 := 64) 31 _ _ _ rfl b k (by omega) (by omega)).trans ?_
  exact (v14_apply V0 b _ _).trans (branch_eq V0 b 5 k.val _ _ (by norm_num) _ rfl)

theorem rep5_apply (b : Fin 32768) (k : Fin 64) :
    res_main_v104 (F := Ideal) V0 (ix2 b k) = mu (Xr V0) (Wir V0) oneW b 5 (k.val / 2) := by
  have hk := k.isLt
  unfold res_main_v104
  refine (flatBcast_apply (R := 32768) (n := 32) (n2 := 64) _ _ _ rfl (by norm_num) b k (by omega)).trans ?_
  exact (congrArg₂ (fun x y : EReal => x * y) (rep4_apply V0 b _) (pp4_apply V0 b _)).trans (mu_step V0 b 4 (k.val / 2))

/-- Layer 6: the branch factors of its 128 children, and the probabilities of reaching their parents. -/
theorem pp6_apply (b : Fin 32768) (k : Fin 128) :
    res_main_v119 (F := Ideal) V0 (ix2 b k) = branchR V0 b 6 k.val := by
  have hk := k.isLt
  unfold res_main_v119
  refine (flatSlice_apply (R := 32768) (N := 1023) (n := 64) (n2 := 128) 63 _ _ _ rfl b k (by omega) (by omega)).trans ?_
  exact (v14_apply V0 b _ _).trans (branch_eq V0 b 6 k.val _ _ (by norm_num) _ rfl)

theorem rep6_apply (b : Fin 32768) (k : Fin 128) :
    res_main_v121 (F := Ideal) V0 (ix2 b k) = mu (Xr V0) (Wir V0) oneW b 6 (k.val / 2) := by
  have hk := k.isLt
  unfold res_main_v121
  refine (flatBcast_apply (R := 32768) (n := 64) (n2 := 128) _ _ _ rfl (by norm_num) b k (by omega)).trans ?_
  exact (congrArg₂ (fun x y : EReal => x * y) (rep5_apply V0 b _) (pp5_apply V0 b _)).trans (mu_step V0 b 5 (k.val / 2))

/-- Layer 7: the branch factors of its 256 children, and the probabilities of reaching their parents. -/
theorem pp7_apply (b : Fin 32768) (k : Fin 256) :
    res_main_v136 (F := Ideal) V0 (ix2 b k) = branchR V0 b 7 k.val := by
  have hk := k.isLt
  unfold res_main_v136
  refine (flatSlice_apply (R := 32768) (N := 1023) (n := 128) (n2 := 256) 127 _ _ _ rfl b k (by omega) (by omega)).trans ?_
  exact (v14_apply V0 b _ _).trans (branch_eq V0 b 7 k.val _ _ (by norm_num) _ rfl)

theorem rep7_apply (b : Fin 32768) (k : Fin 256) :
    res_main_v138 (F := Ideal) V0 (ix2 b k) = mu (Xr V0) (Wir V0) oneW b 7 (k.val / 2) := by
  have hk := k.isLt
  unfold res_main_v138
  refine (flatBcast_apply (R := 32768) (n := 128) (n2 := 256) _ _ _ rfl (by norm_num) b k (by omega)).trans ?_
  exact (congrArg₂ (fun x y : EReal => x * y) (rep6_apply V0 b _) (pp6_apply V0 b _)).trans (mu_step V0 b 6 (k.val / 2))

/-- Layer 8: the branch factors of its 512 children, and the probabilities of reaching their parents. -/
theorem pp8_apply (b : Fin 32768) (k : Fin 512) :
    res_main_v153 (F := Ideal) V0 (ix2 b k) = branchR V0 b 8 k.val := by
  have hk := k.isLt
  unfold res_main_v153
  refine (flatSlice_apply (R := 32768) (N := 1023) (n := 256) (n2 := 512) 255 _ _ _ rfl b k (by omega) (by omega)).trans ?_
  exact (v14_apply V0 b _ _).trans (branch_eq V0 b 8 k.val _ _ (by norm_num) _ rfl)

theorem rep8_apply (b : Fin 32768) (k : Fin 512) :
    res_main_v155 (F := Ideal) V0 (ix2 b k) = mu (Xr V0) (Wir V0) oneW b 8 (k.val / 2) := by
  have hk := k.isLt
  unfold res_main_v155
  refine (flatBcast_apply (R := 32768) (n := 256) (n2 := 512) _ _ _ rfl (by norm_num) b k (by omega)).trans ?_
  exact (congrArg₂ (fun x y : EReal => x * y) (rep7_apply V0 b _) (pp7_apply V0 b _)).trans (mu_step V0 b 7 (k.val / 2))

/-- Layer 9: the branch factors of its 1024 children, and the probabilities of reaching their parents. -/
theorem pp9_apply (b : Fin 32768) (k : Fin 1024) :
    res_main_v170 (F := Ideal) V0 (ix2 b k) = branchR V0 b 9 k.val := by
  have hk := k.isLt
  unfold res_main_v170
  refine (flatSlice_apply (R := 32768) (N := 1023) (n := 512) (n2 := 1024) 511 _ _ _ rfl b k (by omega) (by omega)).trans ?_
  exact (v14_apply V0 b _ _).trans (branch_eq V0 b 9 k.val _ _ (by norm_num) _ rfl)

theorem rep9_apply (b : Fin 32768) (k : Fin 1024) :
    res_main_v172 (F := Ideal) V0 (ix2 b k) = mu (Xr V0) (Wir V0) oneW b 9 (k.val / 2) := by
  have hk := k.isLt
  unfold res_main_v172
  refine (flatBcast_apply (R := 32768) (n := 512) (n2 := 1024) _ _ _ rfl (by norm_num) b k (by omega)).trans ?_
  exact (congrArg₂ (fun x y : EReal => x * y) (rep8_apply V0 b _) (pp8_apply V0 b _)).trans (mu_step V0 b 8 (k.val / 2))

/-- The prediction at a row and an output: the leaf weights against the last layer's products. -/
theorem y_apply_ix (r : Fin 32768) (q : Fin 10) :
    Host.dotGeneral (F := Ideal) (φ₁ := .f32) (φ₂ := .f32) dot_S32768x1024_S1024x10_S32768x10_1_0_0_1_n_n none
        (mulf (res_main_v172 V0) (res_main_v170 V0))
        (transpose S1024x10 [1, 0] (V0 (Proc.devRef .tc main_arg2)) transposes_S10x1024_S1024x10_1_0) (ix2 r q)
      = leaf (Xr V0) (Wir V0) (Wlr V0) oneW r q := by
  show FloatOps.dotGeneral _ _ _ _ _ _ = _
  rw [Cert.PlainDot.dotGeneral_eq_mm _ rfl rfl rfl rfl rfl rfl, Cert.PlainDot.mm_apply]
  unfold leaf
  refine Finset.sum_congr rfl fun k _ => ?_
  refine congrArg₂ (fun x y : EReal => x * y) ?_ (transpose_ix2_apply _ _ k q)
  exact (congrArg₂ (fun x y : EReal => x * y) (rep9_apply V0 r k) (pp9_apply V0 r k)).trans (mu_step V0 r 9 k.val)

/-- The prediction. -/
theorem y_apply (y : S32768x10.Idx) :
    Host.dotGeneral (F := Ideal) (φ₁ := .f32) (φ₂ := .f32) dot_S32768x1024_S1024x10_S32768x10_1_0_0_1_n_n none
        (mulf (res_main_v172 V0) (res_main_v170 V0))
        (transpose S1024x10 [1, 0] (V0 (Proc.devRef .tc main_arg2)) transposes_S10x1024_S1024x10_1_0) y
      = leaf (Xr V0) (Wir V0) (Wlr V0) oneW (y 0) (y 1) :=
  (congrArg _ (eq_ix2 y)).trans (y_apply_ix V0 (y 0) (y 1))

end Cert.ReferenceIdeal.RefValue

end
-- ==== Proof.RefPen.lean ====
/-
  The reference's shares and its penalty.

  For each layer the reference divides the batch's mass at a child by the mass at its parent, takes
  `log alpha + log (1 - alpha)`, sums over the layer's children, scales by the layer's weight, and subtracts from the
  running penalty.  With the tables read at an index this is the specification's running difference `penRun`.
-/
import proofs.«178311_j48498770706534_1_alg».proof.Proof.RefMu
import Idealize.ShloMosaic.Lib.ValueIdxRank1

set_option maxRecDepth 16384

noncomputable section

namespace Cert.ReferenceIdeal.RefValue

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Value Cert.SDT

/-! ## The host's sums and quotient, read at an index -/

/-- The host's sum over the rows of a rank-2 array, read at a column. -/
theorem penColsum_apply {R n : ℕ} (x : FVec Ideal ⟨2, ![R, n]⟩ .f32) (init : (⟨0, ![]⟩ : Shape).Idx → EReal)
    (h' : (⟨2, ![R, n]⟩ : Shape).ReducesTo [0] ⟨1, ![n]⟩) (h : (⟨2, ![R, n]⟩ : Shape).Reduces [0] ⟨1, ![n]⟩)
    (hu : 0 < (⟨0, ![]⟩ : Shape).numel) (k : Fin n) :
    Host.reduceAdd (F := Ideal) x init h' hu (ix1 k) = init (Shape.Idx.first hu) + ∑ r : Fin R, x (ix2 r k) :=
  (Ideal.hostReduceAdd_single h' h x _ (ix1 k)).trans
    (congrArg (init (Shape.Idx.first hu) + ·) (Finset.sum_congr rfl fun r _ => congrArg x (funext fun a =>
      match a with | ⟨0, _⟩ => rfl | ⟨1, _⟩ => rfl)))

/-- The host's sum of a rank-1 array to a scalar. -/
theorem penTotal_apply {n : ℕ} (x : FVec Ideal ⟨1, ![n]⟩ .f32) (init : (⟨0, ![]⟩ : Shape).Idx → EReal)
    (h' : (⟨1, ![n]⟩ : Shape).ReducesTo [0] ⟨0, ![]⟩)
    (hu : 0 < (⟨0, ![]⟩ : Shape).numel) (j : (⟨0, ![]⟩ : Shape).Idx) :
    Host.reduceAdd (F := Ideal) x init h' hu j = init (Shape.Idx.first hu) + ∑ k : Fin n, x (ix1 k) :=
  (Ideal.hostReduceAdd_total h' (fun b => b.elim0) x _ j).trans
    (congrArg (init (Shape.Idx.first hu) + ·) (Equiv.sum_comp (idxEquiv1 (n := n)).symm x).symm)

/-! ## A layer's shares, its summed terms, and one step of the running penalty, over any inputs -/

section Layer

variable (X : Fin 32768 → Fin 784 → EReal) (Wi : Fin 1023 → Fin 785 → EReal)

/-- The host's quotient, read at an index. -/
theorem penDivf_apply {s : Shape} (a b : FVec Ideal s .f32) (i : s.Idx) : Host.divf a b i = Ideal.div (a i) (b i) := rfl

/-- A layer's shares from its two tables: the masses at a child and at its parent are the column sums of the
    tables' product and of the parents' table, the product of a row's branch factor and its probability of reaching
    the parent being its probability of reaching the child. -/
theorem alpha_of_tables (l : ℕ) {n : ℕ} (pp rep : FVec Ideal ⟨2, ![32768, n]⟩ .f32)
    (h' : (⟨2, ![32768, n]⟩ : Shape).ReducesTo [0] ⟨1, ![n]⟩) (h : (⟨2, ![32768, n]⟩ : Shape).Reduces [0] ⟨1, ![n]⟩)
    (hu : 0 < (⟨0, ![]⟩ : Shape).numel)
    (hpp : ∀ (b : Fin 32768) (k : Fin n), pp (ix2 b k)
      = if k.val % 2 = 0 then probN X Wi b (2 ^ l - 1 + k.val / 2) else oneW - probN X Wi b (2 ^ l - 1 + k.val / 2))
    (hrep : ∀ (b : Fin 32768) (k : Fin n), rep (ix2 b k) = mu X Wi oneW b l (k.val / 2)) (k : Fin n) :
    Host.divf (Host.reduceAdd (F := Ideal) (mulf pp rep) (constant ⟨0, ![]⟩ .f32 0x00000000#32) h' hu)
        (Host.reduceAdd (F := Ideal) rep (constant ⟨0, ![]⟩ .f32 0x00000000#32) h' hu) (ix1 k)
      = alpha X Wi oneW l k.val := by
  refine (penDivf_apply _ _ _).trans ?_
  unfold alpha numer denom
  refine congrArg₂ Ideal.div ?_ ?_
  · refine (penColsum_apply _ _ h' h hu k).trans ?_
    refine (congrArg₂ (· + ·) ((constant_apply _ _).trans Cert.Consts.ofBits_zero) (Finset.sum_congr rfl fun b _ => ?_)).trans
      (zero_add _)
    rw [mulf_apply, hpp, hrep, mul_comm]
    exact (muRow_succ _ _ _ _).symm
  · refine (penColsum_apply _ _ h' h hu k).trans ?_
    exact (congrArg₂ (· + ·) ((constant_apply _ _).trans Cert.Consts.ofBits_zero) (Finset.sum_congr rfl fun b _ => hrep b k)).trans
      (zero_add _)

/-- A layer's summed terms from its shares. -/
theorem layer_of_alpha (l : ℕ) {n : ℕ} (hn : n = 2 ^ (l + 1)) (al : FVec Ideal ⟨1, ![n]⟩ .f32)
    (bc : (⟨0, ![]⟩ : Shape).BroadcastsInDim ⟨1, ![n]⟩ (![] : Fin 0 → Fin 1))
    (h' : (⟨1, ![n]⟩ : Shape).ReducesTo [0] ⟨0, ![]⟩) (hu : 0 < (⟨0, ![]⟩ : Shape).numel)
    (hal : ∀ k : Fin n, al (ix1 k) = alpha X Wi oneW l k.val) (j : (⟨0, ![]⟩ : Shape).Idx) :
    Host.reduceAdd (F := Ideal)
        (addf (Host.log al) (Host.log (subf (broadcastInDim ⟨1, ![n]⟩ ![] bc (constant ⟨0, ![]⟩ .f32 0x3F800000#32)) al)))
        (constant ⟨0, ![]⟩ .f32 0x00000000#32) h' hu j
      = layerSum X Wi oneW zeroW l := by
  subst hn
  refine (penTotal_apply _ _ h' hu j).trans ?_
  unfold layerSum
  refine congrArg₂ (· + ·) (constant_apply _ _) (Finset.sum_congr rfl fun k _ => ?_)
  show Ideal.log (al (ix1 k)) + Ideal.log (oneW - al (ix1 k)) = term X Wi oneW l k.val
  rw [hal]; rfl

/-- One layer's step of the running penalty. -/
theorem pen_step (l : ℕ) (acc s : FVec Ideal ⟨0, ![]⟩ .f32) (w : BitVec 32) (j : (⟨0, ![]⟩ : Shape).Idx)
    (hw : w = Cert.Consts.wWord (l + 1))
    (ha : acc j = penRun X Wi oneW zeroW cR l) (hs : s j = layerSum X Wi oneW zeroW l) :
    subf acc (mulf (constant ⟨0, ![]⟩ .f32 w) s) j = penRun X Wi oneW zeroW cR (l + 1) := by
  show acc j - Ideal.ofBits .f32 w * s j = penRun X Wi oneW zeroW cR l - cR l * layerSum X Wi oneW zeroW l
  rw [ha, hs, hw]; rfl

end Layer

/-! ## The reference's ten layers -/

variable (V0 : Valuation τ sig (Elt Ideal))

theorem alpha0_apply (k : Fin 2) :
    res_main_v23 (F := Ideal) V0 (ix1 k) = alpha (Xr V0) (Wir V0) oneW 0 k.val :=
  alpha_of_tables (Xr V0) (Wir V0) 0 (res_main_v17 V0) (res_main_v19 V0) reducesTo_S32768x2_S2_d0 (by decide) h_S_
    (pp0_apply V0) (rep0_apply V0) k

theorem alpha1_apply (k : Fin 4) :
    res_main_v40 (F := Ideal) V0 (ix1 k) = alpha (Xr V0) (Wir V0) oneW 1 k.val :=
  alpha_of_tables (Xr V0) (Wir V0) 1 (res_main_v34 V0) (res_main_v36 V0) reducesTo_S32768x4_S4_d0 (by decide) h_S_
    (pp1_apply V0) (rep1_apply V0) k

theorem alpha2_apply (k : Fin 8) :
    res_main_v57 (F := Ideal) V0 (ix1 k) = alpha (Xr V0) (Wir V0) oneW 2 k.val :=
  alpha_of_tables (Xr V0) (Wir V0) 2 (res_main_v51 V0) (res_main_v53 V0) reducesTo_S32768x8_S8_d0 (by decide) h_S_
    (pp2_apply V0) (rep2_apply V0) k

theorem alpha3_apply (k : Fin 16) :
    res_main_v74 (F := Ideal) V0 (ix1 k) = alpha (Xr V0) (Wir V0) oneW 3 k.val :=
  alpha_of_tables (Xr V0) (Wir V0) 3 (res_main_v68 V0) (res_main_v70 V0) reducesTo_S32768x16_S16_d0 (by decide) h_S_
    (pp3_apply V0) (rep3_apply V0) k

theorem alpha4_apply (k : Fin 32) :
    res_main_v91 (F := Ideal) V0 (ix1 k) = alpha (Xr V0) (Wir V0) oneW 4 k.val :=
  alpha_of_tables (Xr V0) (Wir V0) 4 (res_main_v85 V0) (res_main_v87 V0) reducesTo_S32768x32_S32_d0 (by decide) h_S_
    (pp4_apply V0) (rep4_apply V0) k

theorem alpha5_apply (k : Fin 64) :
    res_main_v108 (F := Ideal) V0 (ix1 k) = alpha (Xr V0) (Wir V0) oneW 5 k.val :=
  alpha_of_tables (Xr V0) (Wir V0) 5 (res_main_v102 V0) (res_main_v104 V0) reducesTo_S32768x64_S64_d0 (by decide) h_S_
    (pp5_apply V0) (rep5_apply V0) k

theorem alpha6_apply (k : Fin 128) :
    res_main_v125 (F := Ideal) V0 (ix1 k) = alpha (Xr V0) (Wir V0) oneW 6 k.val :=
  alpha_of_tables (Xr V0) (Wir V0) 6 (res_main_v119 V0) (res_main_v121 V0) reducesTo_S32768x128_S128_d0 (by decide) h_S_
    (pp6_apply V0) (rep6_apply V0) k

theorem alpha7_apply (k : Fin 256) :
    res_main_v142 (F := Ideal) V0 (ix1 k) = alpha (Xr V0) (Wir V0) oneW 7 k.val :=
  alpha_of_tables (Xr V0) (Wir V0) 7 (res_main_v136 V0) (res_main_v138 V0) reducesTo_S32768x256_S256_d0 (by decide) h_S_
    (pp7_apply V0) (rep7_apply V0) k

theorem alpha8_apply (k : Fin 512) :
    res_main_v159 (F := Ideal) V0 (ix1 k) = alpha (Xr V0) (Wir V0) oneW 8 k.val :=
  alpha_of_tables (Xr V0) (Wir V0) 8 (res_main_v153 V0) (res_main_v155 V0) reducesTo_S32768x512_S512_d0 (by decide) h_S_
    (pp8_apply V0) (rep8_apply V0) k

theorem alpha9_apply (k : Fin 1024) :
    res_main_v176 (F := Ideal) V0 (ix1 k) = alpha (Xr V0) (Wir V0) oneW 9 k.val :=
  alpha_of_tables (Xr V0) (Wir V0) 9 (res_main_v170 V0) (res_main_v172 V0) reducesTo_S32768x1024_S1024_d0 (by decide) h_S_
    (pp9_apply V0) (rep9_apply V0) k

/-! ## Each layer's summed terms -/

theorem layer0 (j : S_.Idx) :
    Host.reduceAdd (F := Ideal) (addf (Host.log (res_main_v23 V0)) (Host.log (subf (broadcastInDim S2 ![] bcast_S_S2 (constant S_ .f32 0x3F800000#32)) (res_main_v23 V0)))) (constant S_ .f32 0x00000000#32) reducesTo_S2_S_d0 h_S_ j
      = layerSum (Xr V0) (Wir V0) oneW zeroW 0 :=
  layer_of_alpha (Xr V0) (Wir V0) 0 (n := 2) rfl (res_main_v23 V0) bcast_S_S2 reducesTo_S2_S_d0 h_S_ (alpha0_apply V0) j

theorem layer1 (j : S_.Idx) :
    Host.reduceAdd (F := Ideal) (addf (Host.log (res_main_v40 V0)) (Host.log (subf (broadcastInDim S4 ![] bcast_S_S4 (constant S_ .f32 0x3F800000#32)) (res_main_v40 V0)))) (constant S_ .f32 0x00000000#32) reducesTo_S4_S_d0 h_S_ j
      = layerSum (Xr V0) (Wir V0) oneW zeroW 1 :=
  layer_of_alpha (Xr V0) (Wir V0) 1 (n := 4) rfl (res_main_v40 V0) bcast_S_S4 reducesTo_S4_S_d0 h_S_ (alpha1_apply V0) j

theorem layer2 (j : S_.Idx) :
    Host.reduceAdd (F := Ideal) (addf (Host.log (res_main_v57 V0)) (Host.log (subf (broadcastInDim S8 ![] bcast_S_S8 (constant S_ .f32 0x3F800000#32)) (res_main_v57 V0)))) (constant S_ .f32 0x00000000#32) reducesTo_S8_S_d0 h_S_ j
      = layerSum (Xr V0) (Wir V0) oneW zeroW 2 :=
  layer_of_alpha (Xr V0) (Wir V0) 2 (n := 8) rfl (res_main_v57 V0) bcast_S_S8 reducesTo_S8_S_d0 h_S_ (alpha2_apply V0) j

theorem layer3 (j : S_.Idx) :
    Host.reduceAdd (F := Ideal) (addf (Host.log (res_main_v74 V0)) (Host.log (subf (broadcastInDim S16 ![] bcast_S_S16 (constant S_ .f32 0x3F800000#32)) (res_main_v74 V0)))) (constant S_ .f32 0x00000000#32) reducesTo_S16_S_d0 h_S_ j
      = layerSum (Xr V0) (Wir V0) oneW zeroW 3 :=
  layer_of_alpha (Xr V0) (Wir V0) 3 (n := 16) rfl (res_main_v74 V0) bcast_S_S16 reducesTo_S16_S_d0 h_S_ (alpha3_apply V0) j

theorem layer4 (j : S_.Idx) :
    Host.reduceAdd (F := Ideal) (addf (Host.log (res_main_v91 V0)) (Host.log (subf (broadcastInDim S32 ![] bcast_S_S32 (constant S_ .f32 0x3F800000#32)) (res_main_v91 V0)))) (constant S_ .f32 0x00000000#32) reducesTo_S32_S_d0 h_S_ j
      = layerSum (Xr V0) (Wir V0) oneW zeroW 4 :=
  layer_of_alpha (Xr V0) (Wir V0) 4 (n := 32) rfl (res_main_v91 V0) bcast_S_S32 reducesTo_S32_S_d0 h_S_ (alpha4_apply V0) j

theorem layer5 (j : S_.Idx) :
    Host.reduceAdd (F := Ideal) (addf (Host.log (res_main_v108 V0)) (Host.log (subf (broadcastInDim S64 ![] bcast_S_S64 (constant S_ .f32 0x3F800000#32)) (res_main_v108 V0)))) (constant S_ .f32 0x00000000#32) reducesTo_S64_S_d0 h_S_ j
      = layerSum (Xr V0) (Wir V0) oneW zeroW 5 :=
  layer_of_alpha (Xr V0) (Wir V0) 5 (n := 64) rfl (res_main_v108 V0) bcast_S_S64 reducesTo_S64_S_d0 h_S_ (alpha5_apply V0) j

theorem layer6 (j : S_.Idx) :
    Host.reduceAdd (F := Ideal) (addf (Host.log (res_main_v125 V0)) (Host.log (subf (broadcastInDim S128 ![] bcast_S_S128 (constant S_ .f32 0x3F800000#32)) (res_main_v125 V0)))) (constant S_ .f32 0x00000000#32) reducesTo_S128_S_d0 h_S_ j
      = layerSum (Xr V0) (Wir V0) oneW zeroW 6 :=
  layer_of_alpha (Xr V0) (Wir V0) 6 (n := 128) rfl (res_main_v125 V0) bcast_S_S128 reducesTo_S128_S_d0 h_S_ (alpha6_apply V0) j

theorem layer7 (j : S_.Idx) :
    Host.reduceAdd (F := Ideal) (addf (Host.log (res_main_v142 V0)) (Host.log (subf (broadcastInDim S256 ![] bcast_S_S256 (constant S_ .f32 0x3F800000#32)) (res_main_v142 V0)))) (constant S_ .f32 0x00000000#32) reducesTo_S256_S_d0 h_S_ j
      = layerSum (Xr V0) (Wir V0) oneW zeroW 7 :=
  layer_of_alpha (Xr V0) (Wir V0) 7 (n := 256) rfl (res_main_v142 V0) bcast_S_S256 reducesTo_S256_S_d0 h_S_ (alpha7_apply V0) j

theorem layer8 (j : S_.Idx) :
    Host.reduceAdd (F := Ideal) (addf (Host.log (res_main_v159 V0)) (Host.log (subf (broadcastInDim S512 ![] bcast_S_S512 (constant S_ .f32 0x3F800000#32)) (res_main_v159 V0)))) (constant S_ .f32 0x00000000#32) reducesTo_S512_S_d0 h_S_ j
      = layerSum (Xr V0) (Wir V0) oneW zeroW 8 :=
  layer_of_alpha (Xr V0) (Wir V0) 8 (n := 512) rfl (res_main_v159 V0) bcast_S_S512 reducesTo_S512_S_d0 h_S_ (alpha8_apply V0) j

theorem layer9 (j : S_.Idx) :
    Host.reduceAdd (F := Ideal) (addf (Host.log (res_main_v176 V0)) (Host.log (subf (broadcastInDim S1024 ![] bcast_S_S1024 (constant S_ .f32 0x3F800000#32)) (res_main_v176 V0)))) (constant S_ .f32 0x00000000#32) reducesTo_S1024_S_d0 h_S_ j
      = layerSum (Xr V0) (Wir V0) oneW zeroW 9 :=
  layer_of_alpha (Xr V0) (Wir V0) 9 (n := 1024) rfl (res_main_v176 V0) bcast_S_S1024 reducesTo_S1024_S_d0 h_S_ (alpha9_apply V0) j

/-- The two results of the reference's run, as the specification's arrays; the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v187)
          = (fun y : S32768x10.Idx => leaf (Xr (launchContents m c)) (Wir (launchContents m c)) (Wlr (launchContents m c)) oneW (y 0) (y 1))
      ∧ r.2.mem ((c.tc : Thread nD τ).loc main_v184)
          = (fun _ : S_.Idx => penRun (Xr (launchContents m c)) (Wir (launchContents m c)) oneW zeroW cR 10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs (onTc (τ := τ) (main (F := Ideal))) ⟨m, fun _ => 0, ρ⟩).mono (fun _ h c => ?_)
    (Cert.ReferenceIdeal.Value.run (F := Ideal) m ρ)
  refine ⟨(h c).1.trans (funext fun y => y_apply (launchContents m c) y),
    (h c).2.1.trans (funext fun j => ?_), (h c).2.2⟩
  show _ = penRun (Xr (launchContents m c)) (Wir (launchContents m c)) oneW zeroW cR (9 + 1)
  refine pen_step (Xr (launchContents m c)) (Wir (launchContents m c)) 9 _ _ _ j rfl ?_ (layer9 (launchContents m c) j)
  refine pen_step (Xr (launchContents m c)) (Wir (launchContents m c)) 8 _ _ _ j rfl ?_ (layer8 (launchContents m c) j)
  refine pen_step (Xr (launchContents m c)) (Wir (launchContents m c)) 7 _ _ _ j rfl ?_ (layer7 (launchContents m c) j)
  refine pen_step (Xr (launchContents m c)) (Wir (launchContents m c)) 6 _ _ _ j rfl ?_ (layer6 (launchContents m c) j)
  refine pen_step (Xr (launchContents m c)) (Wir (launchContents m c)) 5 _ _ _ j rfl ?_ (layer5 (launchContents m c) j)
  refine pen_step (Xr (launchContents m c)) (Wir (launchContents m c)) 4 _ _ _ j rfl ?_ (layer4 (launchContents m c) j)
  refine pen_step (Xr (launchContents m c)) (Wir (launchContents m c)) 3 _ _ _ j rfl ?_ (layer3 (launchContents m c) j)
  refine pen_step (Xr (launchContents m c)) (Wir (launchContents m c)) 2 _ _ _ j rfl ?_ (layer2 (launchContents m c) j)
  refine pen_step (Xr (launchContents m c)) (Wir (launchContents m c)) 1 _ _ _ j rfl ?_ (layer1 (launchContents m c) j)
  refine pen_step (Xr (launchContents m c)) (Wir (launchContents m c)) 0 _ _ _ j rfl ?_ (layer0 (launchContents m c) j)
  exact constant_apply _ _

end Cert.ReferenceIdeal.RefValue

end
-- ==== Proof.Reals.lean ====
/-
  Under finite inputs every quantity of the tree is a real number, and every share `alpha` lies strictly between
  0 and 1, so every regulariser term is a real number.
-/
import proofs.«178311_j48498770706534_1_alg».proof.Proof.Weights

noncomputable section

namespace Cert.SDT

open Idealize.ShloMosaic

/-- A finite sum of real numbers, read in the extended reals, is the real sum. -/
theorem real_coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logistic function of a real number lies strictly between 0 and 1. -/
theorem logistic_unit (r : ℝ) : 0 < (1 + Real.exp (-r))⁻¹ ∧ (1 + Real.exp (-r))⁻¹ < 1 := by
  have he : 0 < Real.exp (-r) := Real.exp_pos _
  constructor
  · positivity
  · exact inv_lt_one_of_one_lt₀ (by linarith)

/-- The branch factor at a node whose left-probability is a real in (0,1) is again a real in (0,1). -/
theorem branch_unit (P : ℕ → EReal) (n k : ℕ) (hP : ∃ p : ℝ, 0 < p ∧ p < 1 ∧ P n = (p : EReal)) :
    ∃ f : ℝ, 0 < f ∧ f < 1 ∧ (if k % 2 = 0 then P n else 1 - P n) = (f : EReal) := by
  obtain ⟨p, hp0, hp1, hp⟩ := hP
  by_cases h : k % 2 = 0
  · exact ⟨p, hp0, hp1, by rw [if_pos h, hp]⟩
  · refine ⟨1 - p, by linarith, by linarith, ?_⟩
    rw [if_neg h, hp, EReal.coe_sub, EReal.coe_one]

/-- The node consulted on the way to child `k` of layer `l + 1` is one of the 1023 inner nodes. -/
theorem node_lt_1023 (l k : ℕ) (hl : l < 10) (hk : k < 2 ^ (l + 1)) : 2 ^ l - 1 + k / 2 < 1023 := by
  have h1 : k / 2 < 2 ^ l := by
    rw [Nat.div_lt_iff_lt_mul (by norm_num)]; rw [pow_succ] at hk; exact hk
  have h2 : 2 ^ l ≤ 2 ^ 9 := Nat.pow_le_pow_right (by norm_num) (by omega)
  have h3 : 0 < 2 ^ l := Nat.pos_of_ne_zero (by positivity)
  omega

/-- Reaching probabilities are positive reals, when the probabilities consulted are reals in (0,1). -/
theorem muRow_pos (P : ℕ → EReal) (hP : ∀ n, n < 1023 → ∃ p : ℝ, 0 < p ∧ p < 1 ∧ P n = (p : EReal)) :
    ∀ l k, l ≤ 10 → k < 2 ^ l → ∃ m : ℝ, 0 < m ∧ muRow 1 P l k = (m : EReal)
  | 0, k, _, _ => ⟨1, one_pos, by rw [muRow_zero, EReal.coe_one]⟩
  | l + 1, k, hl, hk => by
    have h1 : k / 2 < 2 ^ l := by
      rw [Nat.div_lt_iff_lt_mul (by norm_num)]; rw [pow_succ] at hk; exact hk
    obtain ⟨m, hm0, hm⟩ := muRow_pos P hP l (k / 2) (by omega) h1
    obtain ⟨f, hf0, _, hf⟩ := branch_unit P (2 ^ l - 1 + k / 2) k (hP _ (node_lt_1023 l k (by omega) hk))
    exact ⟨m * f, mul_pos hm0 hf0, by rw [muRow_succ, hm, hf, EReal.coe_mul]⟩

/-- A child's reaching probability is its parent's (a positive real) times a real factor in (0,1). -/
theorem muRow_step (P : ℕ → EReal) (hP : ∀ n, n < 1023 → ∃ p : ℝ, 0 < p ∧ p < 1 ∧ P n = (p : EReal))
    (l k : ℕ) (hl : l < 10) (hk : k < 2 ^ (l + 1)) :
    ∃ m f : ℝ, 0 < m ∧ 0 < f ∧ f < 1 ∧ muRow 1 P l (k / 2) = (m : EReal)
      ∧ muRow 1 P (l + 1) k = ((m * f : ℝ) : EReal) := by
  have h1 : k / 2 < 2 ^ l := by
    rw [Nat.div_lt_iff_lt_mul (by norm_num)]; rw [pow_succ] at hk; exact hk
  obtain ⟨m, hm0, hm⟩ := muRow_pos P hP l (k / 2) (by omega) h1
  obtain ⟨f, hf0, hf1, hf⟩ := branch_unit P (2 ^ l - 1 + k / 2) k (hP _ (node_lt_1023 l k hl hk))
  exact ⟨m, f, hm0, hf0, hf1, hm, by rw [muRow_succ, hm, hf, EReal.coe_mul]⟩

variable (X : Fin 32768 → Fin 784 → EReal) (Wi : Fin 1023 → Fin 785 → EReal)

/-- With real inputs, every left-probability is a real number strictly between 0 and 1. -/
theorem prob_unit (hX : ∀ b d, ∃ r : ℝ, X b d = (r : EReal)) (hW : ∀ j d, ∃ r : ℝ, Wi j d = (r : EReal))
    (b : Fin 32768) (j : Fin 1023) : ∃ p : ℝ, 0 < p ∧ p < 1 ∧ prob X Wi b j = (p : EReal) := by
  choose x hx using hX
  choose w hw using hW
  have hlog : logit X Wi b j = (((∑ d : Fin 784, x b d * w j d.succ) + w j 0 : ℝ) : EReal) := by
    simp only [logit, hx, hw, ← EReal.coe_mul, real_coe_sum, ← EReal.coe_add]
  refine ⟨(1 + Real.exp (-((∑ d : Fin 784, x b d * w j d.succ) + w j 0)))⁻¹,
    (logistic_unit _).1, (logistic_unit _).2, ?_⟩
  rw [prob, hlog, Ideal.logistic_coe]

/-- The same for the node numbered by a natural number below 1023. -/
theorem probN_unit (hX : ∀ b d, ∃ r : ℝ, X b d = (r : EReal)) (hW : ∀ j d, ∃ r : ℝ, Wi j d = (r : EReal))
    (b : Fin 32768) (j : ℕ) (hj : j < 1023) : ∃ p : ℝ, 0 < p ∧ p < 1 ∧ probN X Wi b j = (p : EReal) := by
  rw [probN, dif_pos hj]
  exact prob_unit X Wi hX hW b ⟨j, hj⟩

/-- With real inputs, the share `alpha` of child `k` of layer `l + 1` is a real strictly between 0 and 1:
    both masses are positive reals, and the child's is strictly the smaller because every row's reaching
    probability shrinks by a factor in (0,1) on the way down. -/
theorem alpha_unit (hX : ∀ b d, ∃ r : ℝ, X b d = (r : EReal)) (hW : ∀ j d, ∃ r : ℝ, Wi j d = (r : EReal))
    (l : ℕ) (hl : l < 10) (k : ℕ) (hk : k < 2 ^ (l + 1)) :
    ∃ a : ℝ, 0 < a ∧ a < 1 ∧ alpha X Wi 1 l k = (a : EReal) := by
  have hstep : ∀ b : Fin 32768, ∃ m f : ℝ, 0 < m ∧ 0 < f ∧ f < 1 ∧ mu X Wi 1 b l (k / 2) = (m : EReal)
      ∧ mu X Wi 1 b (l + 1) k = ((m * f : ℝ) : EReal) :=
    fun b => muRow_step _ (fun n hn => probN_unit X Wi hX hW b n hn) l k hl hk
  choose m f hm0 hf0 hf1 hm hmf using hstep
  have hN : numer X Wi 1 l k = ((∑ b : Fin 32768, m b * f b : ℝ) : EReal) := by
    simp only [numer, hmf, real_coe_sum]
  have hD : denom X Wi 1 l k = ((∑ b : Fin 32768, m b : ℝ) : EReal) := by
    simp only [denom, hm, real_coe_sum]
  have hne : (Finset.univ : Finset (Fin 32768)).Nonempty := ⟨0, Finset.mem_univ _⟩
  have hNpos : 0 < ∑ b : Fin 32768, m b * f b :=
    Finset.sum_pos (fun b _ => mul_pos (hm0 b) (hf0 b)) hne
  have hlt : ∑ b : Fin 32768, m b * f b < ∑ b : Fin 32768, m b :=
    Finset.sum_lt_sum_of_nonempty hne (fun b _ => by nlinarith [hm0 b, hf1 b])
  have hDpos : 0 < ∑ b : Fin 32768, m b := lt_trans hNpos hlt
  refine ⟨(∑ b : Fin 32768, m b * f b) * (1 / ∑ b : Fin 32768, m b),
    mul_pos hNpos (one_div_pos.mpr hDpos), ?_, ?_⟩
  · rw [mul_one_div, div_lt_one hDpos]; exact hlt
  · rw [alpha, hN, hD, Ideal.div_coe hDpos.ne', EReal.coe_mul]

/-- With real inputs, the regulariser's term at child `k` of layer `l + 1` (`l < 10`, `k < 2^(l+1)`) is a real number. -/
theorem term_real (hX : ∀ b d, ∃ r : ℝ, X b d = (r : EReal)) (hW : ∀ j d, ∃ r : ℝ, Wi j d = (r : EReal))
    (l : ℕ) (hl : l < 10) (k : ℕ) (hk : k < 2 ^ (l + 1)) :
    ∃ r : ℝ, term X Wi oneW l k = (r : EReal) := by
  rw [show oneW = 1 from Cert.Consts.ofBits_one]
  obtain ⟨a, ha0, ha1, ha⟩ := alpha_unit X Wi hX hW l hl k hk
  refine ⟨Real.log a + Real.log (1 - a), ?_⟩
  rw [term, ha, ← EReal.coe_one, ← EReal.coe_sub, Ideal.log_coe, Ideal.log_coe, if_neg (not_le.mpr ha0),
    if_neg (not_le.mpr (by linarith : (0 : ℝ) < 1 - a)), EReal.coe_add]

end Cert.SDT

end
-- ==== Proof.PenAlgebra.lean ====
/-
  The two forms of the penalty agree once every term is a real number.

  One form is `s · ∑ j, w j · term j` over the flat numbering `j < 2046` of all children, with `s = -1/2` and
  `w j = ω (layer of j)`, where `ω i = 8589935 / 2^(33+i)`.  The other is the running difference
  `(((0 - c 0 · (0 + S 0)) - c 1 · (0 + S 1)) - …) - c 9 · (0 + S 9)`, where `S l` is the sum of layer `l`'s
  `2^(l+1)` terms and `c l = ω (l+1) = ω l / 2`.

  The flat range `[0, 2046)` is the disjoint union of the ten blocks `[off l, off l + 2^(l+1))`, because
  `off (l+1) = off l + 2^(l+1)` and `off 10 = 2046`; on block `l` the layer of `off l + k` is `l` and its position
  within the layer is `k`.  So the flat sum is `∑ l < 10, ω l · S l`.  With every term real, all sums, products and
  differences are those of real numbers (the embedding of the reals in the extended reals preserves them), and the
  identity `-(1/2) · ∑ l, ω l · S l = 0 - ∑ l, (ω l / 2) · S l` is plain real algebra.
-/
import Mathlib.Algebra.BigOperators.Group.Finset.Basic
import Mathlib.Algebra.BigOperators.Ring.Finset
import Mathlib.Data.Fintype.BigOperators
import Mathlib.Data.EReal.Operations
import Mathlib.Tactic.Ring
import Mathlib.Tactic.IntervalCases
import Mathlib.Tactic.NormNum
import proofs.«178311_j48498770706534_1_alg».proof.Proof.Weights

noncomputable section

namespace Cert.SDT

open Idealize.ShloMosaic Finset

/-- The embedding of the reals in the extended reals commutes with finite sums. -/
theorem coe_sum_range (f : ℕ → ℝ) (n : ℕ) :
    ∑ k ∈ range n, ((f k : ℝ) : EReal) = ((∑ k ∈ range n, f k : ℝ) : EReal) := by
  induction n with
  | zero => simp
  | succ n ih => rw [sum_range_succ, sum_range_succ, ih, EReal.coe_add]

/-- Layer `n + 1` starts where layer `n`'s `2^(n+1)` children end. -/
theorem off_succ (n : ℕ) : off (n + 1) = off n + 2 ^ (n + 1) := by
  unfold off
  have h : 2 ≤ 2 ^ (n + 1) := by
    calc 2 = 2 ^ 1 := rfl
      _ ≤ 2 ^ (n + 1) := Nat.pow_le_pow_right (by norm_num) (by omega)
  rw [pow_succ 2 (n + 1)]
  omega

/-- A sum over the flat numbering up to the start of layer `n` is the sum, layer by layer, over each layer's
    children. -/
theorem sum_range_off {M : Type*} [AddCommMonoid M] (f : ℕ → M) (n : ℕ) :
    ∑ j ∈ range (off n), f j = ∑ l ∈ range n, ∑ k ∈ range (2 ^ (l + 1)), f (off l + k) := by
  induction n with
  | zero => simp [off]
  | succ n ih => rw [off_succ, sum_range_add, ih, sum_range_succ]

/-- The layer of a flat child, read off the block its number falls in. -/
theorem layerOf_of_bounds {j : ℕ} :
    (j < 2 → layerOf j = 0) ∧ (2 ≤ j → j < 6 → layerOf j = 1) ∧ (6 ≤ j → j < 14 → layerOf j = 2)
    ∧ (14 ≤ j → j < 30 → layerOf j = 3) ∧ (30 ≤ j → j < 62 → layerOf j = 4)
    ∧ (62 ≤ j → j < 126 → layerOf j = 5) ∧ (126 ≤ j → j < 254 → layerOf j = 6)
    ∧ (254 ≤ j → j < 510 → layerOf j = 7) ∧ (510 ≤ j → j < 1022 → layerOf j = 8)
    ∧ (1022 ≤ j → layerOf j = 9) := by
  unfold layerOf
  split_ifs <;> omega

/-- The `k`-th child of layer `l` has layer `l`. -/
theorem layerOf_off_add (l : ℕ) (hl : l < 10) (k : ℕ) (hk : k < 2 ^ (l + 1)) : layerOf (off l + k) = l := by
  interval_cases l
  · have h : off 0 = 0 := by norm_num [off]
    norm_num at hk
    rw [h]; exact layerOf_of_bounds.1 (by omega)
  · have h : off 1 = 2 := by norm_num [off]
    norm_num at hk
    rw [h]; exact layerOf_of_bounds.2.1 (by omega) (by omega)
  · have h : off 2 = 6 := by norm_num [off]
    norm_num at hk
    rw [h]; exact layerOf_of_bounds.2.2.1 (by omega) (by omega)
  · have h : off 3 = 14 := by norm_num [off]
    norm_num at hk
    rw [h]; exact layerOf_of_bounds.2.2.2.1 (by omega) (by omega)
  · have h : off 4 = 30 := by norm_num [off]
    norm_num at hk
    rw [h]; exact layerOf_of_bounds.2.2.2.2.1 (by omega) (by omega)
  · have h : off 5 = 62 := by norm_num [off]
    norm_num at hk
    rw [h]; exact layerOf_of_bounds.2.2.2.2.2.1 (by omega) (by omega)
  · have h : off 6 = 126 := by norm_num [off]
    norm_num at hk
    rw [h]; exact layerOf_of_bounds.2.2.2.2.2.2.1 (by omega) (by omega)
  · have h : off 7 = 254 := by norm_num [off]
    norm_num at hk
    rw [h]; exact layerOf_of_bounds.2.2.2.2.2.2.2.1 (by omega) (by omega)
  · have h : off 8 = 510 := by norm_num [off]
    norm_num at hk
    rw [h]; exact layerOf_of_bounds.2.2.2.2.2.2.2.2.1 (by omega) (by omega)
  · have h : off 9 = 1022 := by norm_num [off]
    rw [h]; exact layerOf_of_bounds.2.2.2.2.2.2.2.2.2 (by omega)

variable (X : Fin 32768 → Fin 784 → EReal) (Wi : Fin 1023 → Fin 785 → EReal)

/-- The real value of a term (the term itself, wherever the term is real). -/
def tR (l k : ℕ) : ℝ := (term X Wi oneW l k).toReal

/-- A real term is the embedding of its real value. -/
theorem term_eq_coe
    (hterm : ∀ l : ℕ, l < 10 → ∀ k : ℕ, k < 2 ^ (l + 1) → ∃ r : ℝ, term X Wi oneW l k = (r : EReal))
    (l : ℕ) (hl : l < 10) (k : ℕ) (hk : k < 2 ^ (l + 1)) :
    term X Wi oneW l k = ((tR X Wi l k : ℝ) : EReal) := by
  obtain ⟨r, hr⟩ := hterm l hl k hk
  rw [tR, hr, EReal.toReal_coe]

/-- A layer's sum from zero is the embedding of the real sum of its terms' values. -/
theorem layerSum_eq_coe
    (hterm : ∀ l : ℕ, l < 10 → ∀ k : ℕ, k < 2 ^ (l + 1) → ∃ r : ℝ, term X Wi oneW l k = (r : EReal))
    (l : ℕ) (hl : l < 10) :
    layerSum X Wi oneW zeroW l = ((∑ k ∈ range (2 ^ (l + 1)), tR X Wi l k : ℝ) : EReal) := by
  have hz : zeroW = 0 := Cert.Consts.ofBits_zero
  rw [layerSum, hz, zero_add, Fin.sum_univ_eq_sum_range (fun k => term X Wi oneW l k) (2 ^ (l + 1)),
    ← coe_sum_range]
  exact sum_congr rfl (fun k hk => term_eq_coe X Wi hterm l hl k (mem_range.1 hk))

/-- The running difference after `n` layers is the embedding of `0 - ∑ l < n, (ω l / 2) · S l`. -/
theorem penRun_eq_coe
    (hterm : ∀ l : ℕ, l < 10 → ∀ k : ℕ, k < 2 ^ (l + 1) → ∃ r : ℝ, term X Wi oneW l k = (r : EReal))
    (n : ℕ) (hn : n ≤ 10) :
    penRun X Wi oneW zeroW cR n
      = ((0 - ∑ l ∈ range n, 1 / 2 * Cert.Consts.wReal l * ∑ k ∈ range (2 ^ (l + 1)), tR X Wi l k : ℝ)
          : EReal) := by
  induction n with
  | zero =>
    have hz : zeroW = 0 := Cert.Consts.ofBits_zero
    rw [penRun, hz]; simp
  | succ n ih =>
    have hn' : n < 10 := hn
    rw [penRun, ih (by omega), layerSum_eq_coe X Wi hterm n hn', cR, Cert.Consts.ofBits_wWord (n + 1) (by omega),
      Cert.Consts.wReal_succ, ← EReal.coe_mul, ← EReal.coe_sub, sum_range_succ]
    congr 1; ring

/-- The flat weighted sum is the embedding of `∑ l < 10, ∑ k < 2^(l+1), ω l · (value of term l k)`. -/
theorem flat_eq_coe
    (hterm : ∀ l : ℕ, l < 10 → ∀ k : ℕ, k < 2 ^ (l + 1) → ∃ r : ℝ, term X Wi oneW l k = (r : EReal)) :
    ∑ j : Fin 2046, wK j * termF X Wi oneW j
      = ((∑ l ∈ range 10, ∑ k ∈ range (2 ^ (l + 1)), Cert.Consts.wReal l * tR X Wi l k : ℝ) : EReal) := by
  have h2046 : range 2046 = range (off 10) := by norm_num [off]
  rw [Fin.sum_univ_eq_sum_range (fun j => wK j * termF X Wi oneW j) 2046, h2046, sum_range_off, ← coe_sum_range]
  refine sum_congr rfl (fun l hl => ?_)
  have hl' : l < 10 := mem_range.1 hl
  rw [← coe_sum_range]
  refine sum_congr rfl (fun k hk => ?_)
  have hk' : k < 2 ^ (l + 1) := mem_range.1 hk
  rw [termF_eq, wK, layerOf_off_add l hl' k hk', Nat.add_sub_cancel_left,
    Cert.Consts.ofBits_wWord l (by omega), term_eq_coe X Wi hterm l hl' k hk', EReal.coe_mul]

/-- If every term is real, `-0.5 · ∑ j, w j · term j` over the flat numbering is the running difference
    `(((0 - c 0 · (0 + S 0)) - c 1 · (0 + S 1)) - …) - c 9 · (0 + S 9)`, because `c l = w_l / 2` exactly. -/
theorem penFlat_eq_penRun
    (hterm : ∀ l : ℕ, l < 10 → ∀ k : ℕ, k < 2 ^ (l + 1) → ∃ r : ℝ, term X Wi oneW l k = (r : EReal)) :
    penFlat X Wi oneW negHalfW wK = penRun X Wi oneW zeroW cR 10 := by
  have hs : negHalfW = ((-(1 / 2) : ℝ) : EReal) := Cert.Consts.ofBits_neg_half
  rw [penFlat, flat_eq_coe X Wi hterm, penRun_eq_coe X Wi hterm 10 le_rfl, hs, ← EReal.coe_mul]
  congr 1
  rw [mul_sum, zero_sub, ← sum_neg_distrib]
  refine sum_congr rfl (fun l _ => ?_)
  rw [← mul_sum]; ring

end Cert.SDT

end
-- ==== Proof.Finite.lean ====
/-
  The precondition says every entry of the three inputs has magnitude below +∞; on the extended reals an entry whose
  magnitude `max x (-x)` is below `⊤` is neither infinity, hence a real number.
-/
import proofs.«178311_j48498770706534_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.KernelVsHost

noncomputable section

namespace Cert.SDT

open Idealize.ShloMosaic

/-- An extended real whose "is an infinity" flag, complemented, reads 1 is neither `⊤` nor `⊥`, hence a real number:
    the flag is the truth value of `x = ⊤ ∨ x = ⊥`, and the extended reals are `⊥`, `⊤` and the reals. -/
theorem real_of_not_infinite (x : Ideal .f32) (h : IntOp.xori (FloatOps.weird x) 1#1 = 1#1) :
    ∃ r : ℝ, x = (r : EReal) := by
  -- a one-bit word whose complement is 1 is 0
  have hw : FloatOps.weird x = 0#1 := by
    revert h; generalize FloatOps.weird x = w; revert w; decide
  have hw' : BitVec.ofBool (decide ((x : EReal) = ⊤ ∨ (x : EReal) = ⊥)) = 0#1 := hw
  have hn : ¬ ((x : EReal) = ⊤ ∨ (x : EReal) = ⊥) := by
    intro hc; simp [hc] at hw'
  induction x using EReal.rec with
  | bot => exact absurd (Or.inr rfl) hn
  | top => exact absurd (Or.inl rfl) hn
  | coe r => exact ⟨r, rfl⟩

/-- If the printed precondition holds of three arrays of extended reals, every entry of the first two is a real number. -/
theorem real_of_pre [Cert.Pre_finite_inputs.Facts]
    (a0 : FVec Ideal Cert.Pre_finite_inputs.S32768x784 .f32) (a1 : FVec Ideal Cert.Pre_finite_inputs.S1023x785 .f32)
    (a2 : FVec Ideal Cert.Pre_finite_inputs.S10x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) := by
  -- the result of each `all` has rank 0, so a single index
  haveI : Subsingleton Cert.Pre_finite_inputs.S_.Idx := ⟨fun a b => funext fun d => d.elim0⟩
  -- the predicate is the conjunction of three `all`s; it is 1, so each conjunct is
  have h0 := congrFun h ValueIdx.ix0
  dsimp only [Cert.Pre_finite_inputs.fn] at h0
  obtain ⟨h01, -⟩ := IntOp.andi_eq_one.1 h0
  obtain ⟨hA, hB⟩ := IntOp.andi_eq_one.1 h01
  -- an `all` that is 1 had 1 at every entry: `|a i| < +∞` there, which is the complemented infinity flag of `a i`
  refine ⟨fun i => ?_, fun i => ?_⟩
  · have e := Host.reduce_andi_all _ _ _ _ _ hA i
    exact real_of_not_infinite (a0 i) ((Ideal.xori_weird_eq_hostAbsf_olt_inf (a0 i)).trans e)
  · have e := Host.reduce_andi_all _ _ _ _ _ hB i
    exact real_of_not_infinite (a1 i) ((Ideal.xori_weird_eq_hostAbsf_olt_inf (a1 i)).trans e)

end Cert.SDT

end
-- ==== Proof.lean ====
/-
  The soft decision tree kernel against its reference, over the extended reals.

  Both programs compute, for a batch of 32768 rows, the left-probabilities of the 1023 inner nodes (a logistic of an
  affine score), the probabilities of reaching every node of the ten layers of a binary tree, a prediction per row
  (leaf weights against leaf probabilities) and a penalty built from, for every non-root node, the share `alpha` of its
  parent's batch mass that reaches it: the sum over the nodes of `log alpha + log (1 - alpha)`, weighted by layer.

  The kernel walks the batch in 64 tiles of 512 rows, keeps the masses in two accumulators carried from tile to tile,
  and at the last tile forms the penalty as `-0.5 · ∑ (per-node weight) · term` over all 2046 nodes at once; the
  reference treats the batch whole and subtracts layer after layer `(weight of the layer) · ∑ term`.  Read as values
  (`Proof/KerRun.lean`, `Proof/RefPen.lean`) the predictions are one function of the arguments outright — sums over
  the extended reals commute and re-associate freely — while the two penalties are one value once every term is a real
  number, which finite inputs guarantee (every probability lies strictly between 0 and 1, so every share does, and
  both logarithms are real: `Proof/Reals.lean`): then the scale distributes over the sum, and the reference's layer
  weight is exactly half the kernel's node weight (`Proof/PenAlgebra.lean`, `Proof/Consts.lean`).
-/
import proofs.«178311_j48498770706534_1_alg».proof.Defs
import proofs.«178311_j48498770706534_1_alg».proof.Proof.Gen.Kernel
import proofs.«178311_j48498770706534_1_alg».proof.Proof.Gen.Kernel.Skeleton
import proofs.«178311_j48498770706534_1_alg».proof.Proof.Gen.Kernel.Launch
import proofs.«178311_j48498770706534_1_alg».proof.Proof.Gen.Kernel.Points
import proofs.«178311_j48498770706534_1_alg».proof.Proof.Gen.Kernel.Frame
import proofs.«178311_j48498770706534_1_alg».proof.Proof.Gen.KernelIdeal
import proofs.«178311_j48498770706534_1_alg».proof.Proof.Gen.KernelIdeal.Skeleton
import proofs.«178311_j48498770706534_1_alg».proof.Proof.Gen.KernelIdeal.Launch
import proofs.«178311_j48498770706534_1_alg».proof.Proof.Gen.KernelIdeal.Points
import proofs.«178311_j48498770706534_1_alg».proof.Proof.Gen.KernelIdeal.Frame
import proofs.«178311_j48498770706534_1_alg».proof.Proof.Gen.ReferenceIdeal
import proofs.«178311_j48498770706534_1_alg».proof.Proof.Gen.Pre_finite_inputs
import proofs.«178311_j48498770706534_1_alg».proof.Proof.KerRun
import proofs.«178311_j48498770706534_1_alg».proof.Proof.RefPen
import proofs.«178311_j48498770706534_1_alg».proof.Proof.Reals
import proofs.«178311_j48498770706534_1_alg».proof.Proof.PenAlgebra
import proofs.«178311_j48498770706534_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.SDT

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the predictions at the specification's array; the kernel's penalty is the flat weighted
    sum and the reference's the running difference, equal because finite inputs make every term a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · -- the arguments agree, so the two prediction arrays are one function of them
    have e0 : Cert.ReferenceIdeal.RefValue.Xr (StableHlo.launchContents m' c) = Cert.KernelIdeal.Blocks.Xk m c := by
      unfold Cert.ReferenceIdeal.RefValue.Xr Cert.KernelIdeal.Blocks.Xk
      exact congrArg _ (hagree c).1
    have e1 : Cert.ReferenceIdeal.RefValue.Wir (StableHlo.launchContents m' c) = Cert.KernelIdeal.Blocks.Wik m c := by
      unfold Cert.ReferenceIdeal.RefValue.Wir Cert.KernelIdeal.Blocks.Wik
      exact congrArg _ (hagree c).2.1
    have e2 : Cert.ReferenceIdeal.RefValue.Wlr (StableHlo.launchContents m' c) = Cert.KernelIdeal.Blocks.Wlk m c := by
      unfold Cert.ReferenceIdeal.RefValue.Wlr Cert.KernelIdeal.Blocks.Wlk
      exact congrArg _ (hagree c).2.2
    rw [e0, e1, e2]
  · have e0 : Cert.ReferenceIdeal.RefValue.Xr (StableHlo.launchContents m' c) = Cert.KernelIdeal.Blocks.Xk m c := by
      unfold Cert.ReferenceIdeal.RefValue.Xr Cert.KernelIdeal.Blocks.Xk
      exact congrArg _ (hagree c).1
    have e1 : Cert.ReferenceIdeal.RefValue.Wir (StableHlo.launchContents m' c) = Cert.KernelIdeal.Blocks.Wik m c := by
      unfold Cert.ReferenceIdeal.RefValue.Wir Cert.KernelIdeal.Blocks.Wik
      exact congrArg _ (hagree c).2.1
    rw [e0, e1]
    -- finite inputs: every entry of the batch and of the inner weights is a real number
    have hfin := @Cert.SDT.real_of_pre Cert.Pre_finite_inputs.Gen.facts _ _ _ (hpre c)
    have hX : ∀ b d, ∃ r : ℝ, Cert.KernelIdeal.Blocks.Xk m c b d = (r : EReal) := fun b d => hfin.1 (ix2 b d)
    have hW : ∀ j d, ∃ r : ℝ, Cert.KernelIdeal.Blocks.Wik m c j d = (r : EReal) := fun j d => hfin.2 (ix2 j d)
    funext _
    exact (penFlat_eq_penRun _ _ (fun l hl k hk => term_real _ _ hX hW l hl k hk)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
